-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x5 : Shape := ⟨2, ![100000, 5]⟩
abbrev S600000 : Shape := ⟨1, ![600000]⟩
abbrev S200000 : Shape := ⟨1, ![200000]⟩
abbrev S8x16 : Shape := ⟨2, ![8, 16]⟩
abbrev S28x128 : Shape := ⟨2, ![28, 128]⟩
abbrev S128 : Shape := ⟨1, ![128]⟩
abbrev S128x128 : Shape := ⟨2, ![128, 128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x5 : S_.BroadcastsInDim S100000x5 (![] : Fin 0 → Fin S100000x5.rank)
  reducesTo_S100000x5_S_d0_1 : S100000x5.ReducesTo [0, 1] S_
  bcast_S_S600000 : S_.BroadcastsInDim S600000 (![] : Fin 0 → Fin S600000.rank)
  reducesTo_S600000_S_d0 : S600000.ReducesTo [0] S_
  bcast_S_S200000 : S_.BroadcastsInDim S200000 (![] : Fin 0 → Fin S200000.rank)
  reducesTo_S200000_S_d0 : S200000.ReducesTo [0] S_
  bcast_S_S8x16 : S_.BroadcastsInDim S8x16 (![] : Fin 0 → Fin S8x16.rank)
  reducesTo_S8x16_S_d0_1 : S8x16.ReducesTo [0, 1] S_
  bcast_S_S28x128 : S_.BroadcastsInDim S28x128 (![] : Fin 0 → Fin S28x128.rank)
  reducesTo_S28x128_S_d0_1 : S28x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg14 : FVec F S128 .f32) (main_arg15 : FVec F S128 .f32) (main_arg16 : IVec S100000 32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S100000 32 := broadcastInDim S100000 ![] bcast_S_S100000 main_c_30
  let main_v80 : IVec S100000 1 := cmpi .sge main_arg16 main_v79
  let main_c_31 : IVec S_ 32 := constantI S_ 32 8#32
  let main_v81 : IVec S100000 32 := broadcastInDim S100000 ![] bcast_S_S100000 main_c_31
  let main_v82 : IVec S100000 1 := cmpi .slt main_arg16 main_v81
  let main_v83 : IVec S100000 1 := andi main_v80 main_v82
  let main_c_32 : IVec S_ 1 := constantI S_ 1 1#1
  let main_v84 : IVec S_ 1 := (fun x v => Host.reduce IntOp.andi x v reducesTo_S100000_S_d0 h_S_) main_v83 main_c_32
  fn_part5 (F := F) main_v78 main_v84

def fn_part3 {F : FTy → Type} [FloatOps F] (main_arg11 : FVec F S128 .f32) (main_arg12 : FVec F S128x128 .f32) (main_arg13 : FVec F S128 .f32) (main_arg14 : FVec F S128 .f32) (main_arg15 : FVec F S128 .f32) (main_arg16 : IVec S100000 32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : IVec S100000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_v48 main_v49 main_v50

def fn_part1 {F : FTy → Type} [FloatOps F] (main_arg4 : FVec F S200000 .f32) (main_arg5 : FVec F S8x16 .f32) (main_arg6 : FVec F S28x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : IVec S100000 32) (main_v13 : IVec S_ 1) (main_v16 : IVec S600000 1) : IVec S_ 1 :=
  let main_c_5 : IVec S_ 1 := constantI S_ 1 1#1
  let main_v17 : IVec S_ 1 := (fun x v => Host.reduce IntOp.andi x v reducesTo_S600000_S_d0 h_S_) main_v16 main_c_5
  let main_v18 : IVec S_ 1 := andi main_v13 main_v17
  let main_v19 : FVec F S200000 .f32 := Host.absf main_arg4
  let main_cst_6 : FVec F S_ .f32 := constant S_ .f32 0x7F800000#32
  let main_v20 : FVec F S200000 .f32 := broadcastInDim S200000 ![] bcast_S_S200000 main_cst_6
  let main_v21 : IVec S200000 1 := cmpf .olt main_v19 main_v20
  let main_c_7 : IVec S_ 1 := constantI S_ 1 1#1
  let main_v22 : IVec S_ 1 := (fun x v => Host.reduce IntOp.andi x v reducesTo_S200000_S_d0 h_S_) main_v21 main_c_7
  let main_v23 : IVec S_ 1 := andi main_v18 main_v22
  let main_v24 : FVec F S8x16 .f32 := Host.absf main_arg5
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S28x128 .f32 := Host.absf main_arg6
  let main_cst_10 : FVec F S_ .f32 := constant S_ .f32 0x7F800000#32
  let main_v30 : FVec F S28x128 .f32 := broadcastInDim S28x128 ![] bcast_S_S28x128 main_cst_10
  let main_v31 : IVec S28x128 1 := cmpf .olt main_v29 main_v30
  let main_c_11 : IVec S_ 1 := constantI S_ 1 1#1
  let main_v32 : IVec S_ 1 := (fun x v => Host.reduce IntOp.andi x v reducesTo_S28x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000 .f32) (main_arg1 : FVec F S100000x5 .f32) (main_arg2 : FVec F S100000x5 .f32) (main_arg3 : FVec F S600000 .f32) (main_arg4 : FVec F S200000 .f32) (main_arg5 : FVec F S8x16 .f32) (main_arg6 : FVec F S28x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : IVec S100000 32) (main_arg17 : IVec S600000 32) (main_arg18 : IVec S600000 32) (main_arg19 : IVec S200000 32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000x5 .f32 := Host.absf main_arg1
  let main_cst_0 : FVec F S_ .f32 := constant S_ .f32 0x7F800000#32
  let main_v5 : FVec F S100000x5 .f32 := broadcastInDim S100000x5 ![] bcast_S_S100000x5 main_cst_0
  let main_v6 : IVec S100000x5 1 := cmpf .olt main_v4 main_v5
  let main_c_1 : IVec S_ 1 := constantI S_ 1 1#1
  let main_v7 : IVec S_ 1 := (fun x v => Host.reduce IntOp.andi x v reducesTo_S100000x5_S_d0_1 h_S_) main_v6 main_c_1
  let main_v8 : IVec S_ 1 := andi main_v3 main_v7
  let main_v9 : FVec F S100000x5 .f32 := Host.absf main_arg2
  let main_cst_2 : FVec F S_ .f32 := constant S_ .f32 0x7F800000#32
  let main_v10 : FVec F S100000x5 .f32 := broadcastInDim S100000x5 ![] bcast_S_S100000x5 main_cst_2
  let main_v11 : IVec S100000x5 1 := cmpf .olt main_v9 main_v10
  let main_c_3 : IVec S_ 1 := constantI S_ 1 1#1
  let main_v12 : IVec S_ 1 := (fun x v => Host.reduce IntOp.andi x v reducesTo_S100000x5_S_d0_1 h_S_) main_v11 main_c_3
  let main_v13 : IVec S_ 1 := andi main_v8 main_v12
  let main_v14 : FVec F S600000 .f32 := Host.absf main_arg3
  let main_cst_4 : FVec F S_ .f32 := constant S_ .f32 0x7F800000#32
  let main_v15 : FVec F S600000 .f32 := broadcastInDim S600000 ![] bcast_S_S600000 main_cst_4
  let main_v16 : IVec S600000 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000 : Shape := ⟨1, ![100000]⟩
abbrev S100000x5 : Shape := ⟨2, ![100000, 5]⟩
abbrev S600000 : Shape := ⟨1, ![600000]⟩
abbrev S200000 : Shape := ⟨1, ![200000]⟩
abbrev S8x16 : Shape := ⟨2, ![8, 16]⟩
abbrev S28x128 : Shape := ⟨2, ![28, 128]⟩
abbrev S128 : Shape := ⟨1, ![128]⟩
abbrev S128x128 : Shape := ⟨2, ![128, 128]⟩
abbrev S1400000 : Shape := ⟨1, ![1400000]⟩
abbrev S_ : Shape := ⟨0, ![]⟩
abbrev S1400000x1 : Shape := ⟨2, ![1400000, 1]⟩
abbrev S100000x1 : Shape := ⟨2, ![100000, 1]⟩
abbrev S1 : Shape := ⟨1, ![1]⟩
abbrev S1x1 : Shape := ⟨2, ![1, 1]⟩
abbrev S100000x16 : Shape := ⟨2, ![100000, 16]⟩
abbrev S100000x28 : Shape := ⟨2, ![100000, 28]⟩
abbrev S100000x128 : Shape := ⟨2, ![100000, 128]⟩
abbrev S4000x28 : Shape := ⟨2, ![4000, 28]⟩
abbrev S4000x128 : Shape := ⟨2, ![4000, 128]⟩
abbrev S1x128 : Shape := ⟨2, ![1, 128]⟩
abbrev S600000x1 : Shape := ⟨2, ![600000, 1]⟩
abbrev S600000x128 : Shape := ⟨2, ![600000, 128]⟩
abbrev S200000x1 : Shape := ⟨2, ![200000, 1]⟩
abbrev S200000x128 : Shape := ⟨2, ![200000, 128]⟩
abbrev S4000 : Shape := ⟨1, ![4000]⟩
abbrev S4000x1 : Shape := ⟨2, ![4000, 1]⟩

abbrev nBuf : Space → Nat
  | .hbm => 115
  | .vmem => 22
  | .smem => 0
  | _ => 0

abbrev bufTy : (tb : Table) → Fin (tcTables nBuf tb) → BufTy
  | .hbm, ⟨0, _⟩ => ⟨S100000, .f32⟩
  | .hbm, ⟨1, _⟩ => ⟨S100000x5, .f32⟩
  | .hbm, ⟨2, _⟩ => ⟨S100000x5, .f32⟩
  | .hbm, ⟨3, _⟩ => ⟨S600000, .f32⟩
  | .hbm, ⟨4, _⟩ => ⟨S200000, .f32⟩
  | .hbm, ⟨5, _⟩ => ⟨S8x16, .f32⟩
  | .hbm, ⟨6, _⟩ => ⟨S28x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S100000, .i32⟩
  | .hbm, ⟨17, _⟩ => ⟨S600000, .i32⟩
  | .hbm, ⟨18, _⟩ => ⟨S600000, .i32⟩
  | .hbm, ⟨19, _⟩ => ⟨S200000, .i32⟩
  | .hbm, ⟨20, _⟩ => ⟨S1400000, .i32⟩
  | .hbm, ⟨21, _⟩ => ⟨S1400000, .f32⟩
  | .hbm, ⟨22, _⟩ => ⟨S_, .f32⟩
  | .hbm, ⟨23, _⟩ => ⟨S100000, .f32⟩
  | .hbm, ⟨24, _⟩ => ⟨S1400000x1, .i32⟩
  | .hbm, ⟨25, _⟩ => ⟨S100000, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S1, .i32⟩
  | .hbm, ⟨35, _⟩ => ⟨S_, .i32⟩
  | .hbm, ⟨36, _⟩ => ⟨S100000x1, .i32⟩
  | .hbm, ⟨37, _⟩ => ⟨S100000x1, .i1⟩
  | .hbm, ⟨38, _⟩ => ⟨S1x1, .i32⟩
  | .hbm, ⟨39, _⟩ => ⟨S100000x1, .i32⟩
  | .hbm, ⟨40, _⟩ => ⟨S100000x1, .i1⟩
  | .hbm, ⟨41, _⟩ => ⟨S100000x1, .i1⟩
  | .hbm, ⟨42, _⟩ => ⟨S_, .i1⟩
  | .hbm, ⟨43, _⟩ => ⟨S100000, .i1⟩
  | .hbm, ⟨44, _⟩ => ⟨S100000x16, .f32⟩
  | .hbm, ⟨45, _⟩ => ⟨S100000x16, .i1⟩
  | .hbm, ⟨46, _⟩ => ⟨S_, .f32⟩
  | .hbm, ⟨47, _⟩ => ⟨S100000x16, .f32⟩
  | .hbm, ⟨48, _⟩ => ⟨S100000x16, .f32⟩
  | .hbm, ⟨49, _⟩ => ⟨S100000x1, .f32⟩
  | .hbm, ⟨50, _⟩ => ⟨S100000x1, .f32⟩
  | .hbm, ⟨51, _⟩ => ⟨S100000x28, .f32⟩
  | .hbm, ⟨52, _⟩ => ⟨S100000x128, .f32⟩
  | .hbm, ⟨53, _⟩ => ⟨S100000x128, .bf16⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .bf16⟩
  | .hbm, ⟨63, _⟩ => ⟨S600000x128, .f32⟩
  | .hbm, ⟨64, _⟩ => ⟨S600000x1, .f32⟩
  | .hbm, ⟨65, _⟩ => ⟨S600000x128, .f32⟩
  | .hbm, ⟨66, _⟩ => ⟨S600000x128, .f32⟩
  | .hbm, ⟨67, _⟩ => ⟨S_, .f32⟩
  | .hbm, ⟨68, _⟩ => ⟨S100000x128, .f32⟩
  | .hbm, ⟨69, _⟩ => ⟨S600000x1, .i32⟩
  | .hbm, ⟨70, _⟩ => ⟨S100000x128, .f32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x128, .bf16⟩
  | .hbm, ⟨80, _⟩ => ⟨S600000x128, .f32⟩
  | .hbm, ⟨81, _⟩ => ⟨S600000x1, .f32⟩
  | .hbm, ⟨82, _⟩ => ⟨S600000x128, .f32⟩
  | .hbm, ⟨83, _⟩ => ⟨S600000x128, .f32⟩
  | .hbm, ⟨84, _⟩ => ⟨S_, .f32⟩
  | .hbm, ⟨85, _⟩ => ⟨S100000x128, .f32⟩
  | .hbm, ⟨86, _⟩ => ⟨S600000x1, .i32⟩
  | .hbm, ⟨87, _⟩ => ⟨S100000x128, .f32⟩
  | .hbm, ⟨88, _⟩ => ⟨S_, .i32⟩
  | .hbm, ⟨89, _⟩ => ⟨S200000, .i32⟩
  | .hbm, ⟨90, _⟩ => ⟨S200000, .i1⟩
  | .hbm, ⟨91, _⟩ => ⟨S_, .i32⟩
  | .hbm, ⟨92, _⟩ => ⟨S200000, .i32⟩
  | .hbm, ⟨93, _⟩ => ⟨S200000, .i32⟩
  | .hbm, ⟨94, _⟩ => ⟨S200000, .i32⟩
  | .hbm, ⟨95, _⟩ => ⟨S200000x1, .i32⟩
  | .hbm, ⟨96, _⟩ => ⟨S200000x128, .bf16⟩
  | .hbm, ⟨97, _⟩ => ⟨S200000x128, .f32⟩
  | .hbm, ⟨98, _⟩ => ⟨S200000x1, .f32⟩
  | .hbm, ⟨99, _⟩ => ⟨S200000x128, .f32⟩
  | .hbm, ⟨100, _⟩ => ⟨S200000x128, .f32⟩
  | .hbm, ⟨101, _⟩ => ⟨S_, .f32⟩
  | .hbm, ⟨102, _⟩ => ⟨S100000x128, .f32⟩
  | .hbm, ⟨103, _⟩ => ⟨S200000x1, .i32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S128, .f32⟩
  | .hbm, ⟨110, _⟩ => ⟨S_, .f32⟩
  | .hbm, ⟨111, _⟩ => ⟨S128, .f32⟩
  | .hbm, ⟨112, _⟩ => ⟨S128, .f32⟩
  | .hbm, ⟨113, _⟩ => ⟨S_, .i1⟩
  | .hbm, ⟨114, _⟩ => ⟨S100000, .i1⟩
  | .local _ .vmem, ⟨0, _⟩ => ⟨S4000x28, .f32⟩
  | .local _ .vmem, ⟨1, _⟩ => ⟨S4000x28, .f32⟩
  | .local _ .vmem, ⟨2, _⟩ => ⟨S28x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S4000x128, .f32⟩
  | .local _ .vmem, ⟨7, _⟩ => ⟨S4000x128, .f32⟩
  | .local _ .vmem, ⟨8, _⟩ => ⟨S4000x128, .bf16⟩
  | .local _ .vmem, ⟨9, _⟩ => ⟨S4000x128, .bf16⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S4000x128, .f32⟩
  | .local _ .vmem, ⟨21, _⟩ => ⟨S4000x128, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9_0 : Ref sig .tc := ⟨.hbm, 52, rfl⟩
abbrev main_v9_1 : Ref sig .tc := ⟨.hbm, 53, rfl⟩
abbrev main_c : Ref sig .tc := ⟨.hbm, 54, rfl⟩
abbrev main_v10 : Ref sig .tc := ⟨.hbm, 55, rfl⟩
abbrev main_v11 : Ref sig .tc := ⟨.hbm, 56, rfl⟩
abbrev main_c_0 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst_1 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_c_2 : Ref sig .tc := ⟨.hbm, 71, rfl⟩
abbrev main_v24 : Ref sig .tc := ⟨.hbm, 72, rfl⟩
abbrev main_v25 : Ref sig .tc := ⟨.hbm, 73, rfl⟩
abbrev main_c_3 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_4 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_c_5 : Ref sig .tc := ⟨.hbm, 88, rfl⟩
abbrev main_v38 : Ref sig .tc := ⟨.hbm, 89, rfl⟩
abbrev main_v39 : Ref sig .tc := ⟨.hbm, 90, rfl⟩
abbrev main_c_6 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_7 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_cst_8 : Ref sig .tc := ⟨.hbm, 108, rfl⟩
abbrev main_v55 : Ref sig .tc := ⟨.hbm, 109, rfl⟩
abbrev main_cst_9 : Ref sig .tc := ⟨.hbm, 110, rfl⟩
abbrev main_v56 : Ref sig .tc := ⟨.hbm, 111, rfl⟩
abbrev main_v57 : Ref sig .tc := ⟨.hbm, 112, rfl⟩
abbrev main_c_10 : Ref sig .tc := ⟨.hbm, 113, rfl⟩
abbrev main_v58 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S28x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  concatenates_S600000_S600000_S200000_S1400000_d0 : Shape.Concatenates [S600000, S600000, S200000] S1400000 0
  bcast_S_S100000 : S_.BroadcastsInDim S100000 (![] : Fin 0 → Fin S100000.rank)
  bcast_S1400000_S1400000x1_0 : S1400000.BroadcastsInDim S1400000x1 (![0] : Fin 1 → Fin S1400000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x16_0 : S100000.BroadcastsInDim S100000x16 (![0] : Fin 1 → Fin S100000x16.rank)
  bcast_S_S100000x16 : S_.BroadcastsInDim S100000x16 (![] : Fin 0 → Fin S100000x16.rank)
  concatenates_S100000x1_S100000x5_S100000x1_S100000x5_S100000x16_S100000x28_d1 : Shape.Concatenates [S100000x1, S100000x5, S100000x1, S100000x5, S100000x16] S100000x28 1
  inb_S4000x28_S4000x28_0_0 : ∀ a, (![0, 0] : Fin 2 → Nat) a + S4000x28.size a ≤ S4000x28.size a
  h_S4000x28 : 0 < S4000x28.numel
  shapeCasts_S4000x28_S4000x28 : S4000x28.ShapeCasts S4000x28
  bitsLt_bf16_f32 : FTy.bits .bf16 < FTy.bits .f32
  inb_S28x128_S28x128_0_0 : ∀ a, (![0, 0] : Fin 2 → Nat) a + S28x128.size a ≤ S28x128.size a
  h_S28x128 : 0 < S28x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  shapeCasts_S4000x128_S4000x128 : S4000x128.ShapeCasts S4000x128
  reduces_S4000x128_S4000 : S4000x128.Reduces [1] S4000
  shapeCasts_S4000_S4000x1 : S4000.ShapeCasts S4000x1
  broadcasts_S4000x1_S4000x128 : S4000x1.Broadcasts S4000x128
  reducesTo_S100000x128_S128_d0 : S100000x128.ReducesTo [0] S128
  bcast_S_S128 : S_.BroadcastsInDim S128 (![] : Fin 0 → Fin S128.rank)
  scatter_S100000_S1400000x1_S1400000_n_0_0_1_wf : ScatterDims.WF S100000 S1400000x1 S1400000 [] [0] [0] 1
  gather_S8x16_S100000x1_S100000x16_1_0_n_n_0_1_116_wf : GatherDims.WF S8x16 S100000x1 S100000x16 [1] [0] [] [0] [] 1 ![1, 16]
  dot_S4000x28_S28x128_S4000x128_1_0_0_1_n_n_wf : DotDims.WF S4000x28 S28x128 S4000x128 [1] [0] [0] [1] [] []
  dot_S4000x128_S128x128_S4000x128_1_0_0_1_n_n_wf : DotDims.WF S4000x128 S128x128 S4000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  gather_S100000x128_S200000x1_S200000x128_1_0_n_n_0_1_1128_wf : GatherDims.WF S100000x128 S200000x1 S200000x128 [1] [0] [] [0] [] 1 ![1, 128]
  scatter_S100000x128_S200000x1_S200000x128_1_0_0_1_wf : ScatterDims.WF S100000x128 S200000x1 S200000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x28.size a ≤ S100000x28.size a
  hwx0_0 : ∀ i : grid0.Coords, EltTy.bits .f32 = 32 ∨ (Rect.block (s := S100000x28) S4000x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S28x128.size a ≤ S28x128.size a
  hwx0_1 : ∀ i : grid0.Coords, EltTy.bits .f32 = 32 ∨ (Rect.block (s := S28x128) S28x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S100000x128.size a
  hwx1_8 : ∀ i : grid1.Coords, EltTy.bits .f32 = 32 ∨ (Rect.block (s := S100000x128) S4000x128.size (cc1_transform_8 i) (hinb1_8 i)).WholeWords (EltTy.packing .f32)

variable [Facts₀]

def scatter_S100000_S1400000x1_S1400000_n_0_0_1 : ScatterDims S100000 S1400000x1 S1400000 where
  updateWindowDims := []
  insertedWindowDims := [0]
  scatterDimsToOperandDims := [0]
  indexVectorDim := 1
  wf := scatter_S100000_S1400000x1_S1400000_n_0_0_1_wf
def gather_S8x16_S100000x1_S100000x16_1_0_n_n_0_1_116 : GatherDims S8x16 S100000x1 S100000x16 where
  offsetDims := [1]
  collapsedSliceDims := [0]
  operandBatchingDims := []
  startIndicesBatchingDims := []
  startIndexMap := [0]
  indexVectorDim := 1
  sliceSizes := ![1, 16]
  wf := gather_S8x16_S100000x1_S100000x16_1_0_n_n_0_1_116_wf
def dot_S4000x28_S28x128_S4000x128_1_0_0_1_n_n : DotDims S4000x28 S28x128 S4000x128 where
  lhsContracting := [1]
  rhsContracting := [0]
  lhsNonContracting := [0]
  rhsNonContracting := [1]
  lhsBatch := []
  rhsBatch := []
  wf := dot_S4000x28_S28x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf

abbrev win0_0 : Pipeline.Window sig grid0 :=
  Pipeline.Window.ofSpec (Memref.whole main_v8) S4000x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S28x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v53) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v54) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000 : Shape := ⟨1, ![100000]⟩
abbrev S100000x5 : Shape := ⟨2, ![100000, 5]⟩
abbrev S600000 : Shape := ⟨1, ![600000]⟩
abbrev S200000 : Shape := ⟨1, ![200000]⟩
abbrev S8x16 : Shape := ⟨2, ![8, 16]⟩
abbrev S28x128 : Shape := ⟨2, ![28, 128]⟩
abbrev S128 : Shape := ⟨1, ![128]⟩
abbrev S128x128 : Shape := ⟨2, ![128, 128]⟩
abbrev S_ : Shape := ⟨0, ![]⟩
abbrev S600000x1 : Shape := ⟨2, ![600000, 1]⟩
abbrev S200000x1 : Shape := ⟨2, ![200000, 1]⟩
abbrev S100000x1 : Shape := ⟨2, ![100000, 1]⟩
abbrev S100000x16 : Shape := ⟨2, ![100000, 16]⟩
abbrev S100000x28 : Shape := ⟨2, ![100000, 28]⟩
abbrev S100000x128 : Shape := ⟨2, ![100000, 128]⟩
abbrev S1x128 : Shape := ⟨2, ![1, 128]⟩
abbrev S600000x128 : Shape := ⟨2, ![600000, 128]⟩
abbrev S200000x128 : Shape := ⟨2, ![200000, 128]⟩

abbrev nBuf : Space → Nat
  | .hbm => 158
  | .vmem => 0
  | .smem => 0
  | _ => 0

abbrev hbmTy0_0 (i : Nat) : BufTy := match i % 128 with
  | 0 => ⟨S100000, .f32⟩
  | 1 => ⟨S100000x5, .f32⟩
  | 2 => ⟨S100000x5, .f32⟩
  | 3 => ⟨S600000, .f32⟩
  | 4 => ⟨S200000, .f32⟩
  | 5 => ⟨S8x16, .f32⟩
  | 6 => ⟨S28x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S100000, .i32⟩
  | 17 => ⟨S600000, .i32⟩
  | 18 => ⟨S600000, .i32⟩
  | 19 => ⟨S200000, .i32⟩
  | 20 => ⟨S_, .f32⟩
  | 21 => ⟨S100000, .f32⟩
  | 22 => ⟨S600000x1, .i32⟩
  | 23 => ⟨S100000, .f32⟩
  | 24 => ⟨S_, .f32⟩
  | 25 => ⟨S100000, .f32⟩
  | 26 => ⟨S600000x1, .i32⟩
  | 27 => ⟨S100000, .f32⟩
  | 28 => ⟨S100000, .f32⟩
  | 29 => ⟨S_, .f32⟩
  | 30 => ⟨S100000, .f32⟩
  | 31 => ⟨S200000x1, .i32⟩
  | 32 => ⟨S100000, .f32⟩
  | 33 => ⟨S100000, .f32⟩
  | 34 => ⟨S100000x1, .f32⟩
  | 35 => ⟨S100000x1, .f32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S100000x16, .f32⟩
  | 45 => ⟨S100000x28, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S600000x1, .f32⟩
  | 70 => ⟨S600000x128, .f32⟩
  | 71 => ⟨S600000x128, .f32⟩
  | 72 => ⟨S_, .f32⟩
  | 73 => ⟨S100000x128, .f32⟩
  | 74 => ⟨S600000x1, .i32⟩
  | 75 => ⟨S100000x128, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S600000x1, .f32⟩
  | 86 => ⟨S600000x128, .f32⟩
  | 87 => ⟨S600000x128, .f32⟩
  | 88 => ⟨S_, .f32⟩
  | 89 => ⟨S100000x128, .f32⟩
  | 90 => ⟨S600000x1, .i32⟩
  | 91 => ⟨S100000x128, .f32⟩
  | 92 => ⟨S100000x128, .f32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S200000x128, .f32⟩
  | 102 => ⟨S200000x1, .f32⟩
  | 103 => ⟨S200000x128, .f32⟩
  | 104 => ⟨S200000x128, .f32⟩
  | 105 => ⟨S_, .f32⟩
  | 106 => ⟨S100000x128, .f32⟩
  | 107 => ⟨S200000x1, .i32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S100000x128, .f32⟩
  | 122 => ⟨S_, .f32⟩
  | 123 => ⟨S100000, .f32⟩
  | 124 => ⟨S100000x1, .f32⟩
  | 125 => ⟨S_, .f32⟩
  | 126 => ⟨S100000x1, .f32⟩
  | 127 => ⟨S100000x1, .f32⟩
  | _ => ⟨S100000, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S100000, .f32⟩
  | 5 => ⟨S100000x1, .f32⟩
  | 6 => ⟨S_, .f32⟩
  | 7 => ⟨S100000x1, .f32⟩
  | 8 => ⟨S100000x1, .f32⟩
  | 9 => ⟨S100000x128, .f32⟩
  | 10 => ⟨S100000x128, .f32⟩
  | 11 => ⟨S_, .f32⟩
  | 12 => ⟨S100000x1, .f32⟩
  | 13 => ⟨S100000x1, .f32⟩
  | 14 => ⟨S100000x1, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S128, .f32⟩
  | 25 => ⟨S_, .f32⟩
  | 26 => ⟨S128, .f32⟩
  | 27 => ⟨S128, .f32⟩
  | 28 => ⟨S_, .i1⟩
  | 29 => ⟨S100000, .i1⟩
  | _ => ⟨S100000, .f32⟩

abbrev hbmTy (i : Nat) : BufTy := match i / 128 with
  | 0 => hbmTy0_0 i
  | 1 => hbmTy0_1 i
  | _ => ⟨S100000, .f32⟩

abbrev bufTy : (tb : Table) → Fin (tcTables nBuf tb) → BufTy
  | .hbm, ⟨i, _⟩ => hbmTy i
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call0_cst : Ref sig .tc := ⟨.hbm, 50, rfl⟩
abbrev main_call0_v0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call1_cst : Ref sig .tc := ⟨.hbm, 57, rfl⟩
abbrev main_call1_v0 : Ref sig .tc := ⟨.hbm, 58, rfl⟩
abbrev main_v30 : Ref sig .tc := ⟨.hbm, 59, rfl⟩
abbrev main_c_3 : Ref sig .tc := ⟨.hbm, 60, rfl⟩
abbrev main_v31 : Ref sig .tc := ⟨.hbm, 61, rfl⟩
abbrev main_v32 : Ref sig .tc := ⟨.hbm, 62, rfl⟩
abbrev main_c_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_6 : Ref sig .tc := ⟨.hbm, 76, rfl⟩
abbrev main_v44 : Ref sig .tc := ⟨.hbm, 77, rfl⟩
abbrev main_v45 : Ref sig .tc := ⟨.hbm, 78, rfl⟩
abbrev main_c_7 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_8 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_9 : Ref sig .tc := ⟨.hbm, 93, rfl⟩
abbrev main_v58 : Ref sig .tc := ⟨.hbm, 94, rfl⟩
abbrev main_v59 : Ref sig .tc := ⟨.hbm, 95, rfl⟩
abbrev main_c_10 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_11 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_call2_cst : Ref sig .tc := ⟨.hbm, 114, rfl⟩
abbrev main_call2_v0 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_12 : Ref sig .tc := ⟨.hbm, 122, rfl⟩
abbrev main_v82 : Ref sig .tc := ⟨.hbm, 123, rfl⟩
abbrev main_v83 : Ref sig .tc := ⟨.hbm, 124, rfl⟩
abbrev main_cst_13 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_14 : Ref sig .tc := ⟨.hbm, 131, rfl⟩
abbrev main_v89 : Ref sig .tc := ⟨.hbm, 132, rfl⟩
abbrev main_v90 : Ref sig .tc := ⟨.hbm, 133, rfl⟩
abbrev main_cst_15 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_16 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_17 : Ref sig .tc := ⟨.hbm, 151, rfl⟩
abbrev main_v106 : Ref sig .tc := ⟨.hbm, 152, rfl⟩
abbrev main_cst_18 : Ref sig .tc := ⟨.hbm, 153, rfl⟩
abbrev main_v107 : Ref sig .tc := ⟨.hbm, 154, rfl⟩
abbrev main_v108 : Ref sig .tc := ⟨.hbm, 155, rfl⟩
abbrev main_c_19 : Ref sig .tc := ⟨.hbm, 156, rfl⟩
abbrev main_v109 : Ref sig .tc := ⟨.hbm, 157, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S600000_S600000x1_0 : S600000.BroadcastsInDim S600000x1 (![0] : Fin 1 → Fin S600000x1.rank)
  bcast_S200000_S200000x1_0 : S200000.BroadcastsInDim S200000x1 (![0] : Fin 1 → Fin S200000x1.rank)
  bcast_S100000_S100000x1_0 : S100000.BroadcastsInDim S100000x1 (![0] : Fin 1 → Fin S100000x1.rank)
  concatenates_S100000x1_S100000x5_S100000x1_S100000x5_S100000x16_S100000x28_d1 : Shape.Concatenates [S100000x1, S100000x5, S100000x1, S100000x5, S100000x16] S100000x28 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S200000 : S_.BroadcastsInDim S200000 (![] : Fin 0 → Fin S200000.rank)
  bcast_S200000x1_S200000x128_0_1 : S200000x1.BroadcastsInDim S200000x128 (![0, 1] : Fin 2 → Fin S200000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  scatter_S100000_S600000x1_S600000_n_0_0_1_wf : ScatterDims.WF S100000 S600000x1 S600000 [] [0] [0] 1
  scatter_S100000_S200000x1_S200000_n_0_0_1_wf : ScatterDims.WF S100000 S200000x1 S200000 [] [0] [0] 1
  gather_S8x16_S100000x1_S100000x16_1_0_n_n_0_1_116_wf : GatherDims.WF S8x16 S100000x1 S100000x16 [1] [0] [] [0] [] 1 ![1, 16]
  dot_S100000x28_S28x128_S100000x128_1_0_0_1_n_n_wf : DotDims.WF S100000x28 S28x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  gather_S100000x128_S200000x1_S200000x128_1_0_n_n_0_1_1128_wf : GatherDims.WF S100000x128 S200000x1 S200000x128 [1] [0] [] [0] [] 1 ![1, 128]
  scatter_S100000x128_S200000x1_S200000x128_1_0_0_1_wf : ScatterDims.WF S100000x128 S200000x1 S200000x128 [1] [0] [0] 1

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S8x16_S100000x1_S100000x16_1_0_n_n_0_1_116 : GatherDims S8x16 S100000x1 S100000x16 where
  offsetDims := [1]
  collapsedSliceDims := [0]
  operandBatchingDims := []
  startIndicesBatchingDims := []
  startIndexMap := [0]
  indexVectorDim := 1
  sliceSizes := ![1, 16]
  wf := gather_S8x16_S100000x1_S100000x16_1_0_n_n_0_1_116_wf
def dot_S100000x28_S28x128_S100000x128_1_0_0_1_n_n : DotDims S100000x28 S28x128 S100000x128 where
  lhsContracting := [1]
  rhsContracting := [0]
  lhsNonContracting := [0]
  rhsNonContracting := [1]
  lhsBatch := []
  rhsBatch := []
  wf := dot_S100000x28_S28x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf

class Facts : Prop extends Facts₀ where

variable [Facts]
-- ==== Proof.Bits.Proj.lean ====
/-
  The first dense stage, one grid point at a time. The grid has 25 points; at point t the body finds rows
  4000·t … 4000·t + 3999 of the 100000 × 28 feature matrix and the whole of the two weight matrices and the two
  bias rows, and leaves in its two output buffers the 4000 × 128 block
      relu (relu (x · W1 + b1) · W2 + b2)
  once in f32 and once rounded to bf16. Stated for any float instance: what the body leaves is the body's own
  arithmetic term of what it loaded, the input buffers are left as found, and nothing else is touched.
-/
import proofs.«407380_j30331059044746_3_alg».proof.Proof.Gen.Kernel.Launch
import proofs.«407380_j30331059044746_3_alg».proof.Proof.Gen.Kernel.Skeleton
import proofs.«407380_j30331059044746_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on entry to the stage: every lemma below is stated at this parameter
variable (V : (c : Dev nD) → (b : Ref sig .tc) → Buf (Elt F) ((c : Thread nD τ).loc b))

/-- The block of window `w` at grid point `t`, read off the window's array as the stage finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point — also at a point where it was not fetched again, since
    then its block index has not moved (the weights and biases are fetched once, at the first point). One
    statement per input window: a block's index type is only a literal shape at a literal window. -/
theorem before_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The rectangles the body reads and writes: every one is a whole buffer -/

abbrev rX : Rect S4000x28 := Rect.unit (s := S4000x28) ![0, 0] S4000x28.size inb_S4000x28_S4000x28_0_0
abbrev rW1 : Rect S28x128 := Rect.unit (s := S28x128) ![0, 0] S28x128.size inb_S28x128_S28x128_0_0
abbrev rB : Rect S128 := Rect.unit (s := S128) ![0] S128.size inb_S128_S128_0
abbrev rW2 : Rect S128x128 := Rect.unit (s := S128x128) ![0, 0] S128x128.size inb_S128x128_S128x128_0_0
abbrev rH : Rect S4000x128 := Rect.unit (s := S4000x128) ![0, 0] S4000x128.size inb_S4000x128_S4000x128_0_0

/-- The f32 output buffer after the body: one store of the whole block, the two-layer perceptron of the loads. -/
def hid (x : Vec F S4000x28 .f32) (w1 : Vec F S28x128 .f32) (b1 : Vec F S128 .f32) (w2 : Vec F S128x128 .f32) (b2 : Vec F S128 .f32) :
    Vec F S4000x128 .f32 :=
  View.canon [⟨rH, k0_pay1 (View.ld x rX) (View.ld w1 rW1) (View.ld b1 rB) (View.ld w2 rW2) (View.ld b2 rB)⟩]

/-- The bf16 output buffer after the body: the same block rounded. -/
def hidB (x : Vec F S4000x28 .f32) (w1 : Vec F S28x128 .f32) (b1 : Vec F S128 .f32) (w2 : Vec F S128x128 .f32) (b2 : Vec F S128 .f32) :
    Vec F S4000x128 .bf16 :=
  View.canon [⟨rH, k0_pay2 (View.ld x rX) (View.ld w1 rW1) (View.ld b1 rB) (View.ld w2 rW2) (View.ld b2 rB)⟩]

theorem cover_f32 (p0 : Vec F S4000x128 .f32) (y : S4000x128.Idx) :
    ∃ pc ∈ ([⟨rH, p0⟩] : List (View.Piece (Elt F) S4000x128 .f32)), y ∈ pc.1.set :=
  View.cover_of_tiled [⟨rH, p0⟩] S4000x128.size (by rfl) y

theorem cover_bf16 (p0 : Vec F S4000x128 .bf16) (y : S4000x128.Idx) :
    ∃ pc ∈ ([⟨rH, p0⟩] : List (View.Piece (Elt F) S4000x128 .bf16)), y ∈ pc.1.set :=
  View.cover_of_tiled [⟨rH, p0⟩] S4000x128.size (by rfl) y

set_option maxHeartbeats 4000000 in
/-- The body on whole buffers: the five inputs at read contents, the two outputs at anything; it ends with the
    inputs as they were and the outputs at `hid` and `hidB` of the inputs. -/
theorem sound_kernel (c : Dev nD) (E : Set ℕ) (i : grid0.Coords)
    (a1 : Memref sig .tc .vmem S4000x28 .f32) (h1 : a1.IsWhole) (a2 : Memref sig .tc .vmem S28x128 .f32) (h2 : a2.IsWhole)
    (a3 : Memref sig .tc .vmem S128 .f32) (h3 : a3.IsWhole) (a4 : Memref sig .tc .vmem S128x128 .f32) (h4 : a4.IsWhole)
    (a5 : Memref sig .tc .vmem S128 .f32) (h5 : a5.IsWhole) (a6 : Memref sig .tc .vmem S4000x128 .f32) (h6 : a6.IsWhole)
    (a7 : Memref sig .tc .vmem S4000x128 .bf16) (h7 : a7.IsWhole)
    (x : Vec F S4000x28 .f32) (w1 : Vec F S28x128 .f32) (b1 : Vec F S128 .f32) (w2 : Vec F S128x128 .f32) (b2 : Vec F S128 .f32)
    (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2
        ∗ (∃ d, owns (c : Thread nD τ) a6 fullShare d) ∗ (∃ d, owns (c : Thread nD τ) a7 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (hid x w1 b1 w2 b2) ∗ owns (c : Thread nD τ) a7 fullShare (hidB x w1 b1 w2 b2)) -∗ K ⟨⟩))
      ⊢ wp frame (wpE (defs₀ (F := F)) Variants.none c none) E (cc0__input_proj_kernel i a1 h1 a2 h2 a3 h3 a4 h4 a5 h5 a6 h6 a7 h7) K := by
  simp only [cc0__input_proj_kernel_eq_skeleton]; unfold cc0__input_proj_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_f32 _)
  iexists _; isplitr
  swap; · iexact H7
  ipureintro
  exact View.read_writes_eq_canon _ _ _ (cover_bf16 _)

/-! ## The proof data of the stage -/

/-- The arrays as the stage finds them; after the body at point `t` every input buffer at its block and the two
    output buffers at `hid` / `hidB` of the input blocks; the invariant carries only what the stage never
    touches; nothing is owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => hid (blk V c 0 t) (blk V c 1 t) (blk V c 2 t) (blk V c 3 t) (blk V c 4 t)
    | ⟨6, _⟩ => hidB (blk V c 0 t) (blk V c 1 t) (blk V c 2 t) (blk V c 3 t) (blk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) :
    (dat V c).after 5 t = hid (blk V c 0 t) (blk V c 1 t) (blk V c 2 t) (blk V c 3 t) (blk V c 4 t) := by dsimp only [dat]
theorem after_6 (c : Dev nD) (t : Fin cfg0.N) :
    (dat V c).after 6 t = hidB (blk V c 0 t) (blk V c 1 t) (blk V c 2 t) (blk V c 3 t) (blk V c 4 t) := by dsimp only [dat]

theorem dbefore_0 (c : Dev nD) (t : Fin cfg0.N) (d) : (dat V c).before 0 t d = blk V c 0 t :=
  before_0 V (dat V c) (A_eq V c 0) (after_0 V c) t d
theorem dbefore_1 (c : Dev nD) (t : Fin cfg0.N) (d) : (dat V c).before 1 t d = blk V c 1 t :=
  before_1 V (dat V c) (A_eq V c 1) (after_1 V c) t d
theorem dbefore_2 (c : Dev nD) (t : Fin cfg0.N) (d) : (dat V c).before 2 t d = blk V c 2 t :=
  before_2 V (dat V c) (A_eq V c 2) (after_2 V c) t d
theorem dbefore_3 (c : Dev nD) (t : Fin cfg0.N) (d) : (dat V c).before 3 t d = blk V c 3 t :=
  before_3 V (dat V c) (A_eq V c 3) (after_3 V c) t d
theorem dbefore_4 (c : Dev nD) (t : Fin cfg0.N) (d) : (dat V c).before 4 t d = blk V c 4 t :=
  before_4 V (dat V c) (A_eq V c 4) (after_4 V c) t d

/-! ## The body obligation -/

/-- What the body is called with at point `t`: the invariant, the core's dues, and the seven buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dbefore_0, dbefore_1, dbefore_2, dbefore_3, dbefore_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.Bits.Msg.lean ====
/-
  The second dense stage, one grid point at a time. At point t the body finds rows 4000·t … 4000·t + 3999 of the
  aggregated messages and of the hidden features, and the whole of the two message matrices, their two bias rows and
  the scale and shift rows; it leaves in its output buffer the 4000 × 128 block
      layernorm (h + (relu (agg · M1 + mb1) · M2 + mb2)) · gamma + beta,
  the normalisation taken along each row of 128 entries (mean, mean of squared deviations, reciprocal square root
  of that plus a small constant). Stated for any float instance: what the body leaves is its own arithmetic term
  of what it loaded; the input buffers are left as found.
-/
import proofs.«407380_j30331059044746_3_alg».proof.Proof.Gen.Kernel.Launch
import proofs.«407380_j30331059044746_3_alg».proof.Proof.Gen.Kernel.Skeleton
import proofs.«407380_j30331059044746_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Msg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on entry to the stage: every lemma below is stated at this parameter
variable (V : (c : Dev nD) → (b : Ref sig .tc) → Buf (Elt F) ((c : Thread nD τ).loc b))

/-- The block of window `w` at grid point `t`, read off the window's array as the stage finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block at every point — also where it was not fetched again, its block index
    not having moved (the matrices and rows are fetched once, at the first point). One statement per input window. -/
theorem before_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before_6 {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before_7 {c : Dev nD} (dat : Dat τ (Elt F) Unit ℕ (UR sig nD τ) ℕ cfg1 c) (hA : dat.A 7 = V c (Pipeline.arrRef spec1 7))
    (hafter : ∀ t, dat.after 7 t = blk V c 7 t) (t : Fin cfg1.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)

/-! ## The rectangles the body reads and writes: every one is a whole buffer -/

abbrev rH : Rect S4000x128 := Rect.unit (s := S4000x128) ![0, 0] S4000x128.size inb_S4000x128_S4000x128_0_0
abbrev rM : Rect S128x128 := Rect.unit (s := S128x128) ![0, 0] S128x128.size inb_S128x128_S128x128_0_0
abbrev rB : Rect S128 := Rect.unit (s := S128) ![0] S128.size inb_S128_S128_0

/-- The output buffer after the body: one store of the whole block — the normalised sum, scaled and shifted. -/
def emb (agg h : Vec F S4000x128 .f32) (m1 : Vec F S128x128 .f32) (mb1 : Vec F S128 .f32) (m2 : Vec F S128x128 .f32) (mb2 : Vec F S128 .f32)
    (g b : Vec F S128 .f32) : Vec F S4000x128 .f32 :=
  View.canon [⟨rH, k1_pay1 (k1_pay2 (View.ld agg rH) (View.ld m1 rM) (View.ld mb1 rB) (View.ld m2 rM) (View.ld mb2 rB) (View.ld h rH))
    (View.ld g rB) (View.ld b rB)⟩]

theorem cover_out (p0 : Vec F S4000x128 .f32) (y : S4000x128.Idx) :
    ∃ pc ∈ ([⟨rH, p0⟩] : List (View.Piece (Elt F) S4000x128 .f32)), y ∈ pc.1.set :=
  View.cover_of_tiled [⟨rH, p0⟩] S4000x128.size (by rfl) y

set_option maxHeartbeats 4000000 in
/-- The body on whole buffers: the eight inputs at read contents, the output at anything; it ends with the inputs as
    they were and the output at `emb` of the inputs. -/
theorem sound_kernel (c : Dev nD) (E : Set ℕ) (i : grid1.Coords)
    (a1 : Memref sig .tc .vmem S4000x128 .f32) (h1 : a1.IsWhole) (a2 : Memref sig .tc .vmem S4000x128 .f32) (h2 : a2.IsWhole)
    (a3 : Memref sig .tc .vmem S128x128 .f32) (h3 : a3.IsWhole) (a4 : Memref sig .tc .vmem S128 .f32) (h4 : a4.IsWhole)
    (a5 : Memref sig .tc .vmem S128x128 .f32) (h5 : a5.IsWhole) (a6 : Memref sig .tc .vmem S128 .f32) (h6 : a6.IsWhole)
    (a7 : Memref sig .tc .vmem S128 .f32) (h7 : a7.IsWhole) (a8 : Memref sig .tc .vmem S128 .f32) (h8 : a8.IsWhole)
    (a9 : Memref sig .tc .vmem S4000x128 .f32) (h9 : a9.IsWhole)
    (agg h : Vec F S4000x128 .f32) (m1 : Vec F S128x128 .f32) (mb1 : Vec F S128 .f32) (m2 : Vec F S128x128 .f32) (mb2 : Vec F S128 .f32)
    (g b : Vec F S128 .f32) (K : PUnit → sProp 𝕄) :
    iprop(owns (c : Thread nD τ) a1 fullShare agg ∗ owns (c : Thread nD τ) a2 fullShare h ∗ owns (c : Thread nD τ) a3 fullShare m1
        ∗ owns (c : Thread nD τ) a4 fullShare mb1 ∗ owns (c : Thread nD τ) a5 fullShare m2 ∗ owns (c : Thread nD τ) a6 fullShare mb2
        ∗ owns (c : Thread nD τ) a7 fullShare g ∗ owns (c : Thread nD τ) a8 fullShare b
        ∗ (∃ d, owns (c : Thread nD τ) a9 fullShare d)
        ∗ (iprop(owns (c : Thread nD τ) a1 fullShare agg ∗ owns (c : Thread nD τ) a2 fullShare h ∗ owns (c : Thread nD τ) a3 fullShare m1
            ∗ owns (c : Thread nD τ) a4 fullShare mb1 ∗ owns (c : Thread nD τ) a5 fullShare m2 ∗ owns (c : Thread nD τ) a6 fullShare mb2
            ∗ owns (c : Thread nD τ) a7 fullShare g ∗ owns (c : Thread nD τ) a8 fullShare b
            ∗ owns (c : Thread nD τ) a9 fullShare (emb agg h m1 mb1 m2 mb2 g b)) -∗ K ⟨⟩))
      ⊢ wp frame (wpE (defs₀ (F := F)) Variants.none c none) E (cc1__message_kernel i a1 h1 a2 h2 a3 h3 a4 h4 a5 h5 a6 h6 a7 h7 a8 h8 a9 h9) K := by
  simp only [cc1__message_kernel_eq_skeleton]; unfold cc1__message_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _)

/-! ## The proof data of the stage -/

/-- The arrays as the stage finds them; after the body at point `t` every input buffer at its block and the output
    buffer at `emb` of the input blocks; nothing is owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => emb (blk V c 0 t) (blk V c 1 t) (blk V c 2 t) (blk V c 3 t) (blk V c 4 t) (blk V c 5 t) (blk V c 6 t) (blk V c 7 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) :
    (dat V c).after 8 t = emb (blk V c 0 t) (blk V c 1 t) (blk V c 2 t) (blk V c 3 t) (blk V c 4 t) (blk V c 5 t) (blk V c 6 t) (blk V c 7 t) := by
  dsimp only [dat]

theorem dbefore_0 (c : Dev nD) (t : Fin cfg1.N) (d) : (dat V c).before 0 t d = blk V c 0 t :=
  before_0 V (dat V c) (A_eq V c 0) (after_0 V c) t d
theorem dbefore_1 (c : Dev nD) (t : Fin cfg1.N) (d) : (dat V c).before 1 t d = blk V c 1 t :=
  before_1 V (dat V c) (A_eq V c 1) (after_1 V c) t d
theorem dbefore_2 (c : Dev nD) (t : Fin cfg1.N) (d) : (dat V c).before 2 t d = blk V c 2 t :=
  before_2 V (dat V c) (A_eq V c 2) (after_2 V c) t d
theorem dbefore_3 (c : Dev nD) (t : Fin cfg1.N) (d) : (dat V c).before 3 t d = blk V c 3 t :=
  before_3 V (dat V c) (A_eq V c 3) (after_3 V c) t d
theorem dbefore_4 (c : Dev nD) (t : Fin cfg1.N) (d) : (dat V c).before 4 t d = blk V c 4 t :=
  before_4 V (dat V c) (A_eq V c 4) (after_4 V c) t d
theorem dbefore_5 (c : Dev nD) (t : Fin cfg1.N) (d) : (dat V c).before 5 t d = blk V c 5 t :=
  before_5 V (dat V c) (A_eq V c 5) (after_5 V c) t d
theorem dbefore_6 (c : Dev nD) (t : Fin cfg1.N) (d) : (dat V c).before 6 t d = blk V c 6 t :=
  before_6 V (dat V c) (A_eq V c 6) (after_6 V c) t d
theorem dbefore_7 (c : Dev nD) (t : Fin cfg1.N) (d) : (dat V c).before 7 t d = blk V c 7 t :=
  before_7 V (dat V c) (A_eq V c 7) (after_7 V c) t d

/-! ## The body obligation -/

/-- What the body is called with at point `t`: the invariant, the core's dues, and the nine buffers. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dbefore_0, dbefore_1, dbefore_2, dbefore_3, dbefore_4, dbefore_5, dbefore_6, dbefore_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (blk V c 0 t) (blk V c 1 t) (blk V c 2 t) (blk V c 3 t) (blk V c 4 t) (blk V c 5 t) (blk V c 6 t) (blk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Msg

end
-- ==== Proof.Bits.Whole.lean ====
/-
  The whole program as one run. @main is seven segments: three stretches of host operations (the degrees, the role
  embedding, the feature matrix), the first dense stage, a stretch (gathers along the edges, three scatter-adds and
  their sum), the second dense stage, and a last stretch (the column mean and the mask). The contents of every
  unscoped buffer at each boundary are a fold from the launch memory: a stretch applies its operations; a stage
  replaces its windows' arrays by what the 25 write-backs leave and touches nothing else. The run terminates without
  a fault and ends with every unscoped buffer at the last boundary's contents; no segment writes an argument.
-/
import proofs.«407380_j30331059044746_3_alg».proof.Proof.Bits.Proj
import proofs.«407380_j30331059044746_3_alg».proof.Proof.Bits.Msg
import proofs.«407380_j30331059044746_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- On entry to the first stage: the launch memory after the three host stretches. -/
abbrev B3 : Dev nD → Valuation τ sig (Elt F) := fun c => V3 m c
/-- The same read at the TensorCore's references: what the first stage's proof data take. -/
abbrev E3 : (c : Dev nD) → (b : Ref sig .tc) → Buf (Elt F) ((c : Thread nD τ).loc b) := fun c b => B3 m c b
/-- On exit from the first stage: its arrays at what the write-backs leave, every other buffer as entered. -/
def B4 (c : Dev nD) : Valuation τ sig (Elt F) :=
  Pipeline.withArrays spec0 c (B3 m c) fun w => (Proj.dat (E3 m) c).arrAt w cfg0.N
abbrev B4r : (c : Dev nD) → (b : Ref sig .tc) → Buf (Elt F) ((c : Thread nD τ).loc b) := fun c b => B4 m c b
/-- On entry to the second stage: after the edge gathers and scatter-adds. -/
abbrev B5 : Dev nD → Valuation τ sig (Elt F) := fun c => StableHlo.after hostOps1 (B4 m c)
abbrev E5 : (c : Dev nD) → (b : Ref sig .tc) → Buf (Elt F) ((c : Thread nD τ).loc b) := fun c b => B5 m c b
/-- On exit from the second stage. -/
def B6 (c : Dev nD) : Valuation τ sig (Elt F) :=
  Pipeline.withArrays spec1 c (B5 m c) fun w => (Msg.dat (E5 m) c).arrAt w cfg1.N
abbrev B6r : (c : Dev nD) → (b : Ref sig .tc) → Buf (Elt F) ((c : Thread nD τ).loc b) := fun c b => B6 m c b
/-- At the end: after the column mean and the mask. -/
abbrev B7 : Dev nD → Valuation τ sig (Elt F) := fun c => StableHlo.after hostOps2 (B6 m c)

theorem B4_arr (c : Dev nD) (w : Fin cfg0.W) :
    B4 m c (Proc.devRef .tc (Pipeline.arrRef spec0 w)) = (Proj.dat (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
theorem hF0 (c : Dev nD) (w : Fin cfg0.W) : (Proj.dat (E3 m) c).arrAt w cfg0.N = B4r m c (Pipeline.arrRef spec0 w) :=
  (B4_arr m c w).symm
theorem hrest0 (c : Dev nD) : ∀ b, b ∉ Finset.univ.image (Pipeline.arrRef spec0) → B4r m c b = E3 m c b :=
  fun b hb => B4_of_ne m c b fun w e => hb (Finset.mem_image.mpr ⟨w, Finset.mem_univ _, e⟩)

theorem B6_arr (c : Dev nD) (w : Fin cfg1.W) :
    B6 m c (Proc.devRef .tc (Pipeline.arrRef spec1 w)) = (Msg.dat (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
theorem hF1 (c : Dev nD) (w : Fin cfg1.W) : (Msg.dat (E5 m) c).arrAt w cfg1.N = B6r m c (Pipeline.arrRef spec1 w) :=
  (B6_arr m c w).symm
theorem hrest1 (c : Dev nD) : ∀ b, b ∉ Finset.univ.image (Pipeline.arrRef spec1) → B6r m c b = E5 m c b :=
  fun b hb => B6_of_ne m c b fun w e => hb (Finset.mem_image.mpr ⟨w, Finset.mem_univ _, e⟩)

/-! ## A stage changes only its output arrays -/

/-- An input window's array is left as the first stage found it. -/
theorem B4_in (c : Dev nD) (w : Fin cfg0.W) (hw : (cfg0.win w).isOut = false) :
    B4 m c (Proc.devRef .tc (Pipeline.arrRef spec0 w)) = B3 m c (Proc.devRef .tc (Pipeline.arrRef spec0 w)) :=
  (B4_arr m c w).trans (((Proj.dat (E3 m) c).arrAt_in w hw _).trans (Proj.A_eq (E3 m) c w))

/-- Every buffer but the two outputs is left as the first stage found it. -/
theorem B4_keep (c : Dev nD) (b : Ref sig .tc) (h5 : b ≠ main_v9_0) (h6 : b ≠ main_v9_1) :
    B4 m c (Proc.devRef .tc b) = B3 m c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl h5
      | ⟨6, _⟩ => exact absurd rfl h6
    exact B4_in m c w hw
  · exact B4_of_ne m c b fun w e => h ⟨w, e⟩

theorem B6_in (c : Dev nD) (w : Fin cfg1.W) (hw : (cfg1.win w).isOut = false) :
    B6 m c (Proc.devRef .tc (Pipeline.arrRef spec1 w)) = B5 m c (Proc.devRef .tc (Pipeline.arrRef spec1 w)) :=
  (B6_arr m c w).trans (((Msg.dat (E5 m) c).arrAt_in w hw _).trans (Msg.A_eq (E5 m) c w))

/-- Every buffer but the output is left as the second stage found it. -/
theorem B6_keep (c : Dev nD) (b : Ref sig .tc) (h8 : b ≠ main_v54) :
    B6 m c (Proc.devRef .tc b) = B5 m c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
      | ⟨8, _⟩ => exact absurd rfl h8
    exact B6_in m c w hw
  · exact B6_of_ne m c b fun w e => h ⟨w, e⟩

/-- A buffer that no host stretch writes and that is no stage's output ends as launched. -/
theorem kept (c : Dev nD) (b : Ref sig .tc) (h0 : b ∉ hostOps0_W) (h1 : b ∉ hostOps0_1_W) (h2 : b ∉ hostOps0_2_W)
    (h3 : b ≠ main_v9_0) (h3' : b ≠ main_v9_1) (h4 : b ∉ hostOps1_W) (h5 : b ≠ main_v54) (h6 : b ∉ hostOps2_W) :
    B7 m c (Proc.devRef .tc b) = m ((c : Thread nD τ).loc b) :=
  (StableHlo.after_of_writes_sub hostOps2 _ hostOps2_writes h6).trans <|
  (B6_keep m c b h5).trans <|
  (StableHlo.after_of_writes_sub hostOps1 _ hostOps1_writes h4).trans <|
  (B4_keep m c b h3 h3').trans <|
  (V3_of m c b h2).trans <| (V2_of m c b h1).trans <| (V1_of m c b h0).trans rfl

/-! ## The arguments end as launched -/
theorem kept_arg0 (c : Dev nD) : B7 m c (Proc.devRef .tc main_arg0) = m ((c : Thread nD τ).loc main_arg0) :=
  kept m c main_arg0 (by decide) (by decide) (by decide) (by decide) (by decide) (by decide) (by decide) (by decide)
theorem kept_arg1 (c : Dev nD) : B7 m c (Proc.devRef .tc main_arg1) = m ((c : Thread nD τ).loc main_arg1) :=
  kept m c main_arg1 (by decide) (by decide) (by decide) (by decide) (by decide) (by decide) (by decide) (by decide)
theorem kept_arg2 (c : Dev nD) : B7 m c (Proc.devRef .tc main_arg2) = m ((c : Thread nD τ).loc main_arg2) :=
  kept m c main_arg2 (by decide) (by decide) (by decide) (by decide) (by decide) (by decide) (by decide) (by decide)
theorem kept_arg3 (c : Dev nD) : B7 m c (Proc.devRef .tc main_arg3) = m ((c : Thread nD τ).loc main_arg3) :=
  kept m c main_arg3 (by decide) (by decide) (by decide) (by decide) (by decide) (by decide) (by decide) (by decide)
theorem kept_arg4 (c : Dev nD) : B7 m c (Proc.devRef .tc main_arg4) = m ((c : Thread nD τ).loc main_arg4) :=
  kept m c main_arg4 (by decide) (by decide) (by decide) (by decide) (by decide) (by decide) (by decide) (by decide)
theorem kept_arg5 (c : Dev nD) : B7 m c (Proc.devRef .tc main_arg5) = m ((c : Thread nD τ).loc main_arg5) :=
  kept m c main_arg5 (by decide) (by decide) (by decide) (by decide) (by decide) (by decide) (by decide) (by decide)
theorem kept_arg6 (c : Dev nD) : B7 m c (Proc.devRef .tc main_arg6) = m ((c : Thread nD τ).loc main_arg6) :=
  kept m c main_arg6 (by decide) (by decide) (by decide) (by decide) (by decide) (by decide) (by decide) (by decide)
theorem kept_arg7 (c : Dev nD) : B7 m c (Proc.devRef .tc main_arg7) = m ((c : Thread nD τ).loc main_arg7) :=
  kept m c main_arg7 (by decide) (by decide) (by decide) (by decide) (by decide) (by decide) (by decide) (by decide)
theorem kept_arg8 (c : Dev nD) : B7 m c (Proc.devRef .tc main_arg8) = m ((c : Thread nD τ).loc main_arg8) :=
  kept m c main_arg8 (by decide) (by decide) (by decide) (by decide) (by decide) (by decide) (by decide) (by decide)
theorem kept_arg9 (c : Dev nD) : B7 m c (Proc.devRef .tc main_arg9) = m ((c : Thread nD τ).loc main_arg9) :=
  kept m c main_arg9 (by decide) (by decide) (by decide) (by decide) (by decide) (by decide) (by decide) (by decide)
theorem kept_arg10 (c : Dev nD) : B7 m c (Proc.devRef .tc main_arg10) = m ((c : Thread nD τ).loc main_arg10) :=
  kept m c main_arg10 (by decide) (by decide) (by decide) (by decide) (by decide) (by decide) (by decide) (by decide)
theorem kept_arg11 (c : Dev nD) : B7 m c (Proc.devRef .tc main_arg11) = m ((c : Thread nD τ).loc main_arg11) :=
  kept m c main_arg11 (by decide) (by decide) (by decide) (by decide) (by decide) (by decide) (by decide) (by decide)
theorem kept_arg12 (c : Dev nD) : B7 m c (Proc.devRef .tc main_arg12) = m ((c : Thread nD τ).loc main_arg12) :=
  kept m c main_arg12 (by decide) (by decide) (by decide) (by decide) (by decide) (by decide) (by decide) (by decide)
theorem kept_arg13 (c : Dev nD) : B7 m c (Proc.devRef .tc main_arg13) = m ((c : Thread nD τ).loc main_arg13) :=
  kept m c main_arg13 (by decide) (by decide) (by decide) (by decide) (by decide) (by decide) (by decide) (by decide)
theorem kept_arg14 (c : Dev nD) : B7 m c (Proc.devRef .tc main_arg14) = m ((c : Thread nD τ).loc main_arg14) :=
  kept m c main_arg14 (by decide) (by decide) (by decide) (by decide) (by decide) (by decide) (by decide) (by decide)
theorem kept_arg15 (c : Dev nD) : B7 m c (Proc.devRef .tc main_arg15) = m ((c : Thread nD τ).loc main_arg15) :=
  kept m c main_arg15 (by decide) (by decide) (by decide) (by decide) (by decide) (by decide) (by decide) (by decide)
theorem kept_arg16 (c : Dev nD) : B7 m c (Proc.devRef .tc main_arg16) = m ((c : Thread nD τ).loc main_arg16) :=
  kept m c main_arg16 (by decide) (by decide) (by decide) (by decide) (by decide) (by decide) (by decide) (by decide)
theorem kept_arg17 (c : Dev nD) : B7 m c (Proc.devRef .tc main_arg17) = m ((c : Thread nD τ).loc main_arg17) :=
  kept m c main_arg17 (by decide) (by decide) (by decide) (by decide) (by decide) (by decide) (by decide) (by decide)
theorem kept_arg18 (c : Dev nD) : B7 m c (Proc.devRef .tc main_arg18) = m ((c : Thread nD τ).loc main_arg18) :=
  kept m c main_arg18 (by decide) (by decide) (by decide) (by decide) (by decide) (by decide) (by decide) (by decide)
theorem kept_arg19 (c : Dev nD) : B7 m c (Proc.devRef .tc main_arg19) = m ((c : Thread nD τ).loc main_arg19) :=
  kept m c main_arg19 (by decide) (by decide) (by decide) (by decide) (by decide) (by decide) (by decide) (by decide)

/-! ## The proof data family and the thread state -/

abbrev adm : (p : Fin 2) → (pcfgs (F := F) p).Adm := fun p => (cfgs p).toPCfg_adm
/-- Each stage's proof data at its entry contents. -/
def pdats : (p : Fin 2) → (c : Dev nD) → Dat τ (Elt F) Unit ℕ (UR sig nD τ) ℕ (Pipeline.pin (pcfgs (F := F)) adm p) c
  | ⟨0, _⟩ => fun c => Proj.dat (E3 m) c
  | ⟨1, _⟩ => fun c => Msg.dat (E5 m) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
/-- After the last stage only the dues ride along. -/
abbrev R' (c : Dev nD) : sProp 𝕄 := iprop(∃ W, owes (c : Thread nD τ) (0 : CellTallies nD τ sig Unit) W)
/-- A host stretch as a segment, from the contents `W`, with `Rd` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (Rd : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two stages as segments -/

set_option backward.isDefEq.respectTransparency.types false in
/-- Stage 0 over the thread state: entered with every unscoped buffer at B3, left with them at B4. Its
    windows' arrays are split out of the unscoped buffers and put back at what the pipeline's write-backs leave; the
    generator register goes into the stage's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (B4r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 over the thread state: entered with every unscoped buffer at B5, left with them at B6. Its
    windows' arrays are split out of the unscoped buffers and put back at what the pipeline's write-backs leave; the
    generator register goes into the stage's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Msg.body_obligation (E5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R' c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (B6r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (fun c => V0 m c) R),
    .host (hseg hostOps0_1 hostOps0_1_sub hostOps0_1_fresh (fun c => V1 m c) R),
    .host (hseg hostOps0_2 hostOps0_2_sub hostOps0_2_fresh (fun c => V2 m c) R),
    .region (reg0 m),
    .host (hseg hostOps1 hostOps1_sub hostOps1_fresh (B4 m) R),
    .region (reg1 m),
    .host (hseg hostOps2 hostOps2_sub hostOps2_fresh (B6 m) R') ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds each unscoped TensorCore buffer at the last boundary's contents. -/
theorem run (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = B7 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (B7 m c))
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨Hh, HSI⟩
      unfold StableHlo.held
      imodintro
      iapply (pointsTo_read_all (Pipeline.ucRefs τ sig) (fun b => (((c : Thread nD τ)).1, b)) (B7 m c) s')
      isplitl [Hh] <;> iassumption)
    (hQ := fun s h c b hb => h c _ (mem_uc b hb))

end Cert.Kernel.Whole

end
-- ==== Proof.Ideal.Proj.lean ====
/-
  The first dense stage, one grid point at a time. The grid has 25 points; at point t the body finds rows
  4000·t … 4000·t + 3999 of the 100000 × 28 feature matrix and the whole of the two weight matrices and the two
  bias rows, and leaves in its two output buffers the 4000 × 128 block
      relu (relu (x · W1 + b1) · W2 + b2)
  once in f32 and once rounded to bf16. Stated for any float instance: what the body leaves is the body's own
  arithmetic term of what it loaded, the input buffers are left as found, and nothing else is touched.
-/
import proofs.«407380_j30331059044746_3_alg».proof.Proof.Gen.KernelIdeal.Launch
import proofs.«407380_j30331059044746_3_alg».proof.Proof.Gen.KernelIdeal.Skeleton
import proofs.«407380_j30331059044746_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on entry to the stage: every lemma below is stated at this parameter
variable (V : (c : Dev nD) → (b : Ref sig .tc) → Buf (Elt F) ((c : Thread nD τ).loc b))

/-- The block of window `w` at grid point `t`, read off the window's array as the stage finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point — also at a point where it was not fetched again, since
    then its block index has not moved (the weights and biases are fetched once, at the first point). One
    statement per input window: a block's index type is only a literal shape at a literal window. -/
theorem before_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The rectangles the body reads and writes: every one is a whole buffer -/

abbrev rX : Rect S4000x28 := Rect.unit (s := S4000x28) ![0, 0] S4000x28.size inb_S4000x28_S4000x28_0_0
abbrev rW1 : Rect S28x128 := Rect.unit (s := S28x128) ![0, 0] S28x128.size inb_S28x128_S28x128_0_0
abbrev rB : Rect S128 := Rect.unit (s := S128) ![0] S128.size inb_S128_S128_0
abbrev rW2 : Rect S128x128 := Rect.unit (s := S128x128) ![0, 0] S128x128.size inb_S128x128_S128x128_0_0
abbrev rH : Rect S4000x128 := Rect.unit (s := S4000x128) ![0, 0] S4000x128.size inb_S4000x128_S4000x128_0_0

/-- The f32 output buffer after the body: one store of the whole block, the two-layer perceptron of the loads. -/
def hid (x : Vec F S4000x28 .f32) (w1 : Vec F S28x128 .f32) (b1 : Vec F S128 .f32) (w2 : Vec F S128x128 .f32) (b2 : Vec F S128 .f32) :
    Vec F S4000x128 .f32 :=
  View.canon [⟨rH, k0_pay1 (View.ld x rX) (View.ld w1 rW1) (View.ld b1 rB) (View.ld w2 rW2) (View.ld b2 rB)⟩]

/-- The bf16 output buffer after the body: the same block rounded. -/
def hidB (x : Vec F S4000x28 .f32) (w1 : Vec F S28x128 .f32) (b1 : Vec F S128 .f32) (w2 : Vec F S128x128 .f32) (b2 : Vec F S128 .f32) :
    Vec F S4000x128 .bf16 :=
  View.canon [⟨rH, k0_pay2 (View.ld x rX) (View.ld w1 rW1) (View.ld b1 rB) (View.ld w2 rW2) (View.ld b2 rB)⟩]

theorem cover_f32 (p0 : Vec F S4000x128 .f32) (y : S4000x128.Idx) :
    ∃ pc ∈ ([⟨rH, p0⟩] : List (View.Piece (Elt F) S4000x128 .f32)), y ∈ pc.1.set :=
  View.cover_of_tiled [⟨rH, p0⟩] S4000x128.size (by rfl) y

theorem cover_bf16 (p0 : Vec F S4000x128 .bf16) (y : S4000x128.Idx) :
    ∃ pc ∈ ([⟨rH, p0⟩] : List (View.Piece (Elt F) S4000x128 .bf16)), y ∈ pc.1.set :=
  View.cover_of_tiled [⟨rH, p0⟩] S4000x128.size (by rfl) y

set_option maxHeartbeats 4000000 in
/-- The body on whole buffers: the five inputs at read contents, the two outputs at anything; it ends with the
    inputs as they were and the outputs at `hid` and `hidB` of the inputs. -/
theorem sound_kernel (c : Dev nD) (E : Set ℕ) (i : grid0.Coords)
    (a1 : Memref sig .tc .vmem S4000x28 .f32) (h1 : a1.IsWhole) (a2 : Memref sig .tc .vmem S28x128 .f32) (h2 : a2.IsWhole)
    (a3 : Memref sig .tc .vmem S128 .f32) (h3 : a3.IsWhole) (a4 : Memref sig .tc .vmem S128x128 .f32) (h4 : a4.IsWhole)
    (a5 : Memref sig .tc .vmem S128 .f32) (h5 : a5.IsWhole) (a6 : Memref sig .tc .vmem S4000x128 .f32) (h6 : a6.IsWhole)
    (a7 : Memref sig .tc .vmem S4000x128 .bf16) (h7 : a7.IsWhole)
    (x : Vec F S4000x28 .f32) (w1 : Vec F S28x128 .f32) (b1 : Vec F S128 .f32) (w2 : Vec F S128x128 .f32) (b2 : Vec F S128 .f32)
    (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2
        ∗ (∃ d, owns (c : Thread nD τ) a6 fullShare d) ∗ (∃ d, owns (c : Thread nD τ) a7 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (hid x w1 b1 w2 b2) ∗ owns (c : Thread nD τ) a7 fullShare (hidB x w1 b1 w2 b2)) -∗ K ⟨⟩))
      ⊢ wp frame (wpE (defs₀ (F := F)) Variants.none c none) E (cc0__input_proj_kernel i a1 h1 a2 h2 a3 h3 a4 h4 a5 h5 a6 h6 a7 h7) K := by
  simp only [cc0__input_proj_kernel_eq_skeleton]; unfold cc0__input_proj_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_f32 _)
  iexists _; isplitr
  swap; · iexact H7
  ipureintro
  exact View.read_writes_eq_canon _ _ _ (cover_bf16 _)

/-! ## The proof data of the stage -/

/-- The arrays as the stage finds them; after the body at point `t` every input buffer at its block and the two
    output buffers at `hid` / `hidB` of the input blocks; the invariant carries only what the stage never
    touches; nothing is owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => hid (blk V c 0 t) (blk V c 1 t) (blk V c 2 t) (blk V c 3 t) (blk V c 4 t)
    | ⟨6, _⟩ => hidB (blk V c 0 t) (blk V c 1 t) (blk V c 2 t) (blk V c 3 t) (blk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) :
    (dat V c).after 5 t = hid (blk V c 0 t) (blk V c 1 t) (blk V c 2 t) (blk V c 3 t) (blk V c 4 t) := by dsimp only [dat]
theorem after_6 (c : Dev nD) (t : Fin cfg0.N) :
    (dat V c).after 6 t = hidB (blk V c 0 t) (blk V c 1 t) (blk V c 2 t) (blk V c 3 t) (blk V c 4 t) := by dsimp only [dat]

theorem dbefore_0 (c : Dev nD) (t : Fin cfg0.N) (d) : (dat V c).before 0 t d = blk V c 0 t :=
  before_0 V (dat V c) (A_eq V c 0) (after_0 V c) t d
theorem dbefore_1 (c : Dev nD) (t : Fin cfg0.N) (d) : (dat V c).before 1 t d = blk V c 1 t :=
  before_1 V (dat V c) (A_eq V c 1) (after_1 V c) t d
theorem dbefore_2 (c : Dev nD) (t : Fin cfg0.N) (d) : (dat V c).before 2 t d = blk V c 2 t :=
  before_2 V (dat V c) (A_eq V c 2) (after_2 V c) t d
theorem dbefore_3 (c : Dev nD) (t : Fin cfg0.N) (d) : (dat V c).before 3 t d = blk V c 3 t :=
  before_3 V (dat V c) (A_eq V c 3) (after_3 V c) t d
theorem dbefore_4 (c : Dev nD) (t : Fin cfg0.N) (d) : (dat V c).before 4 t d = blk V c 4 t :=
  before_4 V (dat V c) (A_eq V c 4) (after_4 V c) t d

/-! ## The body obligation -/

/-- What the body is called with at point `t`: the invariant, the core's dues, and the seven buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dbefore_0, dbefore_1, dbefore_2, dbefore_3, dbefore_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.Ideal.Msg.lean ====
/-
  The second dense stage, one grid point at a time. At point t the body finds rows 4000·t … 4000·t + 3999 of the
  aggregated messages and of the hidden features, and the whole of the two message matrices, their two bias rows and
  the scale and shift rows; it leaves in its output buffer the 4000 × 128 block
      layernorm (h + (relu (agg · M1 + mb1) · M2 + mb2)) · gamma + beta,
  the normalisation taken along each row of 128 entries (mean, mean of squared deviations, reciprocal square root
  of that plus a small constant). Stated for any float instance: what the body leaves is its own arithmetic term
  of what it loaded; the input buffers are left as found.
-/
import proofs.«407380_j30331059044746_3_alg».proof.Proof.Gen.KernelIdeal.Launch
import proofs.«407380_j30331059044746_3_alg».proof.Proof.Gen.KernelIdeal.Skeleton
import proofs.«407380_j30331059044746_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Msg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on entry to the stage: every lemma below is stated at this parameter
variable (V : (c : Dev nD) → (b : Ref sig .tc) → Buf (Elt F) ((c : Thread nD τ).loc b))

/-- The block of window `w` at grid point `t`, read off the window's array as the stage finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block at every point — also where it was not fetched again, its block index
    not having moved (the matrices and rows are fetched once, at the first point). One statement per input window. -/
theorem before_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before_6 {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before_7 {c : Dev nD} (dat : Dat τ (Elt F) Unit ℕ (UR sig nD τ) ℕ cfg1 c) (hA : dat.A 7 = V c (Pipeline.arrRef spec1 7))
    (hafter : ∀ t, dat.after 7 t = blk V c 7 t) (t : Fin cfg1.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)

/-! ## The rectangles the body reads and writes: every one is a whole buffer -/

abbrev rH : Rect S4000x128 := Rect.unit (s := S4000x128) ![0, 0] S4000x128.size inb_S4000x128_S4000x128_0_0
abbrev rM : Rect S128x128 := Rect.unit (s := S128x128) ![0, 0] S128x128.size inb_S128x128_S128x128_0_0
abbrev rB : Rect S128 := Rect.unit (s := S128) ![0] S128.size inb_S128_S128_0

/-- The output buffer after the body: one store of the whole block — the normalised sum, scaled and shifted. -/
def emb (agg h : Vec F S4000x128 .f32) (m1 : Vec F S128x128 .f32) (mb1 : Vec F S128 .f32) (m2 : Vec F S128x128 .f32) (mb2 : Vec F S128 .f32)
    (g b : Vec F S128 .f32) : Vec F S4000x128 .f32 :=
  View.canon [⟨rH, k1_pay1 (k1_pay2 (View.ld agg rH) (View.ld m1 rM) (View.ld mb1 rB) (View.ld m2 rM) (View.ld mb2 rB) (View.ld h rH))
    (View.ld g rB) (View.ld b rB)⟩]

theorem cover_out (p0 : Vec F S4000x128 .f32) (y : S4000x128.Idx) :
    ∃ pc ∈ ([⟨rH, p0⟩] : List (View.Piece (Elt F) S4000x128 .f32)), y ∈ pc.1.set :=
  View.cover_of_tiled [⟨rH, p0⟩] S4000x128.size (by rfl) y

set_option maxHeartbeats 4000000 in
/-- The body on whole buffers: the eight inputs at read contents, the output at anything; it ends with the inputs as
    they were and the output at `emb` of the inputs. -/
theorem sound_kernel (c : Dev nD) (E : Set ℕ) (i : grid1.Coords)
    (a1 : Memref sig .tc .vmem S4000x128 .f32) (h1 : a1.IsWhole) (a2 : Memref sig .tc .vmem S4000x128 .f32) (h2 : a2.IsWhole)
    (a3 : Memref sig .tc .vmem S128x128 .f32) (h3 : a3.IsWhole) (a4 : Memref sig .tc .vmem S128 .f32) (h4 : a4.IsWhole)
    (a5 : Memref sig .tc .vmem S128x128 .f32) (h5 : a5.IsWhole) (a6 : Memref sig .tc .vmem S128 .f32) (h6 : a6.IsWhole)
    (a7 : Memref sig .tc .vmem S128 .f32) (h7 : a7.IsWhole) (a8 : Memref sig .tc .vmem S128 .f32) (h8 : a8.IsWhole)
    (a9 : Memref sig .tc .vmem S4000x128 .f32) (h9 : a9.IsWhole)
    (agg h : Vec F S4000x128 .f32) (m1 : Vec F S128x128 .f32) (mb1 : Vec F S128 .f32) (m2 : Vec F S128x128 .f32) (mb2 : Vec F S128 .f32)
    (g b : Vec F S128 .f32) (K : PUnit → sProp 𝕄) :
    iprop(owns (c : Thread nD τ) a1 fullShare agg ∗ owns (c : Thread nD τ) a2 fullShare h ∗ owns (c : Thread nD τ) a3 fullShare m1
        ∗ owns (c : Thread nD τ) a4 fullShare mb1 ∗ owns (c : Thread nD τ) a5 fullShare m2 ∗ owns (c : Thread nD τ) a6 fullShare mb2
        ∗ owns (c : Thread nD τ) a7 fullShare g ∗ owns (c : Thread nD τ) a8 fullShare b
        ∗ (∃ d, owns (c : Thread nD τ) a9 fullShare d)
        ∗ (iprop(owns (c : Thread nD τ) a1 fullShare agg ∗ owns (c : Thread nD τ) a2 fullShare h ∗ owns (c : Thread nD τ) a3 fullShare m1
            ∗ owns (c : Thread nD τ) a4 fullShare mb1 ∗ owns (c : Thread nD τ) a5 fullShare m2 ∗ owns (c : Thread nD τ) a6 fullShare mb2
            ∗ owns (c : Thread nD τ) a7 fullShare g ∗ owns (c : Thread nD τ) a8 fullShare b
            ∗ owns (c : Thread nD τ) a9 fullShare (emb agg h m1 mb1 m2 mb2 g b)) -∗ K ⟨⟩))
      ⊢ wp frame (wpE (defs₀ (F := F)) Variants.none c none) E (cc1__message_kernel i a1 h1 a2 h2 a3 h3 a4 h4 a5 h5 a6 h6 a7 h7 a8 h8 a9 h9) K := by
  simp only [cc1__message_kernel_eq_skeleton]; unfold cc1__message_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _)

/-! ## The proof data of the stage -/

/-- The arrays as the stage finds them; after the body at point `t` every input buffer at its block and the output
    buffer at `emb` of the input blocks; nothing is owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => emb (blk V c 0 t) (blk V c 1 t) (blk V c 2 t) (blk V c 3 t) (blk V c 4 t) (blk V c 5 t) (blk V c 6 t) (blk V c 7 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) :
    (dat V c).after 8 t = emb (blk V c 0 t) (blk V c 1 t) (blk V c 2 t) (blk V c 3 t) (blk V c 4 t) (blk V c 5 t) (blk V c 6 t) (blk V c 7 t) := by
  dsimp only [dat]

theorem dbefore_0 (c : Dev nD) (t : Fin cfg1.N) (d) : (dat V c).before 0 t d = blk V c 0 t :=
  before_0 V (dat V c) (A_eq V c 0) (after_0 V c) t d
theorem dbefore_1 (c : Dev nD) (t : Fin cfg1.N) (d) : (dat V c).before 1 t d = blk V c 1 t :=
  before_1 V (dat V c) (A_eq V c 1) (after_1 V c) t d
theorem dbefore_2 (c : Dev nD) (t : Fin cfg1.N) (d) : (dat V c).before 2 t d = blk V c 2 t :=
  before_2 V (dat V c) (A_eq V c 2) (after_2 V c) t d
theorem dbefore_3 (c : Dev nD) (t : Fin cfg1.N) (d) : (dat V c).before 3 t d = blk V c 3 t :=
  before_3 V (dat V c) (A_eq V c 3) (after_3 V c) t d
theorem dbefore_4 (c : Dev nD) (t : Fin cfg1.N) (d) : (dat V c).before 4 t d = blk V c 4 t :=
  before_4 V (dat V c) (A_eq V c 4) (after_4 V c) t d
theorem dbefore_5 (c : Dev nD) (t : Fin cfg1.N) (d) : (dat V c).before 5 t d = blk V c 5 t :=
  before_5 V (dat V c) (A_eq V c 5) (after_5 V c) t d
theorem dbefore_6 (c : Dev nD) (t : Fin cfg1.N) (d) : (dat V c).before 6 t d = blk V c 6 t :=
  before_6 V (dat V c) (A_eq V c 6) (after_6 V c) t d
theorem dbefore_7 (c : Dev nD) (t : Fin cfg1.N) (d) : (dat V c).before 7 t d = blk V c 7 t :=
  before_7 V (dat V c) (A_eq V c 7) (after_7 V c) t d

/-! ## The body obligation -/

/-- What the body is called with at point `t`: the invariant, the core's dues, and the nine buffers. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dbefore_0, dbefore_1, dbefore_2, dbefore_3, dbefore_4, dbefore_5, dbefore_6, dbefore_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (blk V c 0 t) (blk V c 1 t) (blk V c 2 t) (blk V c 3 t) (blk V c 4 t) (blk V c 5 t) (blk V c 6 t) (blk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Msg

end
-- ==== Proof.Ideal.Whole.lean ====
/-
  The whole program as one run. @main is seven segments: three stretches of host operations (the degrees, the role
  embedding, the feature matrix), the first dense stage, a stretch (gathers along the edges, three scatter-adds and
  their sum), the second dense stage, and a last stretch (the column mean and the mask). The contents of every
  unscoped buffer at each boundary are a fold from the launch memory: a stretch applies its operations; a stage
  replaces its windows' arrays by what the 25 write-backs leave and touches nothing else. The run terminates without
  a fault and ends with every unscoped buffer at the last boundary's contents; no segment writes an argument.
-/
import proofs.«407380_j30331059044746_3_alg».proof.Proof.Ideal.Proj
import proofs.«407380_j30331059044746_3_alg».proof.Proof.Ideal.Msg
import proofs.«407380_j30331059044746_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- On entry to the first stage: the launch memory after the three host stretches. -/
abbrev B3 : Dev nD → Valuation τ sig (Elt F) := fun c => V3 m c
/-- The same read at the TensorCore's references: what the first stage's proof data take. -/
abbrev E3 : (c : Dev nD) → (b : Ref sig .tc) → Buf (Elt F) ((c : Thread nD τ).loc b) := fun c b => B3 m c b
/-- On exit from the first stage: its arrays at what the write-backs leave, every other buffer as entered. -/
def B4 (c : Dev nD) : Valuation τ sig (Elt F) :=
  Pipeline.withArrays spec0 c (B3 m c) fun w => (Proj.dat (E3 m) c).arrAt w cfg0.N
abbrev B4r : (c : Dev nD) → (b : Ref sig .tc) → Buf (Elt F) ((c : Thread nD τ).loc b) := fun c b => B4 m c b
/-- On entry to the second stage: after the edge gathers and scatter-adds. -/
abbrev B5 : Dev nD → Valuation τ sig (Elt F) := fun c => StableHlo.after hostOps1 (B4 m c)
abbrev E5 : (c : Dev nD) → (b : Ref sig .tc) → Buf (Elt F) ((c : Thread nD τ).loc b) := fun c b => B5 m c b
/-- On exit from the second stage. -/
def B6 (c : Dev nD) : Valuation τ sig (Elt F) :=
  Pipeline.withArrays spec1 c (B5 m c) fun w => (Msg.dat (E5 m) c).arrAt w cfg1.N
abbrev B6r : (c : Dev nD) → (b : Ref sig .tc) → Buf (Elt F) ((c : Thread nD τ).loc b) := fun c b => B6 m c b
/-- At the end: after the column mean and the mask. -/
abbrev B7 : Dev nD → Valuation τ sig (Elt F) := fun c => StableHlo.after hostOps2 (B6 m c)

theorem B4_arr (c : Dev nD) (w : Fin cfg0.W) :
    B4 m c (Proc.devRef .tc (Pipeline.arrRef spec0 w)) = (Proj.dat (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
theorem hF0 (c : Dev nD) (w : Fin cfg0.W) : (Proj.dat (E3 m) c).arrAt w cfg0.N = B4r m c (Pipeline.arrRef spec0 w) :=
  (B4_arr m c w).symm
theorem hrest0 (c : Dev nD) : ∀ b, b ∉ Finset.univ.image (Pipeline.arrRef spec0) → B4r m c b = E3 m c b :=
  fun b hb => B4_of_ne m c b fun w e => hb (Finset.mem_image.mpr ⟨w, Finset.mem_univ _, e⟩)

theorem B6_arr (c : Dev nD) (w : Fin cfg1.W) :
    B6 m c (Proc.devRef .tc (Pipeline.arrRef spec1 w)) = (Msg.dat (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
theorem hF1 (c : Dev nD) (w : Fin cfg1.W) : (Msg.dat (E5 m) c).arrAt w cfg1.N = B6r m c (Pipeline.arrRef spec1 w) :=
  (B6_arr m c w).symm
theorem hrest1 (c : Dev nD) : ∀ b, b ∉ Finset.univ.image (Pipeline.arrRef spec1) → B6r m c b = E5 m c b :=
  fun b hb => B6_of_ne m c b fun w e => hb (Finset.mem_image.mpr ⟨w, Finset.mem_univ _, e⟩)

/-! ## A stage changes only its output arrays -/

/-- An input window's array is left as the first stage found it. -/
theorem B4_in (c : Dev nD) (w : Fin cfg0.W) (hw : (cfg0.win w).isOut = false) :
    B4 m c (Proc.devRef .tc (Pipeline.arrRef spec0 w)) = B3 m c (Proc.devRef .tc (Pipeline.arrRef spec0 w)) :=
  (B4_arr m c w).trans (((Proj.dat (E3 m) c).arrAt_in w hw _).trans (Proj.A_eq (E3 m) c w))

/-- Every buffer but the two outputs is left as the first stage found it. -/
theorem B4_keep (c : Dev nD) (b : Ref sig .tc) (h5 : b ≠ main_v9_0) (h6 : b ≠ main_v9_1) :
    B4 m c (Proc.devRef .tc b) = B3 m c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl h5
      | ⟨6, _⟩ => exact absurd rfl h6
    exact B4_in m c w hw
  · exact B4_of_ne m c b fun w e => h ⟨w, e⟩

theorem B6_in (c : Dev nD) (w : Fin cfg1.W) (hw : (cfg1.win w).isOut = false) :
    B6 m c (Proc.devRef .tc (Pipeline.arrRef spec1 w)) = B5 m c (Proc.devRef .tc (Pipeline.arrRef spec1 w)) :=
  (B6_arr m c w).trans (((Msg.dat (E5 m) c).arrAt_in w hw _).trans (Msg.A_eq (E5 m) c w))

/-- Every buffer but the output is left as the second stage found it. -/
theorem B6_keep (c : Dev nD) (b : Ref sig .tc) (h8 : b ≠ main_v54) :
    B6 m c (Proc.devRef .tc b) = B5 m c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
      | ⟨8, _⟩ => exact absurd rfl h8
    exact B6_in m c w hw
  · exact B6_of_ne m c b fun w e => h ⟨w, e⟩

/-- A buffer that no host stretch writes and that is no stage's output ends as launched. -/
theorem kept (c : Dev nD) (b : Ref sig .tc) (h0 : b ∉ hostOps0_W) (h1 : b ∉ hostOps0_1_W) (h2 : b ∉ hostOps0_2_W)
    (h3 : b ≠ main_v9_0) (h3' : b ≠ main_v9_1) (h4 : b ∉ hostOps1_W) (h5 : b ≠ main_v54) (h6 : b ∉ hostOps2_W) :
    B7 m c (Proc.devRef .tc b) = m ((c : Thread nD τ).loc b) :=
  (StableHlo.after_of_writes_sub hostOps2 _ hostOps2_writes h6).trans <|
  (B6_keep m c b h5).trans <|
  (StableHlo.after_of_writes_sub hostOps1 _ hostOps1_writes h4).trans <|
  (B4_keep m c b h3 h3').trans <|
  (V3_of m c b h2).trans <| (V2_of m c b h1).trans <| (V1_of m c b h0).trans rfl

/-! ## The arguments end as launched -/
theorem kept_arg0 (c : Dev nD) : B7 m c (Proc.devRef .tc main_arg0) = m ((c : Thread nD τ).loc main_arg0) :=
  kept m c main_arg0 (by decide) (by decide) (by decide) (by decide) (by decide) (by decide) (by decide) (by decide)
theorem kept_arg1 (c : Dev nD) : B7 m c (Proc.devRef .tc main_arg1) = m ((c : Thread nD τ).loc main_arg1) :=
  kept m c main_arg1 (by decide) (by decide) (by decide) (by decide) (by decide) (by decide) (by decide) (by decide)
theorem kept_arg2 (c : Dev nD) : B7 m c (Proc.devRef .tc main_arg2) = m ((c : Thread nD τ).loc main_arg2) :=
  kept m c main_arg2 (by decide) (by decide) (by decide) (by decide) (by decide) (by decide) (by decide) (by decide)
theorem kept_arg3 (c : Dev nD) : B7 m c (Proc.devRef .tc main_arg3) = m ((c : Thread nD τ).loc main_arg3) :=
  kept m c main_arg3 (by decide) (by decide) (by decide) (by decide) (by decide) (by decide) (by decide) (by decide)
theorem kept_arg4 (c : Dev nD) : B7 m c (Proc.devRef .tc main_arg4) = m ((c : Thread nD τ).loc main_arg4) :=
  kept m c main_arg4 (by decide) (by decide) (by decide) (by decide) (by decide) (by decide) (by decide) (by decide)
theorem kept_arg5 (c : Dev nD) : B7 m c (Proc.devRef .tc main_arg5) = m ((c : Thread nD τ).loc main_arg5) :=
  kept m c main_arg5 (by decide) (by decide) (by decide) (by decide) (by decide) (by decide) (by decide) (by decide)
theorem kept_arg6 (c : Dev nD) : B7 m c (Proc.devRef .tc main_arg6) = m ((c : Thread nD τ).loc main_arg6) :=
  kept m c main_arg6 (by decide) (by decide) (by decide) (by decide) (by decide) (by decide) (by decide) (by decide)
theorem kept_arg7 (c : Dev nD) : B7 m c (Proc.devRef .tc main_arg7) = m ((c : Thread nD τ).loc main_arg7) :=
  kept m c main_arg7 (by decide) (by decide) (by decide) (by decide) (by decide) (by decide) (by decide) (by decide)
theorem kept_arg8 (c : Dev nD) : B7 m c (Proc.devRef .tc main_arg8) = m ((c : Thread nD τ).loc main_arg8) :=
  kept m c main_arg8 (by decide) (by decide) (by decide) (by decide) (by decide) (by decide) (by decide) (by decide)
theorem kept_arg9 (c : Dev nD) : B7 m c (Proc.devRef .tc main_arg9) = m ((c : Thread nD τ).loc main_arg9) :=
  kept m c main_arg9 (by decide) (by decide) (by decide) (by decide) (by decide) (by decide) (by decide) (by decide)
theorem kept_arg10 (c : Dev nD) : B7 m c (Proc.devRef .tc main_arg10) = m ((c : Thread nD τ).loc main_arg10) :=
  kept m c main_arg10 (by decide) (by decide) (by decide) (by decide) (by decide) (by decide) (by decide) (by decide)
theorem kept_arg11 (c : Dev nD) : B7 m c (Proc.devRef .tc main_arg11) = m ((c : Thread nD τ).loc main_arg11) :=
  kept m c main_arg11 (by decide) (by decide) (by decide) (by decide) (by decide) (by decide) (by decide) (by decide)
theorem kept_arg12 (c : Dev nD) : B7 m c (Proc.devRef .tc main_arg12) = m ((c : Thread nD τ).loc main_arg12) :=
  kept m c main_arg12 (by decide) (by decide) (by decide) (by decide) (by decide) (by decide) (by decide) (by decide)
theorem kept_arg13 (c : Dev nD) : B7 m c (Proc.devRef .tc main_arg13) = m ((c : Thread nD τ).loc main_arg13) :=
  kept m c main_arg13 (by decide) (by decide) (by decide) (by decide) (by decide) (by decide) (by decide) (by decide)
theorem kept_arg14 (c : Dev nD) : B7 m c (Proc.devRef .tc main_arg14) = m ((c : Thread nD τ).loc main_arg14) :=
  kept m c main_arg14 (by decide) (by decide) (by decide) (by decide) (by decide) (by decide) (by decide) (by decide)
theorem kept_arg15 (c : Dev nD) : B7 m c (Proc.devRef .tc main_arg15) = m ((c : Thread nD τ).loc main_arg15) :=
  kept m c main_arg15 (by decide) (by decide) (by decide) (by decide) (by decide) (by decide) (by decide) (by decide)
theorem kept_arg16 (c : Dev nD) : B7 m c (Proc.devRef .tc main_arg16) = m ((c : Thread nD τ).loc main_arg16) :=
  kept m c main_arg16 (by decide) (by decide) (by decide) (by decide) (by decide) (by decide) (by decide) (by decide)
theorem kept_arg17 (c : Dev nD) : B7 m c (Proc.devRef .tc main_arg17) = m ((c : Thread nD τ).loc main_arg17) :=
  kept m c main_arg17 (by decide) (by decide) (by decide) (by decide) (by decide) (by decide) (by decide) (by decide)
theorem kept_arg18 (c : Dev nD) : B7 m c (Proc.devRef .tc main_arg18) = m ((c : Thread nD τ).loc main_arg18) :=
  kept m c main_arg18 (by decide) (by decide) (by decide) (by decide) (by decide) (by decide) (by decide) (by decide)
theorem kept_arg19 (c : Dev nD) : B7 m c (Proc.devRef .tc main_arg19) = m ((c : Thread nD τ).loc main_arg19) :=
  kept m c main_arg19 (by decide) (by decide) (by decide) (by decide) (by decide) (by decide) (by decide) (by decide)

/-! ## The proof data family and the thread state -/

abbrev adm : (p : Fin 2) → (pcfgs (F := F) p).Adm := fun p => (cfgs p).toPCfg_adm
/-- Each stage's proof data at its entry contents. -/
def pdats : (p : Fin 2) → (c : Dev nD) → Dat τ (Elt F) Unit ℕ (UR sig nD τ) ℕ (Pipeline.pin (pcfgs (F := F)) adm p) c
  | ⟨0, _⟩ => fun c => Proj.dat (E3 m) c
  | ⟨1, _⟩ => fun c => Msg.dat (E5 m) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
/-- After the last stage only the dues ride along. -/
abbrev R' (c : Dev nD) : sProp 𝕄 := iprop(∃ W, owes (c : Thread nD τ) (0 : CellTallies nD τ sig Unit) W)
/-- A host stretch as a segment, from the contents `W`, with `Rd` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (Rd : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two stages as segments -/

set_option backward.isDefEq.respectTransparency.types false in
/-- Stage 0 over the thread state: entered with every unscoped buffer at B3, left with them at B4. Its
    windows' arrays are split out of the unscoped buffers and put back at what the pipeline's write-backs leave; the
    generator register goes into the stage's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (B4r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 over the thread state: entered with every unscoped buffer at B5, left with them at B6. Its
    windows' arrays are split out of the unscoped buffers and put back at what the pipeline's write-backs leave; the
    generator register goes into the stage's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Msg.body_obligation (E5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R' c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (B6r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (fun c => V0 m c) R),
    .host (hseg hostOps0_1 hostOps0_1_sub hostOps0_1_fresh (fun c => V1 m c) R),
    .host (hseg hostOps0_2 hostOps0_2_sub hostOps0_2_fresh (fun c => V2 m c) R),
    .region (reg0 m),
    .host (hseg hostOps1 hostOps1_sub hostOps1_fresh (B4 m) R),
    .region (reg1 m),
    .host (hseg hostOps2 hostOps2_sub hostOps2_fresh (B6 m) R') ]

theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds each unscoped TensorCore buffer at the last boundary's contents. -/
theorem run (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = B7 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (B7 m c))
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨Hh, HSI⟩
      unfold StableHlo.held
      imodintro
      iapply (pointsTo_read_all (Pipeline.ucRefs τ sig) (fun b => (((c : Thread nD τ)).1, b)) (B7 m c) s')
      isplitl [Hh] <;> iassumption)
    (hQ := fun s h c b hb => h c _ (mem_uc b hb))

end Cert.KernelIdeal.Whole

end
-- ==== Proof.Spec.lean ====
/-
  The two dense stages of the graph encoder, written once as functions of whole matrices over the extended reals,
  entry by entry. Nothing here mentions a program: both the tiled kernel and the whole-array reference are shown to
  compute these functions.

  * `lin x W b` at (r, j) is the affine map (x · W)[r, j] + b[j], the product a plain sum over the shared axis.
  * `relu1 x W b` clamps it at zero.
  * `hid` is the input projection relu (relu (x·W1 + b1)·W2 + b2).
  * `emb` is the message stage: z = h + (relu (agg·M1 + mb1)·M2 + mb2); along each row of 128 entries the mean, the
    deviations from it, the mean of their squares; then deviation · rsqrt (variance + ε) · gamma + beta.
  Every function is local to a row: its value on row r depends on row r of the row-indexed arguments only
  (`hid_rows`, `emb_rows`), which is what lets a kernel compute it 4000 rows at a time.
-/
import Idealize.ShloMosaic.Lib.ValueIdx
import Idealize.ShloMosaic.PureOps.Ideal

noncomputable section

namespace Encoder

open Idealize.ShloMosaic Idealize.ShloMosaic.ValueIdx

/-- A matrix and a row of extended reals, indexed as the arrays of the programs are. -/
abbrev Mat (a b : Nat) : Type := (⟨2, ![a, b]⟩ : Shape).Idx → EReal
abbrev Row (a : Nat) : Type := (⟨1, ![a]⟩ : Shape).Idx → EReal

variable {M K N : Nat}

/-- The affine map (x · W)[r, j] + b[j]. -/
def lin (x : Mat M K) (W : Mat K N) (b : Row N) (r : Fin M) (j : Fin N) : EReal :=
  (∑ k : Fin K, x (ix2 r k) * W (ix2 k j)) + b (ix1 j)

/-- The affine map clamped at zero, as a matrix. -/
def relu1 (x : Mat M K) (W : Mat K N) (b : Row N) : Mat M N := fun i => max (lin x W b (i 0) (i 1)) 0

theorem relu1_apply (x : Mat M K) (W : Mat K N) (b : Row N) (r : Fin M) (j : Fin N) :
    relu1 x W b (ix2 r j) = max (lin x W b r j) 0 := rfl

/-- The input projection: two clamped affine layers. -/
def hid (x : Mat M 28) (W1 : Mat 28 128) (b1 : Row 128) (W2 : Mat 128 128) (b2 : Row 128) : Mat M 128 :=
  relu1 (relu1 x W1 b1) W2 b2

theorem hid_apply (x : Mat M 28) (W1 : Mat 28 128) (b1 : Row 128) (W2 : Mat 128 128) (b2 : Row 128) (r : Fin M) (j : Fin 128) :
    hid x W1 b1 W2 b2 (ix2 r j) = max (lin (relu1 x W1 b1) W2 b2 r j) 0 := rfl

/-- The divisor 128 and the small constant 1e-5 of the normalisation, as the f32 words both programs carry. -/
def c128 : EReal := Ideal.ofBits .f32 0x43000000#32
def ceps : EReal := Ideal.ofBits .f32 0x3727C5AC#32

/-- What is normalised: the hidden features plus the message, a clamped affine layer followed by an affine one. -/
def zsum (agg h : Mat M 128) (M1 : Mat 128 128) (mb1 : Row 128) (M2 : Mat 128 128) (mb2 : Row 128) : Mat M 128 :=
  fun i => h i + lin (relu1 agg M1 mb1) M2 mb2 (i 0) (i 1)

theorem zsum_apply (agg h : Mat M 128) (M1 : Mat 128 128) (mb1 : Row 128) (M2 : Mat 128 128) (mb2 : Row 128) (r : Fin M) (j : Fin 128) :
    zsum agg h M1 mb1 M2 mb2 (ix2 r j) = h (ix2 r j) + lin (relu1 agg M1 mb1) M2 mb2 r j := rfl

/-- The mean of a row's 128 entries. -/
def rowMean (z : Mat M 128) (r : Fin M) : EReal := Ideal.div (∑ j : Fin 128, z (ix2 r j)) c128

/-- The deviations from the row mean. -/
def dev (z : Mat M 128) : Mat M 128 := fun i => z i - rowMean z (i 0)

theorem dev_apply (z : Mat M 128) (r : Fin M) (j : Fin 128) : dev z (ix2 r j) = z (ix2 r j) - rowMean z r := rfl

/-- The mean of a row's squared deviations. -/
def rowVar (z : Mat M 128) (r : Fin M) : EReal := Ideal.div (∑ j : Fin 128, dev z (ix2 r j) * dev z (ix2 r j)) c128

/-- A row normalised, scaled and shifted. -/
def norm (z : Mat M 128) (g b : Row 128) : Mat M 128 :=
  fun i => dev z i * Ideal.rsqrt (rowVar z (i 0) + ceps) * g (ix1 (i 1)) + b (ix1 (i 1))

theorem norm_apply (z : Mat M 128) (g b : Row 128) (r : Fin M) (j : Fin 128) :
    norm z g b (ix2 r j) = dev z (ix2 r j) * Ideal.rsqrt (rowVar z r + ceps) * g (ix1 j) + b (ix1 j) := rfl

/-- The message stage. -/
def emb (agg h : Mat M 128) (M1 : Mat 128 128) (mb1 : Row 128) (M2 : Mat 128 128) (mb2 : Row 128) (g b : Row 128) : Mat M 128 :=
  norm (zsum agg h M1 mb1 M2 mb2) g b

/-! ## Row locality -/

theorem lin_rows {M' : Nat} (x : Mat M K) (x' : Mat M' K) (W : Mat K N) (b : Row N) (r : Fin M) (r' : Fin M')
    (hx : ∀ k, x (ix2 r k) = x' (ix2 r' k)) (j : Fin N) : lin x W b r j = lin x' W b r' j := by
  unfold lin; simp only [hx]

theorem relu1_rows {M' : Nat} (x : Mat M K) (x' : Mat M' K) (W : Mat K N) (b : Row N) (r : Fin M) (r' : Fin M')
    (hx : ∀ k, x (ix2 r k) = x' (ix2 r' k)) (j : Fin N) : relu1 x W b (ix2 r j) = relu1 x' W b (ix2 r' j) := by
  rw [relu1_apply, relu1_apply, lin_rows x x' W b r r' hx j]

/-- The input projection on row r depends on row r of the features only. -/
theorem hid_rows {M' : Nat} (x : Mat M 28) (x' : Mat M' 28) (W1 : Mat 28 128) (b1 : Row 128) (W2 : Mat 128 128) (b2 : Row 128)
    (r : Fin M) (r' : Fin M') (hx : ∀ k, x (ix2 r k) = x' (ix2 r' k)) (j : Fin 128) :
    hid x W1 b1 W2 b2 (ix2 r j) = hid x' W1 b1 W2 b2 (ix2 r' j) :=
  relu1_rows _ _ W2 b2 r r' (fun k => relu1_rows x x' W1 b1 r r' hx k) j

theorem zsum_rows {M' : Nat} (agg h : Mat M 128) (agg' h' : Mat M' 128) (M1 : Mat 128 128) (mb1 : Row 128) (M2 : Mat 128 128) (mb2 : Row 128)
    (r : Fin M) (r' : Fin M') (ha : ∀ k, agg (ix2 r k) = agg' (ix2 r' k)) (hh : ∀ k, h (ix2 r k) = h' (ix2 r' k)) (j : Fin 128) :
    zsum agg h M1 mb1 M2 mb2 (ix2 r j) = zsum agg' h' M1 mb1 M2 mb2 (ix2 r' j) := by
  rw [zsum_apply, zsum_apply, hh j, lin_rows _ _ M2 mb2 r r' (fun k => relu1_rows agg agg' M1 mb1 r r' ha k) j]

theorem norm_rows {M' : Nat} (z : Mat M 128) (z' : Mat M' 128) (g b : Row 128) (r : Fin M) (r' : Fin M')
    (hz : ∀ k, z (ix2 r k) = z' (ix2 r' k)) (j : Fin 128) : norm z g b (ix2 r j) = norm z' g b (ix2 r' j) := by
  have hm : rowMean z r = rowMean z' r' := by unfold rowMean; simp only [hz]
  have hd : ∀ k, dev z (ix2 r k) = dev z' (ix2 r' k) := fun k => by rw [dev_apply, dev_apply, hz k, hm]
  have hv : rowVar z r = rowVar z' r' := by unfold rowVar; simp only [hd]
  rw [norm_apply, norm_apply, hd j, hv]

/-- The message stage on row r depends on row r of the aggregated messages and of the hidden features only. -/
theorem emb_rows {M' : Nat} (agg h : Mat M 128) (agg' h' : Mat M' 128) (M1 : Mat 128 128) (mb1 : Row 128) (M2 : Mat 128 128) (mb2 : Row 128)
    (g b : Row 128) (r : Fin M) (r' : Fin M') (ha : ∀ k, agg (ix2 r k) = agg' (ix2 r' k)) (hh : ∀ k, h (ix2 r k) = h' (ix2 r' k)) (j : Fin 128) :
    emb agg h M1 mb1 M2 mb2 g b (ix2 r j) = emb agg' h' M1 mb1 M2 mb2 g b (ix2 r' j) :=
  norm_rows _ _ g b r r' (fun k => zsum_rows agg h agg' h' M1 mb1 M2 mb2 r r' ha hh k) j

end Encoder

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.Ideal.ProjValue.lean ====
/-
  The value of the first dense stage at the extended reals.

  At every grid point the body leaves in its output block the two clamped affine layers
      relu (relu (x · W1 + b1) · W2 + b2)
  of the 4000 feature rows it found, entry by entry: each matrix product into the zero accumulator is the plain sum
  over the shared axis, each bias row is laid under every one of the 4000 rows, the clamp is the maximum with the real
  zero, and the change of format to bf16 is the identity on extended reals. Row 4000·t + r of the whole 100000-row
  result depends on row 4000·t + r of the features only, which is row r of the block found at point t; the 25 blocks
  tile the 100000 rows, so both output arrays end holding the input projection of the whole feature matrix.
-/
import proofs.«407380_j30331059044746_3_alg».proof.Proof.Ideal.Proj
import proofs.«407380_j30331059044746_3_alg».proof.Proof.Spec
import proofs.«407380_j30331059044746_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Cert.KernelIdeal Cert.KernelIdeal.Gen
open Idealize.ShloMosaic Idealize.ShloMosaic.TcCoe Idealize.ShloMosaic.ValueIdx

/-! ## One block: the body's arithmetic is the two clamped affine layers -/

/-- A bias row laid under each of the 4000 rows reads, at (p, q), the row's entry q. -/
theorem biasRows_apply (b : Vec Ideal S128 .f32) (p : Fin 4000) (q : Fin 128) :
    broadcastTo S4000x128 (shapeCast S1x128 b shapeCasts_S128_S1x128) broadcasts_S1x128_S4000x128 (ix2 p q) = b (ix1 q) :=
  (broadcastTo_1b_ab_apply _ broadcasts_S1x128_S4000x128 p q).trans (shapeCast_a_1a_apply b shapeCasts_S128_S1x128 0 q)

/-- One dense layer of the body read at an entry: the product into the zero accumulator is the sum over the shared
    axis, the bias row is added, and the maximum is taken with the real zero. -/
theorem denseClamp_apply {K : Nat} (d : DotDims ⟨2, ![4000, K]⟩ ⟨2, ![K, 128]⟩ ⟨2, ![4000, 128]⟩) (hd : PlainDot.IsPlain d)
    (a : FVec Ideal ⟨2, ![4000, K]⟩ .bf16) (w : FVec Ideal ⟨2, ![K, 128]⟩ .bf16) (b : Vec Ideal S128 .f32)
    (p : Fin 4000) (q : Fin 128) :
    maximumf (addf (matmul d none a w (constant (F := Ideal) S4000x128 .f32 0x00000000#32))
        (broadcastTo S4000x128 (shapeCast S1x128 b shapeCasts_S128_S1x128) broadcasts_S1x128_S4000x128))
      (broadcast S4000x128 (Scalar.ofBits (F := Ideal) .f32 0x00000000#32)) (ix2 p q)
      = max ((∑ k : Fin K, a (ix2 p k) * w (ix2 k q)) + b (ix1 q)) 0 := by
  rw [maximumf_apply, addf_apply, broadcast_apply, biasRows_apply]
  show max (FloatOps.matmul d none a w (constant (F := Ideal) S4000x128 .f32 0x00000000#32) (ix2 p q) + b (ix1 q))
    (Ideal.ofBits .f32 0x00000000#32) = _
  rw [PlainDot.matmul_zero_apply d hd, Ideal.ofBits_zero_f32]

/-- The body's f32 payload at an entry is the input projection of the block's rows. -/
theorem pay1_apply (x : Vec Ideal S4000x28 .f32) (w1 : Vec Ideal S28x128 .f32) (b1 : Vec Ideal S128 .f32)
    (w2 : Vec Ideal S128x128 .f32) (b2 : Vec Ideal S128 .f32) (p : Fin 4000) (q : Fin 128) :
    k0_pay1 (F := Ideal) x w1 b1 w2 b2 (ix2 p q) = Encoder.hid (M := 4000) x w1 b1 w2 b2 (ix2 p q) := by
  unfold k0_pay1
  refine (denseClamp_apply dot_S4000x128_S128x128_S4000x128_1_0_0_1_n_n ⟨rfl, rfl, rfl, rfl, rfl, rfl⟩ _ _ b2 p q).trans ?_
  rw [Encoder.hid_apply]
  unfold Encoder.lin
  refine congrArg (fun s => max (s + b2 (ix1 q)) 0) (Finset.sum_congr rfl fun k _ => ?_)
  rw [truncf_apply, truncf_apply,
    denseClamp_apply dot_S4000x28_S28x128_S4000x128_1_0_0_1_n_n ⟨rfl, rfl, rfl, rfl, rfl, rfl⟩ _ _ b1 p k,
    Encoder.relu1_apply]
  unfold Encoder.lin
  simp only [truncf_apply, shapeCast_self]

theorem zeroOff2 : (![0, 0] : Fin 2 → Nat) = fun _ => 0 := funext fun a => by fin_cases a <;> rfl
theorem zeroOff1 : (![0] : Fin 1 → Nat) = fun _ => 0 := funext fun a => by fin_cases a; rfl

/-- What the body leaves in the f32 output buffer is the input projection of the rows it loaded. -/
theorem hid_block (x : Vec Ideal S4000x28 .f32) (w1 : Vec Ideal S28x128 .f32) (b1 : Vec Ideal S128 .f32)
    (w2 : Vec Ideal S128x128 .f32) (b2 : Vec Ideal S128 .f32) :
    Proj.hid (F := Ideal) x w1 b1 w2 b2 = Encoder.hid (M := 4000) x w1 b1 w2 b2 := by
  unfold Proj.hid
  rw [View.canon_unit_zero zeroOff2]
  simp only [View.ld_unit_zero (S := S4000x28) zeroOff2, View.ld_unit_zero (S := S28x128) zeroOff2,
    View.ld_unit_zero (S := S128x128) zeroOff2, View.ld_unit_zero (S := S128) zeroOff1]
  funext j
  obtain ⟨p, q, rfl⟩ : ∃ (p : Fin 4000) (q : Fin 128), j = ix2 p q := ⟨j 0, j 1, eq_ix2 j⟩
  exact pay1_apply x w1 b1 w2 b2 p q

/-- The bf16 output buffer holds the same values: the change of format is the identity on extended reals. -/
theorem hidB_block (x : Vec Ideal S4000x28 .f32) (w1 : Vec Ideal S28x128 .f32) (b1 : Vec Ideal S128 .f32)
    (w2 : Vec Ideal S128x128 .f32) (b2 : Vec Ideal S128 .f32) :
    Proj.hidB (F := Ideal) x w1 b1 w2 b2 = Encoder.hid (M := 4000) x w1 b1 w2 b2 := by
  unfold Proj.hidB
  rw [View.canon_unit_zero zeroOff2]
  simp only [View.ld_unit_zero (S := S4000x28) zeroOff2, View.ld_unit_zero (S := S28x128) zeroOff2,
    View.ld_unit_zero (S := S128x128) zeroOff2, View.ld_unit_zero (S := S128) zeroOff1]
  funext j
  obtain ⟨p, q, rfl⟩ : ∃ (p : Fin 4000) (q : Fin 128), j = ix2 p q := ⟨j 0, j 1, eq_ix2 j⟩
  unfold k0_pay2
  exact (truncf_apply (ψ := .bf16) (k0_pay1 (F := Ideal) x w1 b1 w2 b2) bitsLt_bf16_f32 (ix2 p q)).trans
    (pay1_apply x w1 b1 w2 b2 p q)

/-! ## The 25 blocks: where each window's block sits in its array -/

/-- The index maps over the grid: the features and the two outputs move one block of 4000 rows per point; the
    weights and the bias rows stay at block 0. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Row r of the feature block at point t is row 4000·t + r of the feature matrix. -/
theorem featBlock_apply (c : Dev nD) (t : Fin cfg0.N) (r : Fin 4000) (k : Fin 28) (R : Fin 100000)
    (hR : R.val = t.val * 4000 + r.val) :
    (Proj.blk (F := Ideal) V c 0 t : Encoder.Mat 4000 28) (ix2 r k) = (V c main_v8 : Encoder.Mat 100000 28) (ix2 R k) := by
  obtain ⟨e0, e1, -⟩ := blockIndex t
  show (V c main_v8 : Encoder.Mat 100000 28) (((cfg0.win 0).blk t).view.emb (ix2 r k)) = _
  refine congrArg (V c main_v8 : Encoder.Mat 100000 28) (funext fun a => Fin.ext ?_)
  match a with
  | ⟨0, _⟩ => show win0_0.index t (0 : Fin 2) * 4000 + 1 * r.val = R.val; omega
  | ⟨1, _⟩ => show win0_0.index t (1 : Fin 2) * 28 + 1 * k.val = k.val; omega

/-- The first weight matrix's block is the whole matrix, at every point. -/
theorem w1Block_eq (c : Dev nD) (t : Fin cfg0.N) : (Proj.blk (F := Ideal) V c 1 t : Encoder.Mat 28 128) = V c main_arg6 := by
  obtain ⟨-, -, e0, e1, -⟩ := blockIndex t
  funext y
  show (V c main_arg6 : Encoder.Mat 28 128) (((cfg0.win 1).blk t).view.emb y) = _
  refine congrArg (V c main_arg6 : Encoder.Mat 28 128) (funext fun a => Fin.ext ?_)
  match a with
  | ⟨0, _⟩ => show win0_1.index t (0 : Fin 2) * 28 + 1 * (y 0).val = (y 0).val; omega
  | ⟨1, _⟩ => show win0_1.index t (1 : Fin 2) * 128 + 1 * (y 1).val = (y 1).val; omega

/-- The first bias row's block is the whole row. -/
theorem b1Block_eq (c : Dev nD) (t : Fin cfg0.N) : (Proj.blk (F := Ideal) V c 2 t : Encoder.Row 128) = V c main_arg7 := by
  obtain ⟨-, -, -, -, e0, -⟩ := blockIndex t
  funext y
  show (V c main_arg7 : Encoder.Row 128) (((cfg0.win 2).blk t).view.emb y) = _
  refine congrArg (V c main_arg7 : Encoder.Row 128) (funext fun a => Fin.ext ?_)
  match a with
  | ⟨0, _⟩ => show win0_2.index t (0 : Fin 1) * 128 + 1 * (y 0).val = (y 0).val; omega

/-- The second weight matrix's block is the whole matrix. -/
theorem w2Block_eq (c : Dev nD) (t : Fin cfg0.N) : (Proj.blk (F := Ideal) V c 3 t : Encoder.Mat 128 128) = V c main_arg8 := by
  obtain ⟨-, -, -, -, -, e0, e1, -⟩ := blockIndex t
  funext y
  show (V c main_arg8 : Encoder.Mat 128 128) (((cfg0.win 3).blk t).view.emb y) = _
  refine congrArg (V c main_arg8 : Encoder.Mat 128 128) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias row's block is the whole row. -/
theorem b2Block_eq (c : Dev nD) (t : Fin cfg0.N) : (Proj.blk (F := Ideal) V c 4 t : Encoder.Row 128) = V c main_arg9 := by
  obtain ⟨-, -, -, -, -, -, -, e0, -⟩ := blockIndex t
  funext y
  show (V c main_arg9 : Encoder.Row 128) (((cfg0.win 4).blk t).view.emb y) = _
  refine congrArg (V c main_arg9 : Encoder.Row 128) (funext fun a => Fin.ext ?_)
  match a with
  | ⟨0, _⟩ => show win0_4.index t (0 : Fin 1) * 128 + 1 * (y 0).val = (y 0).val; omega

/-- The input projection of a block of 4000 feature rows that are rows 4000·n … 4000·n + 3999 of a 100000-row matrix
    is rows 4000·n … 4000·n + 3999 of the projection of that matrix: every row of the result depends on its own row
    of the features only. Stated over matrices of the literal sizes, with the weights allowed to be given twice. -/
theorem hid_of_rows (X : Encoder.Mat 100000 28) (x : Encoder.Mat 4000 28) (W1 w1 : Encoder.Mat 28 128) (B1 b1 : Encoder.Row 128)
    (W2 w2 : Encoder.Mat 128 128) (B2 b2 : Encoder.Row 128) (n : Nat)
    (hx : ∀ (r : Fin 4000) (k : Fin 28) (R : Fin 100000), R.val = n * 4000 + r.val → x (ix2 r k) = X (ix2 R k))
    (hw1 : w1 = W1) (hb1 : b1 = B1) (hw2 : w2 = W2) (hb2 : b2 = B2)
    (i : (⟨2, ![4000, 128]⟩ : Shape).Idx) (I : (⟨2, ![100000, 128]⟩ : Shape).Idx)
    (h0 : (I 0).val = n * 4000 + (i 0).val) (h1 : (I 1).val = (i 1).val) :
    Encoder.hid x w1 b1 w2 b2 i = Encoder.hid X W1 B1 W2 B2 I := by
  subst hw1 hb1 hw2 hb2
  obtain ⟨r, j, rfl⟩ : ∃ (r : Fin 4000) (j : Fin 128), i = ix2 r j := ⟨i 0, i 1, eq_ix2 i⟩
  obtain ⟨R, J, rfl⟩ : ∃ (R : Fin 100000) (J : Fin 128), I = ix2 R J := ⟨I 0, I 1, eq_ix2 I⟩
  obtain rfl : J = j := Fin.ext h1
  exact Encoder.hid_rows x X w1 b1 w2 b2 r R (fun k => hx r k R h0) J

/-! ## What each point writes back, and the two arrays after the last point -/

/-- Point t writes back, to the f32 result, rows 4000·t … 4000·t + 3999 of the projection of the whole feature matrix. -/
theorem flushed_f32 (c : Dev nD) (t : Fin cfg0.N) :
    (Proj.dat (F := Ideal) V c).flushed 5 t = ((cfg0.win 5).blk t).view.read (Elt Ideal)
      (Encoder.hid (V c main_v8) (V c main_arg6) (V c main_arg7) (V c main_arg8) (V c main_arg9)) := by
  show (cfg0.win 5).cut (grid0.coords t) ((Proj.dat V c).after 5 t) = _
  rw [Proj.after_5]
  obtain ⟨-, -, -, -, -, -, -, -, e0, e1, -⟩ := blockIndex t
  funext y
  refine (congrFun (hid_block (Proj.blk V c 0 t) (Proj.blk V c 1 t) (Proj.blk V c 2 t) (Proj.blk V c 3 t) (Proj.blk V c 4 t))
    ((cfg0.win 5).xinj (grid0.coords t) y)).trans ?_
  refine hid_of_rows (V c main_v8) (Proj.blk V c 0 t) (V c main_arg6) (Proj.blk V c 1 t) (V c main_arg7) (Proj.blk V c 2 t)
    (V c main_arg8) (Proj.blk V c 3 t) (V c main_arg9) (Proj.blk V c 4 t) t.val
    (fun r k R hR => featBlock_apply V c t r k R hR) (w1Block_eq V c t) (b1Block_eq V c t) (w2Block_eq V c t) (b2Block_eq V c t)
    ((cfg0.win 5).xinj (grid0.coords t) y) (((cfg0.win 5).blk t).view.emb y) ?_ ?_
  · show win0_5.index t (0 : Fin 2) * 4000 + 1 * (y 0).val = t.val * 4000 + (y 0).val; omega
  · show win0_5.index t (1 : Fin 2) * 128 + 1 * (y 1).val = (y 1).val; omega

/-- The same rows, to the bf16 result. -/
theorem flushed_bf16 (c : Dev nD) (t : Fin cfg0.N) :
    (Proj.dat (F := Ideal) V c).flushed 6 t = ((cfg0.win 6).blk t).view.read (Elt Ideal)
      (Encoder.hid (V c main_v8) (V c main_arg6) (V c main_arg7) (V c main_arg8) (V c main_arg9)) := by
  show (cfg0.win 6).cut (grid0.coords t) ((Proj.dat V c).after 6 t) = _
  rw [Proj.after_6]
  obtain ⟨-, -, -, -, -, -, -, -, -, -, e0, e1⟩ := blockIndex t
  funext y
  refine (congrFun (hidB_block (Proj.blk V c 0 t) (Proj.blk V c 1 t) (Proj.blk V c 2 t) (Proj.blk V c 3 t) (Proj.blk V c 4 t))
    ((cfg0.win 6).xinj (grid0.coords t) y)).trans ?_
  refine hid_of_rows (V c main_v8) (Proj.blk V c 0 t) (V c main_arg6) (Proj.blk V c 1 t) (V c main_arg7) (Proj.blk V c 2 t)
    (V c main_arg8) (Proj.blk V c 3 t) (V c main_arg9) (Proj.blk V c 4 t) t.val
    (fun r k R hR => featBlock_apply V c t r k R hR) (w1Block_eq V c t) (b1Block_eq V c t) (w2Block_eq V c t) (b2Block_eq V c t)
    ((cfg0.win 6).xinj (grid0.coords t) y) (((cfg0.win 6).blk t).view.emb y) ?_ ?_
  · show win0_6.index t (0 : Fin 2) * 4000 + 1 * (y 0).val = t.val * 4000 + (y 0).val; omega
  · show win0_6.index t (1 : Fin 2) * 128 + 1 * (y 1).val = (y 1).val; omega

/-- An entry of the f32 result lies in point t's block iff each coordinate lies in the block's range on its axis. -/
theorem mem_block_f32 (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v9_0).slice (win0_5.rect t)).set ↔ _
  rw [View.set_slice_whole, Rect.mem_set_unit]
  exact Iff.rfl

/-- The same for the bf16 result. -/
theorem mem_block_bf16 (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v9_1).slice (win0_6.rect t)).set ↔ _
  rw [View.set_slice_whole, Rect.mem_set_unit]
  exact Iff.rfl

/-- The blocks tile the 100000 rows: row r lies in the block of point r / 4000. -/
theorem rows_covered_f32 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, -, -, e0, e1, -⟩ := blockIndex t
  refine ⟨t, flush0_5 t, ?_⟩
  rw [mem_block_f32]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

theorem rows_covered_bf16 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, -, -, -, -, e0, e1⟩ := blockIndex t
  refine ⟨t, flush0_6 t, ?_⟩
  rw [mem_block_bf16]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- After the last point the f32 result holds the input projection of the whole feature matrix. -/
theorem final_f32 (c : Dev nD) :
    (Proj.dat (F := Ideal) V c).arrAt 5 cfg0.N
      = Encoder.hid (V c main_v8) (V c main_arg6) (V c main_arg7) (V c main_arg8) (V c main_arg9) :=
  (Proj.dat (F := Ideal) V c).arrAt_eq_of_cover 5 _ (fun t _ => flushed_f32 V c t) rows_covered_f32

/-- And so does the bf16 result. -/
theorem final_bf16 (c : Dev nD) :
    (Proj.dat (F := Ideal) V c).arrAt 6 cfg0.N
      = Encoder.hid (V c main_v8) (V c main_arg6) (V c main_arg7) (V c main_arg8) (V c main_arg9) :=
  (Proj.dat (F := Ideal) V c).arrAt_eq_of_cover 6 _ (fun t _ => flushed_bf16 V c t) rows_covered_bf16

end Cert.KernelIdeal.ProjValue

end
-- ==== Proof.Ideal.MsgValue.lean ====
/-
  The second dense stage at the extended reals, read entry by entry.

  At a grid point the body holds a 4000 × 128 block of aggregated messages, the matching block of hidden features, the
  two 128 × 128 message matrices with their bias rows and the scale and shift rows. Entry (p, q) of what it stores is
      dev z (p, q) · rsqrt (rowVar z p + ε) · gamma q + beta q,     z = h + (relu (agg · M1 + mb1) · M2 + mb2),
  where each matrix product is the plain sum over the shared axis, the row mean is the sum of the row's 128 entries
  divided by 128, and the row variance is the mean of the squared deviations. That is the function `Encoder.emb` of the
  block. Since that function on a row depends on the same row of the two row-indexed arguments only, block t of the
  output array is rows 4000·t … 4000·t + 3999 of `Encoder.emb` of the whole arrays; the 25 blocks tile the 100000 rows,
  so the array ends holding `Encoder.emb` of the whole arrays.
-/
import proofs.«407380_j30331059044746_3_alg».proof.Proof.Ideal.Msg
import proofs.«407380_j30331059044746_3_alg».proof.Proof.Spec
import proofs.«407380_j30331059044746_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MsgValue

open Cert.KernelIdeal Cert.KernelIdeal.Gen
open Idealize.ShloMosaic Idealize.ShloMosaic.TcCoe Idealize.ShloMosaic.ValueIdx
open Idealize.ShloMosaic.Pipeline (Dat)

/-! ## Layout operations of the body, read at an entry -/

theorem zero2 : (![0, 0] : Fin 2 → Nat) = fun _ => 0 := funext fun a => by fin_cases a <;> rfl
theorem zero1 : (![0] : Fin 1 → Nat) = fun _ => 0 := funext fun a => by fin_cases a <;> rfl

/-- A vector of `a` entries viewed as an `a × 1` column reads, at `(i, u)`, the vector's entry `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` columns reads, at `(p, c)`, the column's entry `p`. -/
theorem columnRepeat_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row of 128 entries viewed as a 1 × 128 matrix and repeated down the 4000 rows reads, at `(p, q)`, the row's
    entry `q`. -/
theorem rowRepeat_apply {α : Type} (v : S128.Idx → α) (p : Fin 4000) (q : Fin 128) :
    broadcastTo S4000x128 (shapeCast S1x128 v shapeCasts_S128_S1x128) broadcasts_S1x128_S4000x128 (ix2 p q) = v (ix1 q) := by
  rw [broadcastTo_1b_ab_apply, shapeCast_a_1a_apply]

/-- The sum along a row of a 4000 × 128 block, read at row `p`: the sum of the row's 128 entries (the accumulator word
    is the sum's neutral element, nothing is added for it). -/
theorem laneSum_apply (src : FVec Ideal S4000x128 .f32) (hφ : FKind.Formats .f32)
    (hacc : (0x00000000#32 : BitVec 32) = 0x00000000#32) (p : Fin 4000) :
    multiReduction (F := Ideal) .add [1] S4000 src 0x00000000#32 reduces_S4000x128_S4000 hφ hacc (ix1 p)
      = ∑ k : Fin 128, src (ix2 p k) := by
  refine (Ideal.multiReduction_add_single src 0x00000000#32 reduces_S4000x128_S4000 hφ hacc (ix1 p)).trans ?_
  refine Finset.sum_congr rfl fun k _ => congrArg src ?_
  funext c; apply Fin.ext
  match c with
  | ⟨0, _⟩ => rfl
  | ⟨1, _⟩ => rfl

/-! ## The body's arithmetic, stage by stage -/

/-- One dense layer as the body computes it: the product into the zero accumulator plus the bias row repeated down
    the rows. -/
def layerK (x : FVec Ideal S4000x128 .f32) (w : Vec Ideal S128x128 .f32) (bias : Vec Ideal S128 .f32) : FVec Ideal S4000x128 .f32 :=
  addf (matmul dot_S4000x128_S128x128_S4000x128_1_0_0_1_n_n none (truncf .bf16 x bitsLt_bf16_f32) (truncf .bf16 w bitsLt_bf16_f32)
      (constant S4000x128 .f32 0x00000000#32))
    (broadcastTo S4000x128 (shapeCast S1x128 bias shapeCasts_S128_S1x128) broadcasts_S1x128_S4000x128)

theorem plainDot : PlainDot.IsPlain dot_S4000x128_S128x128_S4000x128_1_0_0_1_n_n := ⟨rfl, rfl, rfl, rfl, rfl, rfl⟩

/-- A dense layer at an entry is the affine map: the plain product's sum over the shared axis plus the bias entry (the
    change of format before the product is the identity on extended reals). -/
theorem layerK_apply (x : FVec Ideal S4000x128 .f32) (w : Vec Ideal S128x128 .f32) (bias : Vec Ideal S128 .f32) (p : Fin 4000) (q : Fin 128) :
    layerK x w bias (ix2 p q) = Encoder.lin x w bias p q := by
  unfold layerK Encoder.lin
  rw [addf_apply, rowRepeat_apply]
  show FloatOps.matmul dot_S4000x128_S128x128_S4000x128_1_0_0_1_n_n none (truncf .bf16 x bitsLt_bf16_f32) (truncf .bf16 w bitsLt_bf16_f32)
      (constant S4000x128 .f32 0x00000000#32) (ix2 p q) + bias (ix1 q) = _
  rw [PlainDot.matmul_zero_apply _ plainDot]
  rfl

/-- What is normalised, as the body computes it: the hidden features plus the second layer of the first layer clamped
    at zero. -/
def zsumK (agg h : Vec Ideal S4000x128 .f32) (m1 : Vec Ideal S128x128 .f32) (mb1 : Vec Ideal S128 .f32) (m2 : Vec Ideal S128x128 .f32)
    (mb2 : Vec Ideal S128 .f32) : FVec Ideal S4000x128 .f32 :=
  addf (shapeCast S4000x128 h shapeCasts_S4000x128_S4000x128)
    (layerK (maximumf (layerK (shapeCast S4000x128 agg shapeCasts_S4000x128_S4000x128) m1 mb1)
      (broadcast S4000x128 (Scalar.ofBits .f32 0x00000000#32))) m2 mb2)

/-- The clamped first layer is `Encoder.relu1`: the word the body clamps at is the extended real 0. -/
theorem clamp_eq (agg : Vec Ideal S4000x128 .f32) (m1 : Vec Ideal S128x128 .f32) (mb1 : Vec Ideal S128 .f32) :
    maximumf (layerK (shapeCast S4000x128 agg shapeCasts_S4000x128_S4000x128) m1 mb1)
      (broadcast S4000x128 (Scalar.ofBits .f32 0x00000000#32)) = Encoder.relu1 agg m1 mb1 := by
  funext j
  obtain ⟨p, q, rfl⟩ : ∃ (p : Fin 4000) (q : Fin 128), j = ix2 p q := ⟨j 0, j 1, eq_ix2 j⟩
  rw [maximumf_apply, shapeCast_self, layerK_apply, Encoder.relu1_apply, broadcast_apply]
  show max _ (Ideal.ofBits .f32 0x00000000#32) = _
  rw [Ideal.ofBits_zero_f32]

/-- The residual sum is `Encoder.zsum`. -/
theorem zsumK_eq (agg h : Vec Ideal S4000x128 .f32) (m1 : Vec Ideal S128x128 .f32) (mb1 : Vec Ideal S128 .f32) (m2 : Vec Ideal S128x128 .f32)
    (mb2 : Vec Ideal S128 .f32) : zsumK agg h m1 mb1 m2 mb2 = Encoder.zsum agg h m1 mb1 m2 mb2 := by
  funext j
  obtain ⟨p, q, rfl⟩ : ∃ (p : Fin 4000) (q : Fin 128), j = ix2 p q := ⟨j 0, j 1, eq_ix2 j⟩
  unfold zsumK
  rw [addf_apply, shapeCast_self, clamp_eq, layerK_apply, Encoder.zsum_apply]

/-- The mean along each row as the body computes it, kept as a 4000 × 1 column: the row sums divided by the word of
    128. -/
def meanK (z : FVec Ideal S4000x128 .f32) : FVec Ideal S4000x1 .f32 :=
  divf (shapeCast S4000x1 (multiReduction .add [1] S4000 z 0x00000000#32 reduces_S4000x128_S4000 (.inl rfl) rfl) shapeCasts_S4000_S4000x1)
    (broadcast S4000x1 (Scalar.ofBits .f32 0x43000000#32))

/-- The column of row means at row `p` is `Encoder.rowMean`. -/
theorem meanK_apply (z : FVec Ideal S4000x128 .f32) (p : Fin 4000) (u : Fin 1) : meanK z (ix2 p u) = Encoder.rowMean z p := by
  unfold meanK Encoder.rowMean
  rw [divf_apply, column_apply, laneSum_apply, broadcast_apply]
  rfl

/-- The deviations from the row mean as the body computes them: the column of means repeated across the 128 columns
    and subtracted. -/
def devK (z : FVec Ideal S4000x128 .f32) : FVec Ideal S4000x128 .f32 :=
  subf z (broadcastTo S4000x128 (meanK z) broadcasts_S4000x1_S4000x128)

theorem devK_eq (z : FVec Ideal S4000x128 .f32) : devK z = Encoder.dev z := by
  funext j
  obtain ⟨p, q, rfl⟩ : ∃ (p : Fin 4000) (q : Fin 128), j = ix2 p q := ⟨j 0, j 1, eq_ix2 j⟩
  unfold devK
  rw [subf_apply, columnRepeat_apply, meanK_apply, Encoder.dev_apply]

/-- The normalised block as the body computes it: the deviations times the reciprocal square root of the mean squared
    deviation plus the small constant, that column repeated across the 128 columns. -/
def normK (z : FVec Ideal S4000x128 .f32) : FVec Ideal S4000x128 .f32 :=
  mulf (devK z)
    (broadcastTo S4000x128 (rsqrt (addf (meanK (mulf (devK z) (devK z))) (broadcast S4000x1 (Scalar.ofBits .f32 0x3727C5AC#32))))
      broadcasts_S4000x1_S4000x128)

/-- The mean of the squared deviations is `Encoder.rowVar`. -/
theorem varK_apply (z : FVec Ideal S4000x128 .f32) (p : Fin 4000) (u : Fin 1) :
    meanK (mulf (devK z) (devK z)) (ix2 p u) = Encoder.rowVar z p := by
  rw [meanK_apply, devK_eq]
  rfl

theorem normK_apply (z : FVec Ideal S4000x128 .f32) (p : Fin 4000) (q : Fin 128) :
    normK z (ix2 p q) = Encoder.dev z (ix2 p q) * Ideal.rsqrt (Encoder.rowVar z p + Encoder.ceps) := by
  unfold normK
  rw [mulf_apply, columnRepeat_apply]
  show devK z (ix2 p q) * Ideal.rsqrt (addf (meanK (mulf (devK z) (devK z))) (broadcast S4000x1 (Scalar.ofBits .f32 0x3727C5AC#32)) (ix2 p (0 : Fin 1))) = _
  rw [addf_apply, varK_apply, broadcast_apply, devK_eq]
  rfl

/-- The body's two payload terms are these stages. -/
theorem pay2_eq (agg h : Vec Ideal S4000x128 .f32) (m1 : Vec Ideal S128x128 .f32) (mb1 : Vec Ideal S128 .f32) (m2 : Vec Ideal S128x128 .f32)
    (mb2 : Vec Ideal S128 .f32) : k1_pay2 (F := Ideal) agg m1 mb1 m2 mb2 h = normK (zsumK agg h m1 mb1 m2 mb2) := by
  unfold k1_pay2 normK devK meanK zsumK layerK
  rfl

/-- THE BLOCK: what the body leaves in its output buffer is `Encoder.emb` of the blocks it loaded. -/
theorem block_eq (agg h : Vec Ideal S4000x128 .f32) (m1 : Vec Ideal S128x128 .f32) (mb1 : Vec Ideal S128 .f32) (m2 : Vec Ideal S128x128 .f32)
    (mb2 : Vec Ideal S128 .f32) (g b : Vec Ideal S128 .f32) :
    Msg.emb (F := Ideal) agg h m1 mb1 m2 mb2 g b = Encoder.emb (M := 4000) agg h m1 mb1 m2 mb2 g b := by
  unfold Msg.emb
  rw [View.canon_unit_zero zero2]
  simp only [View.ld_unit_zero (S := S4000x128) zero2, View.ld_unit_zero (S := S128x128) zero2, View.ld_unit_zero (S := S128) zero1]
  rw [pay2_eq, zsumK_eq]
  funext j
  obtain ⟨p, q, rfl⟩ : ∃ (p : Fin 4000) (q : Fin 128), j = ix2 p q := ⟨j 0, j 1, eq_ix2 j⟩
  unfold k1_pay1 Encoder.emb
  rw [addf_apply, mulf_apply, rowRepeat_apply, rowRepeat_apply, normK_apply, Encoder.norm_apply]

/-! ## From blocks to the array -/

/-- The printed index maps over the 25 grid points: the two row-indexed inputs and the output are at block row `t`,
    block column 0; the matrices and rows are at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 1) = 0
    ∧ win1_8.index t (0 : Fin 2) = t.val ∧ win1_8.index t (1 : Fin 2) = 0 :=
  (by decide +kernel : ∀ t : Fin grid1.N, _)

variable (V : (c : Dev nD) → (b : Ref sig .tc) → Buf (Elt Ideal) ((c : Thread nD τ).loc b))

/-! The matrices and rows: at every point the block is the whole array (block index 0, block size the array's). -/

theorem whole_m1 (c : Dev nD) (t : Fin cfg1.N) :
    (Msg.blk V c 2 t : Vec Ideal S128x128 .f32) = (V c main_arg10 : Vec Ideal S128x128 .f32) := by
  obtain ⟨-, -, -, -, e0, e1, -⟩ := idx_facts t
  funext y
  show (V c main_arg10 : Vec Ideal S128x128 .f32) (((cfg1.win 2).blk t).view.emb y) = (V c main_arg10 : Vec Ideal S128x128 .f32) y
  refine congrArg (V c main_arg10 : Vec Ideal S128x128 .f32) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem whole_mb1 (c : Dev nD) (t : Fin cfg1.N) :
    (Msg.blk V c 3 t : Vec Ideal S128 .f32) = (V c main_arg11 : Vec Ideal S128 .f32) := by
  obtain ⟨-, -, -, -, -, -, e0, -⟩ := idx_facts t
  funext y
  show (V c main_arg11 : Vec Ideal S128 .f32) (((cfg1.win 3).blk t).view.emb y) = (V c main_arg11 : Vec Ideal S128 .f32) y
  refine congrArg (V c main_arg11 : Vec Ideal S128 .f32) (funext fun a => Fin.ext ?_)
  match a with
  | ⟨0, _⟩ => show win1_3.index t (0 : Fin 1) * 128 + 1 * (y 0).val = (y 0).val; rw [e0]; omega

theorem whole_m2 (c : Dev nD) (t : Fin cfg1.N) :
    (Msg.blk V c 4 t : Vec Ideal S128x128 .f32) = (V c main_arg12 : Vec Ideal S128x128 .f32) := by
  obtain ⟨-, -, -, -, -, -, -, e0, e1, -⟩ := idx_facts t
  funext y
  show (V c main_arg12 : Vec Ideal S128x128 .f32) (((cfg1.win 4).blk t).view.emb y) = (V c main_arg12 : Vec Ideal S128x128 .f32) y
  refine congrArg (V c main_arg12 : Vec Ideal S128x128 .f32) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem whole_mb2 (c : Dev nD) (t : Fin cfg1.N) :
    (Msg.blk V c 5 t : Vec Ideal S128 .f32) = (V c main_arg13 : Vec Ideal S128 .f32) := by
  obtain ⟨-, -, -, -, -, -, -, -, -, e0, -⟩ := idx_facts t
  funext y
  show (V c main_arg13 : Vec Ideal S128 .f32) (((cfg1.win 5).blk t).view.emb y) = (V c main_arg13 : Vec Ideal S128 .f32) y
  refine congrArg (V c main_arg13 : Vec Ideal S128 .f32) (funext fun a => Fin.ext ?_)
  match a with
  | ⟨0, _⟩ => show win1_5.index t (0 : Fin 1) * 128 + 1 * (y 0).val = (y 0).val; rw [e0]; omega

theorem whole_gamma (c : Dev nD) (t : Fin cfg1.N) :
    (Msg.blk V c 6 t : Vec Ideal S128 .f32) = (V c main_arg14 : Vec Ideal S128 .f32) := by
  obtain ⟨-, -, -, -, -, -, -, -, -, -, e0, -⟩ := idx_facts t
  funext y
  show (V c main_arg14 : Vec Ideal S128 .f32) (((cfg1.win 6).blk t).view.emb y) = (V c main_arg14 : Vec Ideal S128 .f32) y
  refine congrArg (V c main_arg14 : Vec Ideal S128 .f32) (funext fun a => Fin.ext ?_)
  match a with
  | ⟨0, _⟩ => show win1_6.index t (0 : Fin 1) * 128 + 1 * (y 0).val = (y 0).val; rw [e0]; omega

theorem whole_beta (c : Dev nD) (t : Fin cfg1.N) :
    (Msg.blk V c 7 t : Vec Ideal S128 .f32) = (V c main_arg15 : Vec Ideal S128 .f32) := by
  obtain ⟨-, -, -, -, -, -, -, -, -, -, -, e0, -⟩ := idx_facts t
  funext y
  show (V c main_arg15 : Vec Ideal S128 .f32) (((cfg1.win 7).blk t).view.emb y) = (V c main_arg15 : Vec Ideal S128 .f32) y
  refine congrArg (V c main_arg15 : Vec Ideal S128 .f32) (funext fun a => Fin.ext ?_)
  match a with
  | ⟨0, _⟩ => show win1_7.index t (0 : Fin 1) * 128 + 1 * (y 0).val = (y 0).val; rw [e0]; omega

/-! The two row-indexed inputs: row `p` of block `t` is row `4000 · t + p` of the array. -/

theorem rows_agg (c : Dev nD) (t : Fin cfg1.N) (p : Fin 4000) (k : Fin 128) (r : Fin 100000) (hr : r.val = 4000 * t.val + p.val) :
    (Msg.blk V c 0 t : Vec Ideal S4000x128 .f32) (ix2 p k) = (V c main_v53 : Vec Ideal S100000x128 .f32) (ix2 r k) := by
  obtain ⟨e0, e1, -⟩ := idx_facts t
  show (V c main_v53 : Vec Ideal S100000x128 .f32) (((cfg1.win 0).blk t).view.emb (ix2 p k)) = _
  refine congrArg (V c main_v53 : Vec Ideal S100000x128 .f32) (funext fun a => Fin.ext ?_)
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

theorem rows_h (c : Dev nD) (t : Fin cfg1.N) (p : Fin 4000) (k : Fin 128) (r : Fin 100000) (hr : r.val = 4000 * t.val + p.val) :
    (Msg.blk V c 1 t : Vec Ideal S4000x128 .f32) (ix2 p k) = (V c main_v9_0 : Vec Ideal S100000x128 .f32) (ix2 r k) := by
  obtain ⟨-, -, e0, e1, -⟩ := idx_facts t
  show (V c main_v9_0 : Vec Ideal S100000x128 .f32) (((cfg1.win 1).blk t).view.emb (ix2 p k)) = _
  refine congrArg (V c main_v9_0 : Vec Ideal S100000x128 .f32) (funext fun a => Fin.ext ?_)
  match a with
  | ⟨0, _⟩ => show win1_1.index t (0 : Fin 2) * 4000 + 1 * p.val = r.val; rw [e0, hr]; omega
  | ⟨1, _⟩ => show win1_1.index t (1 : Fin 2) * 128 + 1 * k.val = k.val; rw [e1]; omega

/-- Where entry `(p, q)` of the output's block `t` sits in the output array: row `4000 · t + p`, column `q`. -/
theorem out_emb (t : Fin cfg1.N) (p : Fin 4000) (q : Fin 128) (r : Fin 100000) (hr : r.val = 4000 * t.val + p.val) :
    (((cfg1.win 8).blk t).view.emb (ix2 p q) : S100000x128.Idx) = ix2 r q := by
  obtain ⟨-, -, -, -, -, -, -, -, -, -, -, -, e0, e1⟩ := idx_facts t
  refine funext fun a => Fin.ext ?_
  match a with
  | ⟨0, _⟩ => show win1_8.index t (0 : Fin 2) * 4000 + 1 * p.val = r.val; rw [e0, hr]; omega
  | ⟨1, _⟩ => show win1_8.index t (1 : Fin 2) * 128 + 1 * q.val = q.val; rw [e1]; omega

/-- WHAT POINT `t` WRITES BACK is block `t` of `Encoder.emb` of the arrays as the stage finds them: the block's value is
    `Encoder.emb` of the input blocks, the matrices and rows are whole, and `Encoder.emb` on a row reads that row of the
    two row-indexed arguments only. -/
theorem flushed_eq (c : Dev nD) (t : Fin cfg1.N) :
    (Msg.dat (F := Ideal) V c).flushed 8 t = ((cfg1.win 8).blk t).view.read (Elt Ideal)
      (Encoder.emb (V c main_v53) (V c main_v9_0) (V c main_arg10) (V c main_arg11) (V c main_arg12) (V c main_arg13) (V c main_arg14) (V c main_arg15)) := by
  show (cfg1.win 8).cut (grid1.coords t) ((Msg.dat V c).after 8 t) = _
  rw [Msg.after_8]
  have e := block_eq (Msg.blk V c 0 t) (Msg.blk V c 1 t) (Msg.blk V c 2 t) (Msg.blk V c 3 t) (Msg.blk V c 4 t) (Msg.blk V c 5 t) (Msg.blk V c 6 t) (Msg.blk V c 7 t)
  rw [e, whole_m1 V c t, whole_mb1 V c t, whole_m2 V c t, whole_mb2 V c t, whole_gamma V c t, whole_beta V c t]
  funext j
  obtain ⟨p, q, rfl⟩ : ∃ (p : Fin 4000) (q : Fin 128), j = ix2 p q := ⟨j 0, j 1, eq_ix2 j⟩
  have hN : cfg1.N = 25 := N_1
  have hr : 4000 * t.val + p.val < 100000 := by have := t.isLt; have := p.isLt; omega
  show Encoder.emb (M := 4000) (Msg.blk V c 0 t) (Msg.blk V c 1 t) (V c main_arg10) (V c main_arg11) (V c main_arg12) (V c main_arg13) (V c main_arg14) (V c main_arg15) (ix2 p q)
    = Encoder.emb (M := 100000) (V c main_v53) (V c main_v9_0) (V c main_arg10) (V c main_arg11) (V c main_arg12) (V c main_arg13) (V c main_arg14) (V c main_arg15)
        (((cfg1.win 8).blk t).view.emb (ix2 p q))
  rw [out_emb t p q ⟨4000 * t.val + p.val, hr⟩ rfl]
  exact Encoder.emb_rows _ _ _ _ _ _ _ _ _ _ p ⟨4000 * t.val + p.val, hr⟩
    (fun k => rows_agg V c t p k _ rfl) (fun k => rows_h V c t p k _ rfl) q

/-- An index of the output array is in point `t`'s block iff each coordinate is in the block's range on its axis. -/
theorem mem_blk (t : Fin cfg1.N) (i : S100000x128.Idx) :
    i ∈ ((cfg1.win 8).blk t).view.set ↔ ∀ a : Fin 2, win1_8.index t a * S4000x128.size a ≤ (i a).val
      ∧ (i a).val < win1_8.index t a * S4000x128.size a + S4000x128.size a := by
  show i ∈ ((View.whole main_v54).slice (win1_8.rect t)).set ↔ _
  rw [View.set_slice_whole, Rect.mem_set_unit]
  exact Iff.rfl

/-- The 25 blocks of 4000 rows tile the 100000 rows: row `r` is in the block of point `r / 4000`. -/
theorem cover (i : S100000x128.Idx) :
    ∃ t : Fin cfg1.N, (cfg1.win 8).flush t = true ∧ i ∈ ((cfg1.win 8).blk t).view.set := by
  have hN : cfg1.N = 25 := N_1
  have hi0 : (i 0).val < 100000 := (i 0).isLt
  have hi1 : (i 1).val < 128 := (i 1).isLt
  have ht : (i 0).val / 4000 < cfg1.N := by rw [hN]; omega
  obtain ⟨-, -, -, -, -, -, -, -, -, -, -, -, e0, e1⟩ := idx_facts ⟨(i 0).val / 4000, ht⟩
  have e0' : win1_8.index ⟨(i 0).val / 4000, ht⟩ (0 : Fin 2) = (i 0).val / 4000 := e0
  refine ⟨⟨(i 0).val / 4000, ht⟩, flush1_8 _, ?_⟩
  rw [mem_blk]
  intro a
  match a with
  | ⟨0, _⟩ =>
    show win1_8.index ⟨(i 0).val / 4000, ht⟩ (0 : Fin 2) * 4000 ≤ (i 0).val
      ∧ (i 0).val < win1_8.index ⟨(i 0).val / 4000, ht⟩ (0 : Fin 2) * 4000 + 4000
    rw [e0']; omega
  | ⟨1, _⟩ =>
    show win1_8.index ⟨(i 0).val / 4000, ht⟩ (1 : Fin 2) * 128 ≤ (i 1).val
      ∧ (i 1).val < win1_8.index ⟨(i 0).val / 4000, ht⟩ (1 : Fin 2) * 128 + 128
    rw [e1]; omega

/-- THE OUTPUT ARRAY after the stage is `Encoder.emb` of the arrays as the stage finds them. -/
theorem final (c : Dev nD) :
    (Msg.dat (F := Ideal) V c).arrAt 8 cfg1.N
      = Encoder.emb (V c main_v53) (V c main_v9_0) (V c main_arg10) (V c main_arg11) (V c main_arg12) (V c main_arg13) (V c main_arg14) (V c main_arg15) :=
  (Msg.dat (F := Ideal) V c).arrAt_eq_of_cover 8
    (Encoder.emb (V c main_v53) (V c main_v9_0) (V c main_arg10) (V c main_arg11) (V c main_arg12) (V c main_arg13) (V c main_arg14) (V c main_arg15))
    (fun t _ => flushed_eq V c t) cover

end Cert.KernelIdeal.MsgValue

end
-- ==== Proof.Ideal.Features.lean ====
/-
  The kernel program's 100000 × 28 feature matrix is the reference's, at the extended reals, when every role id is a
  row number of the 8-row role table.

  Both programs join, along the columns, the block areas, the constraint columns, the block DEGREES, the placement
  columns and the ROLE EMBEDDING rows. Two of the five pieces are computed differently.

  * Degrees. The kernel program adds, into zeros, the joined weights `[b2b_w, b2b_w, p2b_w]` at the joined indices
    `[b2b_src, b2b_dst, p2b_block]` in ONE scatter-add; the reference does three scatter-adds into zeros and adds the
    three results. A scatter-add's element `i` is the operand there plus the sum of the updates whose index names
    `i`; the sum over the joined positions splits into the three pieces' sums, and addition in the extended reals
    commutes and associates. Nothing is asked of the indices: one that names no block is dropped on both sides.
  * Role embedding. The kernel program wraps a negative id by `+ 8`, gathers the table's row, and keeps it where the
    wrapped id lies in `[0, 7]`, writing the quiet-NaN word elsewhere; the reference wraps and gathers. For
    `0 ≤ id < 8` the wrap is the identity and the range test holds at every block, so the guard keeps every row.
-/
import proofs.«407380_j30331059044746_3_alg».proof.Proof.Gen.KernelIdeal.Regions
import proofs.«407380_j30331059044746_3_alg».proof.Proof.Gen.ReferenceIdeal.Read
import Idealize.ShloMosaic.Lib.StableHlo.Run
import Idealize.ShloMosaic.Lib.ValueIdx
import Idealize.ShloMosaic.Lib.Pipeline.Value
import Idealize.ShloMosaic.PureOps.Ideal.Laws
import Idealize.ShloMosaic.PureOps.Reduce

noncomputable section

namespace Cert.KernelIdeal.Features

open Cert.KernelIdeal Cert.KernelIdeal.Gen Idealize.ShloMosaic Idealize.ShloMosaic.TcCoe Idealize.ShloMosaic.ValueIdx

/-! ## A scatter-add of a vector of updates at a one-column array of row numbers

The operand is a vector of `n` elements, the updates a vector of `k`, the indices a `k × 1` array: update `p` is
added to the element whose number is the signed value of index `(p, 0)`, and dropped when that value is no element's
number. -/

section RowScatter
variable {n k w : ℕ}

/-- The dimension numbers of such a scatter. -/
def IsRowScatter (d : ScatterDims ⟨1, ![n]⟩ ⟨2, ![k, 1]⟩ ⟨1, ![k]⟩) : Prop :=
  d.updateWindowDims = [] ∧ d.insertedWindowDims = [0] ∧ d.scatterDimsToOperandDims = [0] ∧ d.indexVectorDim = 1

/-- Update `j` starts at the signed value of the index in row `j`. -/
theorem rowScatter_start (d : ScatterDims ⟨1, ![n]⟩ ⟨2, ![k, 1]⟩ ⟨1, ![k]⟩)
    (h1 : d.updateWindowDims = []) (h3 : d.scatterDimsToOperandDims = [0]) (h4 : d.indexVectorDim = 1)
    (j : (⟨1, ![k]⟩ : Shape).Idx) (idx : IVec ⟨2, ![k, 1]⟩ w) (a : Fin 1) :
    d.start j idx a = (idx (ix2 (j 0) 0)).toInt := by
  obtain ⟨uw, iw, sd, iv, wf⟩ := d
  dsimp only at h1 h3 h4
  subst h1 h3 h4
  unfold ScatterDims.start
  obtain rfl : a = 0 := Subsingleton.elim _ _
  rw [dif_pos (List.mem_singleton.2 rfl)]
  congr 2
  funext b
  unfold ScatterDims.siIdx
  match b with
  | ⟨0, _⟩ =>
    rw [dif_neg (by show ¬ (0 : ℕ) = 1; omega)]
    unfold ScatterDims.siCoord
    apply Fin.ext
    show (j _).val = (j 0).val
    exact congrArg (fun t => (j t).val) (Subsingleton.elim (α := Fin 1) _ _)
  | ⟨1, _⟩ =>
    rw [dif_pos rfl]
    apply Fin.ext
    rfl

/-- The update is one element: no window coordinate is added to the start. -/
theorem rowScatter_window (d : ScatterDims ⟨1, ![n]⟩ ⟨2, ![k, 1]⟩ ⟨1, ![k]⟩)
    (h2 : d.insertedWindowDims = [0]) (j : (⟨1, ![k]⟩ : Shape).Idx) (a : Fin 1) :
    d.window j a = 0 := by
  obtain ⟨uw, iw, sd, iv, wf⟩ := d
  dsimp only at h2
  subst h2
  unfold ScatterDims.window
  obtain rfl : a = 0 := Subsingleton.elim _ _
  rw [dif_neg]
  show (0 : Fin 1) ∉ (List.finRange 1).filter (· ∉ [0])
  decide

/-- Update `j` lands on element `i` exactly when the signed value of the index in row `j` is `i`'s number. -/
theorem rowScatter_lands (d : ScatterDims ⟨1, ![n]⟩ ⟨2, ![k, 1]⟩ ⟨1, ![k]⟩) (hd : IsRowScatter d)
    (j : (⟨1, ![k]⟩ : Shape).Idx) (idx : IVec ⟨2, ![k, 1]⟩ w) (i : (⟨1, ![n]⟩ : Shape).Idx) :
    d.resultIdx? j idx = some i ↔ (idx (ix2 (j 0) 0)).toInt = ((i 0).val : ℤ) := by
  obtain ⟨h1, h2, h3, h4⟩ := hd
  unfold ScatterDims.resultIdx?
  simp only [rowScatter_start d h1 h3 h4, rowScatter_window d h2, Nat.cast_zero, add_zero]
  constructor
  · intro h
    by_cases hc : ∀ a : Fin 1, 0 ≤ (idx (ix2 (j 0) 0)).toInt ∧ (idx (ix2 (j 0) 0)).toInt < ((![n] a : ℕ) : ℤ)
    · rw [dif_pos hc] at h
      have h0 : (idx (ix2 (j 0) 0)).toInt.toNat = (i 0).val := congrArg Fin.val (congrFun (Option.some.inj h) 0)
      have := (hc 0).1
      omega
    · rw [dif_neg hc] at h
      exact absurd h (by simp)
  · intro h
    have hlt : ((i 0).val : ℤ) < ((![n] 0 : ℕ) : ℤ) := by exact_mod_cast (i 0).isLt
    have hc : ∀ a : Fin 1, 0 ≤ (idx (ix2 (j 0) 0)).toInt ∧ (idx (ix2 (j 0) 0)).toInt < ((![n] a : ℕ) : ℤ) := fun a => by
      obtain rfl : a = 0 := Subsingleton.elim _ _
      rw [h]
      exact ⟨Int.natCast_nonneg _, hlt⟩
    rw [dif_pos hc]
    congr 1
    funext a
    obtain rfl : a = 0 := Subsingleton.elim _ _
    apply Fin.ext
    show (idx (ix2 (j 0) 0)).toInt.toNat = (i 0).val
    omega

/-- A vector's indices are its positions. -/
def vecPos : (⟨1, ![k]⟩ : Shape).Idx ≃ Fin k where
  toFun j := j 0
  invFun := ix1
  left_inv j := (eq_ix1 j).symm
  right_inv _ := rfl

/-- A vector as a one-column array reads, in row `p`, the vector at `p`. -/
theorem column_apply {α : Type} (h : (⟨1, ![k]⟩ : Shape).BroadcastsInDim ⟨2, ![k, 1]⟩ ![0])
    (v : (⟨1, ![k]⟩ : Shape).Idx → α) (p : Fin k) :
    broadcastInDim ⟨2, ![k, 1]⟩ ![0] h v (ix2 p 0) = v (ix1 p) :=
  broadcastInDim_apply _ h v _ (ix1 p) (fun a => by
    obtain rfl : a = 0 := Subsingleton.elim _ _
    show p.val = if k = 1 then 0 else p.val
    have := p.isLt
    split <;> omega)

/-- The scatter-add at element `i`: the operand there plus the updates whose index names `i`, summed over the
    update positions. -/
theorem rowScatterAdd_apply (d : ScatterDims ⟨1, ![n]⟩ ⟨2, ![k, 1]⟩ ⟨1, ![k]⟩) (hd : IsRowScatter d)
    (x : (⟨1, ![n]⟩ : Shape).Idx → EReal) (idx : IVec ⟨2, ![k, 1]⟩ w) (upd : (⟨1, ![k]⟩ : Shape).Idx → EReal)
    (i : (⟨1, ![n]⟩ : Shape).Idx) :
    Ideal.hostScatterAdd d x idx upd i
      = x i + ∑ p : Fin k, if (idx (ix2 p 0)).toInt = ((i 0).val : ℤ) then upd (ix1 p) else 0 := by
  unfold Ideal.hostScatterAdd
  congr 1
  rw [Finset.sum_filter]
  exact Fintype.sum_equiv vecPos _ _ fun j =>
    if_congr (rowScatter_lands d hd j idx i) (congrArg upd (eq_ix1 j)) rfl

end RowScatter

/-! ## Three vectors laid end to end -/

section ThreePieces
variable {a b c N : ℕ}

/-- A sum over the positions of three vectors laid end to end is the three vectors' sums. -/
theorem sum_three_pieces {M : Type} [AddCommMonoid M] (hN : N = a + (b + c)) (g : Fin N → M) :
    ∑ p, g p = ∑ p : Fin a, g ⟨p.val, by omega⟩
      + (∑ p : Fin b, g ⟨a + p.val, by omega⟩ + ∑ p : Fin c, g ⟨a + b + p.val, by omega⟩) := by
  subst hN
  rw [Fin.sum_univ_add, Fin.sum_univ_add]
  refine congrArg₂ _ rfl (congrArg₂ _ rfl (Finset.sum_congr rfl fun p _ => congrArg g (Fin.ext ?_)))
  show a + (b + p.val) = a + b + p.val
  omega

variable {α : Type} (x : (⟨1, ![a]⟩ : Shape).Idx → α) (y : (⟨1, ![b]⟩ : Shape).Idx → α) (z : (⟨1, ![c]⟩ : Shape).Idx → α)
  (h : Shape.Concatenates [(⟨1, ![a]⟩ : Shape), ⟨1, ![b]⟩, ⟨1, ![c]⟩] ⟨1, ![N]⟩ 0)

/-- The concatenation at a position of the first vector. -/
theorem concat3_fst (p : Fin a) (hp : p.val < N) :
    concatenate ⟨1, ![N]⟩ 0 [⟨⟨1, ![a]⟩, x⟩, ⟨⟨1, ![b]⟩, y⟩, ⟨⟨1, ![c]⟩, z⟩] h (ix1 ⟨p.val, hp⟩) = x (ix1 p) :=
  concatenate_apply_piece 0 [⟨⟨1, ![a]⟩, x⟩, ⟨⟨1, ![b]⟩, y⟩, ⟨⟨1, ![c]⟩, z⟩] h _ 0 (by simp) _ x rfl rfl 0 rfl (ix1 p)
    (fun b hb => absurd (Subsingleton.elim (α := Fin 1) _ _) hb) (Nat.zero_add _)

/-- The concatenation at a position of the second vector. -/
theorem concat3_snd (p : Fin b) (hp : a + p.val < N) :
    concatenate ⟨1, ![N]⟩ 0 [⟨⟨1, ![a]⟩, x⟩, ⟨⟨1, ![b]⟩, y⟩, ⟨⟨1, ![c]⟩, z⟩] h (ix1 ⟨a + p.val, hp⟩) = y (ix1 p) :=
  concatenate_apply_piece 0 [⟨⟨1, ![a]⟩, x⟩, ⟨⟨1, ![b]⟩, y⟩, ⟨⟨1, ![c]⟩, z⟩] h _ 1 (by simp) _ y rfl rfl a (by simp) (ix1 p)
    (fun b hb => absurd (Subsingleton.elim (α := Fin 1) _ _) hb) rfl

/-- The concatenation at a position of the third vector. -/
theorem concat3_thd (p : Fin c) (hp : a + b + p.val < N) :
    concatenate ⟨1, ![N]⟩ 0 [⟨⟨1, ![a]⟩, x⟩, ⟨⟨1, ![b]⟩, y⟩, ⟨⟨1, ![c]⟩, z⟩] h (ix1 ⟨a + b + p.val, hp⟩) = z (ix1 p) :=
  concatenate_apply_piece 0 [⟨⟨1, ![a]⟩, x⟩, ⟨⟨1, ![b]⟩, y⟩, ⟨⟨1, ![c]⟩, z⟩] h _ 2 (by simp) _ z rfl rfl (a + b) (by simp) (ix1 p)
    (fun b hb => absurd (Subsingleton.elim (α := Fin 1) _ _) hb) rfl

end ThreePieces

/-! ## One scatter-add of three vectors laid end to end, against the three vectors' own scatter-adds -/

section ThreeScatters
variable {a b c N n w : ℕ}

/-- Scattering the concatenation of three update vectors at the concatenation of their index vectors adds, to each
    element, what the three scatters add to it: the sum over the joined positions filtered by "lands on element `i`"
    splits into the three pieces' sums, and addition in the extended reals commutes and associates. -/
theorem rowScatterAdd_three (hN : N = a + (b + c))
    (dN : ScatterDims ⟨1, ![n]⟩ ⟨2, ![N, 1]⟩ ⟨1, ![N]⟩) (da : ScatterDims ⟨1, ![n]⟩ ⟨2, ![a, 1]⟩ ⟨1, ![a]⟩)
    (db : ScatterDims ⟨1, ![n]⟩ ⟨2, ![b, 1]⟩ ⟨1, ![b]⟩) (dc : ScatterDims ⟨1, ![n]⟩ ⟨2, ![c, 1]⟩ ⟨1, ![c]⟩)
    (hdN : IsRowScatter dN) (hda : IsRowScatter da) (hdb : IsRowScatter db) (hdc : IsRowScatter dc)
    (colN : (⟨1, ![N]⟩ : Shape).BroadcastsInDim ⟨2, ![N, 1]⟩ ![0]) (cola : (⟨1, ![a]⟩ : Shape).BroadcastsInDim ⟨2, ![a, 1]⟩ ![0])
    (colb : (⟨1, ![b]⟩ : Shape).BroadcastsInDim ⟨2, ![b, 1]⟩ ![0]) (colc : (⟨1, ![c]⟩ : Shape).BroadcastsInDim ⟨2, ![c, 1]⟩ ![0])
    (hcat : Shape.Concatenates [(⟨1, ![a]⟩ : Shape), ⟨1, ![b]⟩, ⟨1, ![c]⟩] ⟨1, ![N]⟩ 0)
    (ia : IVec ⟨1, ![a]⟩ w) (ib : IVec ⟨1, ![b]⟩ w) (ic : IVec ⟨1, ![c]⟩ w)
    (ua : (⟨1, ![a]⟩ : Shape).Idx → EReal) (ub : (⟨1, ![b]⟩ : Shape).Idx → EReal) (uc : (⟨1, ![c]⟩ : Shape).Idx → EReal)
    (xN xa xb xc : (⟨1, ![n]⟩ : Shape).Idx → EReal) (i : (⟨1, ![n]⟩ : Shape).Idx) (hx : xN i = xa i + xb i + xc i) :
    Ideal.hostScatterAdd dN xN
        (broadcastInDim ⟨2, ![N, 1]⟩ ![0] colN (concatenate ⟨1, ![N]⟩ 0 [⟨⟨1, ![a]⟩, ia⟩, ⟨⟨1, ![b]⟩, ib⟩, ⟨⟨1, ![c]⟩, ic⟩] hcat))
        (concatenate ⟨1, ![N]⟩ 0 [⟨⟨1, ![a]⟩, ua⟩, ⟨⟨1, ![b]⟩, ub⟩, ⟨⟨1, ![c]⟩, uc⟩] hcat) i
      = Ideal.hostScatterAdd da xa (broadcastInDim ⟨2, ![a, 1]⟩ ![0] cola ia) ua i
        + Ideal.hostScatterAdd db xb (broadcastInDim ⟨2, ![b, 1]⟩ ![0] colb ib) ub i
        + Ideal.hostScatterAdd dc xc (broadcastInDim ⟨2, ![c, 1]⟩ ![0] colc ic) uc i := by
  rw [rowScatterAdd_apply dN hdN, rowScatterAdd_apply da hda, rowScatterAdd_apply db hdb, rowScatterAdd_apply dc hdc]
  simp only [column_apply colN, column_apply cola, column_apply colb, column_apply colc]
  rw [sum_three_pieces hN]
  simp only [concat3_fst, concat3_snd, concat3_thd]
  rw [hx]
  abel

/-- The same as an equation of arrays at the ideal values, spelt with the host's scatter-add and the elementwise sum. -/
theorem scatterAdd_joined (hN : N = a + (b + c))
    (dN : ScatterDims ⟨1, ![n]⟩ ⟨2, ![N, 1]⟩ ⟨1, ![N]⟩) (da : ScatterDims ⟨1, ![n]⟩ ⟨2, ![a, 1]⟩ ⟨1, ![a]⟩)
    (db : ScatterDims ⟨1, ![n]⟩ ⟨2, ![b, 1]⟩ ⟨1, ![b]⟩) (dc : ScatterDims ⟨1, ![n]⟩ ⟨2, ![c, 1]⟩ ⟨1, ![c]⟩)
    (hdN : IsRowScatter dN) (hda : IsRowScatter da) (hdb : IsRowScatter db) (hdc : IsRowScatter dc)
    (colN : (⟨1, ![N]⟩ : Shape).BroadcastsInDim ⟨2, ![N, 1]⟩ ![0]) (cola : (⟨1, ![a]⟩ : Shape).BroadcastsInDim ⟨2, ![a, 1]⟩ ![0])
    (colb : (⟨1, ![b]⟩ : Shape).BroadcastsInDim ⟨2, ![b, 1]⟩ ![0]) (colc : (⟨1, ![c]⟩ : Shape).BroadcastsInDim ⟨2, ![c, 1]⟩ ![0])
    (hcat : Shape.Concatenates [(⟨1, ![a]⟩ : Shape), ⟨1, ![b]⟩, ⟨1, ![c]⟩] ⟨1, ![N]⟩ 0)
    (ia : IVec ⟨1, ![a]⟩ w) (ib : IVec ⟨1, ![b]⟩ w) (ic : IVec ⟨1, ![c]⟩ w)
    (ua : FVec Ideal ⟨1, ![a]⟩ .f32) (ub : FVec Ideal ⟨1, ![b]⟩ .f32) (uc : FVec Ideal ⟨1, ![c]⟩ .f32)
    (xN xa xb xc : FVec Ideal ⟨1, ![n]⟩ .f32) (hx : ∀ i, xN i = xa i + xb i + xc i) :
    Host.scatterAdd (F := Ideal) dN xN
        (broadcastInDim ⟨2, ![N, 1]⟩ ![0] colN (concatenate ⟨1, ![N]⟩ 0 [⟨⟨1, ![a]⟩, ia⟩, ⟨⟨1, ![b]⟩, ib⟩, ⟨⟨1, ![c]⟩, ic⟩] hcat))
        (concatenate ⟨1, ![N]⟩ 0 [⟨⟨1, ![a]⟩, ua⟩, ⟨⟨1, ![b]⟩, ub⟩, ⟨⟨1, ![c]⟩, uc⟩] hcat)
      = addf (addf (Host.scatterAdd (F := Ideal) da xa (broadcastInDim ⟨2, ![a, 1]⟩ ![0] cola ia) ua)
            (Host.scatterAdd (F := Ideal) db xb (broadcastInDim ⟨2, ![b, 1]⟩ ![0] colb ib) ub))
          (Host.scatterAdd (F := Ideal) dc xc (broadcastInDim ⟨2, ![c, 1]⟩ ![0] colc ic) uc) := by
  funext i
  exact rowScatterAdd_three hN dN da db dc hdN hda hdb hdc colN cola colb colc hcat ia ib ic ua ub uc xN xa xb xc i (hx i)

end ThreeScatters

/-! ## Words: a row number in `[0, 8)` needs no wrap and passes the range test -/

section Words

/-- A row number that is not negative is left as it is by "add 8 where negative". -/
theorem wrap_of_nonneg (x : BitVec 32) (h0 : 0 ≤ x.toInt) :
    Scalar.select (IntOp.cmpi .slt x 0#32) (IntOp.addi x 8#32) x = x := by
  have hc : IntOp.cmpi .slt x 0#32 = 0#1 := by
    show BitVec.ofBool (x.slt 0#32) = 0#1
    have : x.slt 0#32 = false := by
      rw [BitVec.slt, decide_eq_false_iff_not]
      show ¬ x.toInt < 0
      omega
    rw [this]; rfl
  rw [hc, select_zero]

/-- A row number in `[0, 8)` passes both comparisons of the range test `0 ≤ x ∧ x ≤ 7`. -/
theorem inRange_of_bounds (x : BitVec 32) (h0 : 0 ≤ x.toInt) (h8 : x.toInt < 8) :
    IntOp.andi (IntOp.cmpi .sge x 0#32) (IntOp.cmpi .sle x 7#32) = 1#1 := by
  have h1 : IntOp.cmpi .sge x 0#32 = 1#1 := by
    show BitVec.ofBool ((0#32).sle x) = 1#1
    have : (0#32).sle x = true := by
      rw [BitVec.sle, decide_eq_true_iff]
      show (0 : ℤ) ≤ x.toInt
      exact h0
    rw [this]; rfl
  have h2 : IntOp.cmpi .sle x 7#32 = 1#1 := by
    show BitVec.ofBool (x.sle 7#32) = 1#1
    have : x.sle 7#32 = true := by
      rw [BitVec.sle, decide_eq_true_iff]
      show x.toInt ≤ 7
      omega
    rw [this]; rfl
  rw [h1, h2]; rfl

end Words

/-! ## A conjunction over an array of ones is one -/

section AllOnes
variable {s t u : Shape} {axes : List (Fin s.rank)}

theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a List.mem_cons_self]
    exact ih fun n hn => hf n (List.mem_cons_of_mem _ hn)

/-- The reduction by `and`, from 1, of an array that is 1 everywhere is 1 everywhere. -/
theorem reduce_andi_ones (x : s.Idx → BitVec 1) (init : u.Idx → BitVec 1) (h : s.ReducesTo axes t) (hu : 0 < u.numel)
    (hx : ∀ i, x i = 1#1) (hinit : ∀ k, init k = 1#1) (j : t.Idx) :
    Host.reduce IntOp.andi x init h hu j = 1#1 := by
  rw [Host.reduce_eq_foldl, hinit]
  exact foldl_andi_ones x _ fun i _ => hx i

end AllOnes

section Stretches
variable {F : FTy → Type} [FloatOps F]

/-- A role id below zero counted from the table's end: `id + 8` where `id < 0`, else `id`. -/
def wrapIds (ids : IVec S100000 32) : IVec S100000 32 :=
  select (cmpi .slt ids (broadcastInDim S100000 ![] bcast_S_S100000 (constantI S_ 32 0#32)))
    (addi ids (broadcastInDim S100000 ![] bcast_S_S100000 (constantI S_ 32 8#32))) ids

/-- The wrapped ids as the one-column array of row numbers the table is read at. -/
def startRows (ids : IVec S100000 32) : IVec S100000x1 32 :=
  broadcastInDim S100000x1 ![0] bcast_S100000_S100000x1_0 (wrapIds ids)

/-- Per block, whether its row number lies in `[0, 7]`. -/
def inTable (ids : IVec S100000 32) : IVec S100000 1 :=
  Host.reduce IntOp.andi
    (andi (cmpi .sge (startRows ids) (broadcastInDim S100000x1 ![] bcast_S_S100000x1 (constantI S_ 32 0#32)))
      (cmpi .sle (startRows ids) (broadcastInDim S100000x1 ![0, 1] bcast_S1x1_S100000x1_0_1
        (broadcastInDim S1x1 ![1] bcast_S1_S1x1_1 (constantI S1 32 7#32)))))
    (constantI S_ 1 1#1) reducesTo_S100000x1_S100000_d1 h_S_

/-- The table's rows at the row numbers, kept where the row number is in the table and the quiet-NaN word elsewhere. -/
def guardedRows (table : FVec F S8x16 .f32) (ids : IVec S100000 32) : FVec F S100000x16 .f32 :=
  select (broadcastInDim S100000x16 ![0] bcast_S100000_S100000x16_0 (inTable ids))
    (Host.gather gather_S8x16_S100000x1_S100000x16_1_0_n_n_0_1_116 table (startRows ids))
    (broadcastInDim S100000x16 ![] bcast_S_S100000x16 (constant (F := F) S_ .f32 0x7FC00000#32))

/-! ### What each stretch of host operations leaves, from any contents `W` before it -/

/-- The first stretch leaves, in the degrees buffer, the one scatter-add of the joined weights at the joined indices. -/
theorem after_degrees (W : Valuation τ sig (Elt F)) :
    StableHlo.after hostOps0 W (Proc.devRef .tc main_v4) =
      Host.scatterAdd (F := F) scatter_S100000_S1400000x1_S1400000_n_0_0_1
        (broadcastInDim S100000 ![] bcast_S_S100000 (constant (F := F) S_ .f32 0x00000000#32))
        (broadcastInDim S1400000x1 ![0] bcast_S1400000_S1400000x1_0
          (concatenate S1400000 0 [⟨S600000, W main_arg17⟩, ⟨S600000, W main_arg18⟩, ⟨S200000, W main_arg19⟩]
            concatenates_S600000_S600000_S200000_S1400000_d0))
        (concatenate S1400000 0 [⟨S600000, W main_arg3⟩, ⟨S600000, W main_arg3⟩, ⟨S200000, W main_arg4⟩]
          concatenates_S600000_S600000_S200000_S1400000_d0) := by
  after_results
  rfl

set_option maxHeartbeats 2000000 in
set_option maxRecDepth 4000 in
/-- The second stretch leaves, in the role-embedding buffer, the guarded rows of the table at the role ids. -/
theorem after_roles (W : Valuation τ sig (Elt F)) :
    StableHlo.after hostOps0_1 W (Proc.devRef .tc main_v5) = guardedRows (F := F) (W main_arg5) (W main_arg16) := by
  after_results_simp
  simp only [StableHlo.TRef.ofBuf, StableHlo.TRef.toBuf, cast_eq]
  rfl

/-- The third stretch joins the five pieces along the columns. -/
theorem after_features (W : Valuation τ sig (Elt F)) :
    StableHlo.after hostOps0_2 W (Proc.devRef .tc main_v8) =
      concatenate S100000x28 1
        [⟨S100000x1, broadcastInDim S100000x1 ![0] bcast_S100000_S100000x1_0 (W main_arg0)⟩, ⟨S100000x5, W main_arg1⟩,
          ⟨S100000x1, broadcastInDim S100000x1 ![0] bcast_S100000_S100000x1_0 (W main_v4)⟩, ⟨S100000x5, W main_arg2⟩,
          ⟨S100000x16, W main_v5⟩]
        concatenates_S100000x1_S100000x5_S100000x1_S100000x5_S100000x16_S100000x28_d1 := by
  after_results
  dsimp only [Matrix.cons_val_zero, Matrix.cons_val_one, Matrix.cons_val]
  rfl

end Stretches

/-! ## The role embedding: under `0 ≤ id < 8` the guard keeps every gathered row -/

section Roles
variable {F : FTy → Type} [FloatOps F]

theorem wrapIds_apply (ids : IVec S100000 32) (i : S100000.Idx) :
    wrapIds ids i = Scalar.select (IntOp.cmpi .slt (ids i) 0#32) (IntOp.addi (ids i) 8#32) (ids i) := rfl

/-- Row `r` of the one-column array of row numbers is the wrapped id of block `r`. -/
theorem startRows_apply (ids : IVec S100000 32) (r : S100000x1.Idx) :
    startRows ids r = wrapIds ids (ix1 (r 0)) :=
  broadcastInDim_apply _ bcast_S100000_S100000x1_0 (wrapIds ids) r (ix1 (r 0)) (fun a => by
    obtain rfl : a = 0 := Subsingleton.elim _ _
    show (r 0).val = if (100000 : ℕ) = 1 then 0 else (r 0).val
    rw [if_neg (by decide)])

variable (ids : IVec S100000 32) (hids : ∀ i : S100000.Idx, 0 ≤ (ids i).toInt ∧ (ids i).toInt < 8)
include hids

theorem startRows_of_inRange (r : S100000x1.Idx) : startRows ids r = ids (ix1 (r 0)) := by
  rw [startRows_apply, wrapIds_apply, wrap_of_nonneg _ (hids _).1]

/-- Every block's row number is in the table. -/
theorem inTable_of_inRange (i : S100000.Idx) : inTable ids i = 1#1 := by
  unfold inTable
  refine reduce_andi_ones _ _ _ _ (fun r => ?_) (fun _ => rfl) i
  show IntOp.andi (IntOp.cmpi .sge (startRows ids r) 0#32) (IntOp.cmpi .sle (startRows ids r) 7#32) = 1#1
  rw [startRows_of_inRange ids hids]
  exact inRange_of_bounds _ (hids _).1 (hids _).2

/-- So the guarded rows are the gathered rows. -/
theorem guardedRows_of_inRange (table : FVec F S8x16 .f32) :
    guardedRows table ids = Host.gather gather_S8x16_S100000x1_S100000x16_1_0_n_n_0_1_116 table (startRows ids) := by
  funext j
  unfold guardedRows
  rw [select_apply]
  have hm : broadcastInDim S100000x16 ![0] bcast_S100000_S100000x16_0 (inTable ids) j = 1#1 :=
    inTable_of_inRange ids hids _
  rw [hm, select_one]

omit hids in
/-- The reference wraps the ids and gathers the same rows. -/
theorem gather_eq_reference (table : FVec F S8x16 .f32) :
    Host.gather gather_S8x16_S100000x1_S100000x16_1_0_n_n_0_1_116 table (startRows ids)
      = Cert.ReferenceIdeal.Read.val_main_v19 (F := F) table ids := rfl

end Roles

/-! ## The degrees: one scatter-add of the joined weights against the three scatter-adds, added -/

section Degrees

/-- The zero splat both programs scatter into is the extended real zero. -/
theorem zeros_apply {F : FTy → Type} [FloatOps F] (i : S100000.Idx) :
    broadcastInDim S100000 ![] bcast_S_S100000 (constant (F := F) S_ .f32 0x00000000#32) i
      = FloatOps.ofBits .f32 0x00000000#32 := rfl

theorem zeros_ideal (i : S100000.Idx) :
    broadcastInDim S100000 ![] bcast_S_S100000 (constant (F := Ideal) S_ .f32 0x00000000#32) i = 0 :=
  (zeros_apply (F := Ideal) i).trans Ideal.ofBits_zero_f32

/-- The kernel program scatters `[b2b_w, b2b_w, p2b_w]` at `[b2b_src, b2b_dst, p2b_block]` into zeros; the reference
    scatters the three weight vectors at their own index vectors into zeros and adds the results. Index vectors are
    arbitrary: an index that names no block is dropped on both sides. -/
theorem degrees_eq (w1 : FVec Ideal S600000 .f32) (w2 : FVec Ideal S200000 .f32) (src dst : IVec S600000 32)
    (blk : IVec S200000 32) :
    Host.scatterAdd (F := Ideal) scatter_S100000_S1400000x1_S1400000_n_0_0_1
        (broadcastInDim S100000 ![] bcast_S_S100000 (constant (F := Ideal) S_ .f32 0x00000000#32))
        (broadcastInDim S1400000x1 ![0] bcast_S1400000_S1400000x1_0
          (concatenate S1400000 0 [⟨S600000, src⟩, ⟨S600000, dst⟩, ⟨S200000, blk⟩]
            concatenates_S600000_S600000_S200000_S1400000_d0))
        (concatenate S1400000 0 [⟨S600000, w1⟩, ⟨S600000, w1⟩, ⟨S200000, w2⟩]
          concatenates_S600000_S600000_S200000_S1400000_d0)
      = Cert.ReferenceIdeal.Read.val_main_v10 (F := Ideal) w1 w2 src dst blk := by
  unfold Cert.ReferenceIdeal.Read.val_main_v10 Cert.ReferenceIdeal.Read.val_main_v6 Cert.ReferenceIdeal.Read.val_main_v2
    Cert.ReferenceIdeal.Read.val_main_v5 Cert.ReferenceIdeal.Read.val_main_v9 Cert.ReferenceIdeal.Read.val_main_v1
    Cert.ReferenceIdeal.Read.val_main_v4 Cert.ReferenceIdeal.Read.val_main_v8
    Cert.ReferenceIdeal.Read.val_main_v0 Cert.ReferenceIdeal.Read.val_main_v3 Cert.ReferenceIdeal.Read.val_main_v7
    Cert.ReferenceIdeal.Read.val_main_cst Cert.ReferenceIdeal.Read.val_main_cst_0 Cert.ReferenceIdeal.Read.val_main_cst_1
  exact scatterAdd_joined (a := 600000) (b := 600000) (c := 200000) (N := 1400000) (n := 100000) (by norm_num)
    scatter_S100000_S1400000x1_S1400000_n_0_0_1
    Cert.ReferenceIdeal.scatter_S100000_S600000x1_S600000_n_0_0_1
    Cert.ReferenceIdeal.scatter_S100000_S600000x1_S600000_n_0_0_1
    Cert.ReferenceIdeal.scatter_S100000_S200000x1_S200000_n_0_0_1
    ⟨rfl, rfl, rfl, rfl⟩ ⟨rfl, rfl, rfl, rfl⟩ ⟨rfl, rfl, rfl, rfl⟩ ⟨rfl, rfl, rfl, rfl⟩
    bcast_S1400000_S1400000x1_0 Cert.ReferenceIdeal.Gen.bcast_S600000_S600000x1_0
    Cert.ReferenceIdeal.Gen.bcast_S600000_S600000x1_0 Cert.ReferenceIdeal.Gen.bcast_S200000_S200000x1_0
    concatenates_S600000_S600000_S200000_S1400000_d0 src dst blk w1 w1 w2
    (broadcastInDim S100000 ![] bcast_S_S100000 (constant (F := Ideal) S_ .f32 0x00000000#32))
    (broadcastInDim S100000 ![] bcast_S_S100000 (constant (F := Ideal) S_ .f32 0x00000000#32))
    (broadcastInDim S100000 ![] bcast_S_S100000 (constant (F := Ideal) S_ .f32 0x00000000#32))
    (broadcastInDim S100000 ![] bcast_S_S100000 (constant (F := Ideal) S_ .f32 0x00000000#32))
    (fun i => by rw [zeros_ideal, add_zero, add_zero])

end Degrees

/-! ## The feature matrix -/

section Features
variable (m : (ℓ : Loc nD τ sig) → Buf (Elt Ideal) ℓ) (c : Dev nD)

/-- No stretch before the join writes an argument: it still holds its launch contents. -/
theorem arg_kept (r : Ref sig .tc) (h0 : r ∉ hostOps0_W) (h1 : r ∉ hostOps0_1_W) :
    V2 (F := Ideal) m c r = m ((c : Thread nD τ).loc r) :=
  (V2_of m c r h1).trans ((V1_of m c r h0).trans rfl)

/-- The degrees buffer at the join: the reference's degrees. -/
theorem degrees_at_join :
    V2 (F := Ideal) m c main_v4 = Cert.ReferenceIdeal.Read.val_main_v10 (F := Ideal)
      (m ((c : Thread nD τ).loc main_arg3)) (m ((c : Thread nD τ).loc main_arg4)) (m ((c : Thread nD τ).loc main_arg17))
      (m ((c : Thread nD τ).loc main_arg18)) (m ((c : Thread nD τ).loc main_arg19)) :=
  (V2_of m c main_v4 (by decide)).trans ((after_degrees (F := Ideal) (V0 m c)).trans (degrees_eq _ _ _ _ _))

/-- The role-embedding buffer at the join: the reference's gathered rows, the ids being row numbers of the table. -/
theorem roles_at_join
    (hrole : ∀ i : S100000.Idx, 0 ≤ (m ((c : Thread nD τ).loc main_arg16) i).toInt ∧ (m ((c : Thread nD τ).loc main_arg16) i).toInt < 8) :
    V2 (F := Ideal) m c main_v5 = Cert.ReferenceIdeal.Read.val_main_v19 (F := Ideal)
      (m ((c : Thread nD τ).loc main_arg5)) (m ((c : Thread nD τ).loc main_arg16)) := by
  have h5 : V1 (F := Ideal) m c main_arg5 = m ((c : Thread nD τ).loc main_arg5) := (V1_of m c main_arg5 (by decide)).trans rfl
  have h16 : V1 (F := Ideal) m c main_arg16 = m ((c : Thread nD τ).loc main_arg16) := (V1_of m c main_arg16 (by decide)).trans rfl
  refine (after_roles (F := Ideal) (V1 m c)).trans ?_
  rw [h5, h16, guardedRows_of_inRange (F := Ideal) _ hrole]
  exact gather_eq_reference (F := Ideal) _ _

theorem features_eq
    (hrole : ∀ i : S100000.Idx, 0 ≤ (m ((c : Thread nD τ).loc main_arg16) i).toInt ∧ (m ((c : Thread nD τ).loc main_arg16) i).toInt < 8) :
    V3 (F := Ideal) m c main_v8 = Cert.ReferenceIdeal.Read.val_main_v20 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg16)) (m ((c : Thread nD τ).loc main_arg17)) (m ((c : Thread nD τ).loc main_arg18))
      (m ((c : Thread nD τ).loc main_arg19)) := by
  refine (after_features (F := Ideal) (V2 m c)).trans ?_
  rw [arg_kept m c main_arg0 (by decide) (by decide), arg_kept m c main_arg1 (by decide) (by decide),
    arg_kept m c main_arg2 (by decide) (by decide), degrees_at_join m c, roles_at_join m c hrole]
  rfl

end Features

end Cert.KernelIdeal.Features
-- ==== Proof.RoleRange.lean ====
/-
  The certificate's precondition is a conjunction of seventeen one-bit facts, and-ed left to right; the last of them is
  the conjunction, over all 100000 role ids, of (id ≥ 0) ∧ (id < 8), both comparisons signed on 32-bit words. From "the
  conjunction is 1" the last conjunct is 1; a reduction by "and" over every position that is 1 met a 1 at every position;
  at one position the pointwise "and" of the two comparisons is 1, so each comparison is 1; and a signed comparison
  that is 1 is the order of the words' integer values. The two bounds are scalars broadcast to the vector: at every
  position they are the words 0 and 8, whose integer values are 0 and 8.
-/
import proofs.«407380_j30331059044746_3_alg».proof.Defs
import proofs.«407380_j30331059044746_3_alg».proof.Proof.Gen.Pre_finite_inputs
import proofs.«407380_j30331059044746_3_alg».proof.Proof.Gen.KernelIdeal
import Idealize.ShloMosaic.Lib.ReduceAll
import Idealize.ShloMosaic.Lib.StableHlo.Predicate
import Idealize.ShloMosaic.Lib.ValueIdx

noncomputable section

namespace Cert.Proof.RoleRange

open Idealize.ShloMosaic Idealize.ShloMosaic.TcCoe

/-- A rank-0 array has one position. -/
instance oneScalarPosition : Subsingleton Cert.Pre_finite_inputs.S_.Idx := ⟨fun a b => funext fun d => d.elim0⟩

/-- One word between two signed bounds: both comparisons 1 means the word's integer value lies in [lo, hi). -/
theorem word_between (x lo hi : BitVec 32)
    (h : IntOp.andi (IntOp.cmpi .sge x lo) (IntOp.cmpi .slt x hi) = 1#1) : lo.toInt ≤ x.toInt ∧ x.toInt < hi.toInt := by
  obtain ⟨hge, hlt⟩ := IntOp.andi_eq_one.1 h
  exact ⟨IntOp.cmpi_sge.1 hge, IntOp.cmpi_slt.1 hlt⟩

open Cert.Pre_finite_inputs in
/-- The printed predicate, over any twenty arrays of its argument types: if it is 1 then every role id is in [0, 8). -/
theorem ids_between_of_pred
    (a0 : FVec Ideal S100000 .f32) (a1 : FVec Ideal S100000x5 .f32) (a2 : FVec Ideal S100000x5 .f32)
    (a3 : FVec Ideal S600000 .f32) (a4 : FVec Ideal S200000 .f32) (a5 : FVec Ideal S8x16 .f32)
    (a6 : FVec Ideal S28x128 .f32) (a7 : FVec Ideal S128 .f32) (a8 : FVec Ideal S128x128 .f32)
    (a9 : FVec Ideal S128 .f32) (a10 : FVec Ideal S128x128 .f32) (a11 : FVec Ideal S128 .f32)
    (a12 : FVec Ideal S128x128 .f32) (a13 : FVec Ideal S128 .f32) (a14 : FVec Ideal S128 .f32)
    (a15 : FVec Ideal S128 .f32) (ids : IVec S100000 32) (a17 : IVec S600000 32) (a18 : IVec S600000 32)
    (a19 : IVec S200000 32)
    (h : fn (F := Ideal) a0 a1 a2 a3 a4 a5 a6 a7 a8 a9 a10 a11 a12 a13 a14 a15 ids a17 a18 a19 = fun _ => 1#1)
    (i : S100000.Idx) : 0 ≤ (ids i).toInt ∧ (ids i).toInt < 8 := by
  have e := congrFun h ValueIdx.ix0
  dsimp only [fn, fn_part1, fn_part2, fn_part3, fn_part4, fn_part5] at e
  -- the last of the seventeen conjuncts
  have hall := (IntOp.andi_eq_one.1 e).2
  -- a conjunction over all positions that is 1: the bit is 1 at every position
  have hi := Host.reduce_andi_all _ _ _ _ _ hall i
  exact word_between (ids i) 0#32 8#32 hi

theorem role_range (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S100000.Idx,
      0 ≤ (m ((c : Thread Cert.KernelIdeal.nD Cert.KernelIdeal.τ).loc Cert.KernelIdeal.main_arg16) i).toInt
      ∧ (m ((c : Thread Cert.KernelIdeal.nD Cert.KernelIdeal.τ).loc Cert.KernelIdeal.main_arg16) i).toInt < 8 :=
  fun i => ids_between_of_pred _ _ _ _ _ _ _ _ _ _ _ _ _ _ _ _ _ _ _ _ (h c) i

end Cert.Proof.RoleRange

end
-- ==== Proof.Chains.lean ====
/-
  Two stretches of host operations that both programs apply alike.

  The edge aggregation: for each of three edge streams, a negative node id is wrapped by adding 100000, the rows of
  the hidden features are gathered at the ids of one end of the edges, each gathered row is scaled by its edge's
  weight, and the scaled rows are scatter-added, from zeros, at the ids of the other end; the three results are
  added. (The block–block edges give two streams, one in each direction; the pin–block edges gather and scatter at
  the same ids.) The kernel program gathers from the copy of the hidden features it rounded to bf16 and widens the
  gathered rows again: over the extended reals both changes of format are the identity, so it applies this very
  function to the same matrix.

  The column mean: the sum of the 100000 rows, from zero, divided by 100000; and the all-ones mask.
-/
import proofs.«407380_j30331059044746_3_alg».proof.Proof.Gen.KernelIdeal.Launch
import proofs.«407380_j30331059044746_3_alg».proof.Proof.Gen.ReferenceIdeal.Read
import Idealize.ShloMosaic.Lib.StableHlo.Run

set_option maxRecDepth 16384

noncomputable section

namespace Cert.ReferenceIdeal.Chains

open Cert.ReferenceIdeal Cert.ReferenceIdeal.Gen Idealize.ShloMosaic Idealize.ShloMosaic.TcCoe Idealize.SL.Sem

/-- Node ids of 600000 edges, negatives wrapped, as a column of start indices. -/
def wrap6 (i : IVec S600000 32) : IVec S600000x1 32 :=
  broadcastInDim S600000x1 ![0] bcast_S600000_S600000x1_0
    (select (cmpi .slt i (broadcastInDim S600000 ![] bcast_S_S600000 (constantI S_ 32 0#32)))
      (addi i (broadcastInDim S600000 ![] bcast_S_S600000 (constantI S_ 32 100000#32))) i)

/-- Node ids of 200000 edges, negatives wrapped, as a column of start indices. -/
def wrap2 (i : IVec S200000 32) : IVec S200000x1 32 :=
  broadcastInDim S200000x1 ![0] bcast_S200000_S200000x1_0
    (select (cmpi .slt i (broadcastInDim S200000 ![] bcast_S_S200000 (constantI S_ 32 0#32)))
      (addi i (broadcastInDim S200000 ![] bcast_S_S200000 (constantI S_ 32 100000#32))) i)

/-- One stream over 600000 edges: gather the rows of `h` at `g`, scale by `w`, scatter-add at `s`. -/
def stream6 (h : FVec Ideal S100000x128 .f32) (w : FVec Ideal S600000 .f32) (g s : IVec S600000 32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 s)
    (mulf (F := Ideal) (Host.gather gather_S100000x128_S600000x1_S600000x128_1_0_n_n_0_1_1128 h (wrap6 g))
      (broadcastInDim S600000x128 ![0, 1] bcast_S600000x1_S600000x128_0_1 (broadcastInDim S600000x1 ![0] bcast_S600000_S600000x1_0 w)))

/-- One stream over 200000 edges. -/
def stream2 (h : FVec Ideal S100000x128 .f32) (w : FVec Ideal S200000 .f32) (g s : IVec S200000 32) : FVec Ideal S100000x128 .f32 :=
  Host.scatterAdd scatter_S100000x128_S200000x1_S200000x128_1_0_0_1
    (broadcastInDim S100000x128 ![] bcast_S_S100000x128 (constant (F := Ideal) S_ .f32 0x00000000#32))
    (broadcastInDim S200000x1 ![0] bcast_S200000_S200000x1_0 s)
    (mulf (F := Ideal) (Host.gather gather_S100000x128_S200000x1_S200000x128_1_0_n_n_0_1_1128 h (wrap2 g))
      (broadcastInDim S200000x128 ![0, 1] bcast_S200000x1_S200000x128_0_1 (broadcastInDim S200000x1 ![0] bcast_S200000_S200000x1_0 w)))

/-- The aggregated messages: the two directions of the block–block edges and the pin–block edges. -/
def edgeSum (h : FVec Ideal S100000x128 .f32) (w6 : FVec Ideal S600000 .f32) (w2 : FVec Ideal S200000 .f32) (src dst : IVec S600000 32)
    (pb : IVec S200000 32) : FVec Ideal S100000x128 .f32 :=
  addf (F := Ideal) (addf (F := Ideal) (stream6 h w6 dst src) (stream6 h w6 src dst)) (stream2 h w2 pb pb)

/-- The mean of the 100000 rows. -/
def colMean (e : FVec Ideal S100000x128 .f32) : FVec Ideal S128 .f32 :=
  Host.divf (F := Ideal) (Host.reduceAdd (F := Ideal) e (constant (F := Ideal) S_ .f32 0x00000000#32) reducesTo_S100000x128_S128_d0 h_S_)
    (broadcastInDim S128 ![] bcast_S_S128 (constant (F := Ideal) S_ .f32 0x47C35000#32))

/-! ## The reference applies them -/

theorem ref_stream_a (x0 : FVec Ideal S100000 .f32) (x1 x2 : FVec Ideal S100000x5 .f32) (x3 : FVec Ideal S600000 .f32) (x4 : FVec Ideal S200000 .f32) (x5 : FVec Ideal S8x16 .f32)
    (x6 : FVec Ideal S28x128 .f32) (x7 : FVec Ideal S128 .f32) (x8 : FVec Ideal S128x128 .f32) (x9 : FVec Ideal S128 .f32)
    (x16 : IVec S100000 32) (x17 x18 : IVec S600000 32) (x19 : IVec S200000 32) :
    Read.val_main_v43 (F := Ideal) x0 x1 x2 x3 x4 x5 x6 x7 x8 x9 x16 x17 x18 x19 = stream6 (Read.val_main_v30 (F := Ideal) x0 x1 x2 x3 x4 x5 x6 x7 x8 x9 x16 x17 x18 x19) x3 x18 x17 := rfl

theorem ref_stream_b (x0 : FVec Ideal S100000 .f32) (x1 x2 : FVec Ideal S100000x5 .f32) (x3 : FVec Ideal S600000 .f32) (x4 : FVec Ideal S200000 .f32) (x5 : FVec Ideal S8x16 .f32)
    (x6 : FVec Ideal S28x128 .f32) (x7 : FVec Ideal S128 .f32) (x8 : FVec Ideal S128x128 .f32) (x9 : FVec Ideal S128 .f32)
    (x16 : IVec S100000 32) (x17 x18 : IVec S600000 32) (x19 : IVec S200000 32) :
    Read.val_main_v56 (F := Ideal) x0 x1 x2 x3 x4 x5 x6 x7 x8 x9 x16 x17 x18 x19 = stream6 (Read.val_main_v30 (F := Ideal) x0 x1 x2 x3 x4 x5 x6 x7 x8 x9 x16 x17 x18 x19) x3 x17 x18 := rfl

theorem ref_stream_c (x0 : FVec Ideal S100000 .f32) (x1 x2 : FVec Ideal S100000x5 .f32) (x3 : FVec Ideal S600000 .f32) (x4 : FVec Ideal S200000 .f32) (x5 : FVec Ideal S8x16 .f32)
    (x6 : FVec Ideal S28x128 .f32) (x7 : FVec Ideal S128 .f32) (x8 : FVec Ideal S128x128 .f32) (x9 : FVec Ideal S128 .f32)
    (x16 : IVec S100000 32) (x17 x18 : IVec S600000 32) (x19 : IVec S200000 32) :
    Read.val_main_v70 (F := Ideal) x0 x1 x2 x3 x4 x5 x6 x7 x8 x9 x16 x17 x18 x19 = stream2 (Read.val_main_v30 (F := Ideal) x0 x1 x2 x3 x4 x5 x6 x7 x8 x9 x16 x17 x18 x19) x4 x19 x19 := rfl

theorem ref_agg (x0 : FVec Ideal S100000 .f32) (x1 x2 : FVec Ideal S100000x5 .f32) (x3 : FVec Ideal S600000 .f32) (x4 : FVec Ideal S200000 .f32) (x5 : FVec Ideal S8x16 .f32)
    (x6 : FVec Ideal S28x128 .f32) (x7 : FVec Ideal S128 .f32) (x8 : FVec Ideal S128x128 .f32) (x9 : FVec Ideal S128 .f32)
    (x16 : IVec S100000 32) (x17 x18 : IVec S600000 32) (x19 : IVec S200000 32) :
    Read.val_main_v71 (F := Ideal) x0 x1 x2 x3 x4 x5 x6 x7 x8 x9 x16 x17 x18 x19
      = edgeSum (Read.val_main_v30 (F := Ideal) x0 x1 x2 x3 x4 x5 x6 x7 x8 x9 x16 x17 x18 x19) x3 x4 x17 x18 x19 := by
  unfold edgeSum
  rw [← ref_stream_a, ← ref_stream_b, ← ref_stream_c]
  rfl

theorem ref_mean (x0 : FVec Ideal S100000 .f32) (x1 x2 : FVec Ideal S100000x5 .f32) (x3 : FVec Ideal S600000 .f32) (x4 : FVec Ideal S200000 .f32) (x5 : FVec Ideal S8x16 .f32)
    (x6 : FVec Ideal S28x128 .f32) (x7 : FVec Ideal S128 .f32) (x8 : FVec Ideal S128x128 .f32) (x9 : FVec Ideal S128 .f32)
    (x10 : FVec Ideal S128x128 .f32) (x11 : FVec Ideal S128 .f32) (x12 : FVec Ideal S128x128 .f32) (x13 x14 x15 : FVec Ideal S128 .f32)
    (x16 : IVec S100000 32) (x17 x18 : IVec S600000 32) (x19 : IVec S200000 32) :
    Read.val_main_v108 (F := Ideal) x0 x1 x2 x3 x4 x5 x6 x7 x8 x9 x10 x11 x12 x13 x14 x15 x16 x17 x18 x19
      = colMean (Read.val_main_v105 (F := Ideal) x0 x1 x2 x3 x4 x5 x6 x7 x8 x9 x10 x11 x12 x13 x14 x15 x16 x17 x18 x19) := rfl

/-! ## The kernel program applies them -/

section Kernel

/-- After the stretch between the two dense stages, the aggregated-messages buffer holds `edgeSum` of the rounded
    copy of the hidden features and the edge arrays, whatever else the buffers held. -/
theorem kernel_agg (W : Valuation Cert.KernelIdeal.τ Cert.KernelIdeal.sig (Elt Ideal)) :
    StableHlo.after (Cert.KernelIdeal.Gen.hostOps1 (F := Ideal)) W (Proc.devRef .tc Cert.KernelIdeal.main_v53)
      = edgeSum (W (Proc.devRef .tc Cert.KernelIdeal.main_v9_1)) (W (Proc.devRef .tc Cert.KernelIdeal.main_arg3)) (W (Proc.devRef .tc Cert.KernelIdeal.main_arg4))
          (W (Proc.devRef .tc Cert.KernelIdeal.main_arg17)) (W (Proc.devRef .tc Cert.KernelIdeal.main_arg18)) (W (Proc.devRef .tc Cert.KernelIdeal.main_arg19)) := by
  after_results_simp <;> rfl

/-- After the last stretch, the second result holds the column mean of the first. -/
theorem kernel_mean (W : Valuation Cert.KernelIdeal.τ Cert.KernelIdeal.sig (Elt Ideal)) :
    StableHlo.after (Cert.KernelIdeal.Gen.hostOps2 (F := Ideal)) W (Proc.devRef .tc Cert.KernelIdeal.main_v57)
      = colMean (W (Proc.devRef .tc Cert.KernelIdeal.main_v54)) := by
  after_results_simp <;> rfl

/-- and the third the all-ones mask. -/
theorem kernel_mask (W : Valuation Cert.KernelIdeal.τ Cert.KernelIdeal.sig (Elt Ideal)) :
    StableHlo.after (Cert.KernelIdeal.Gen.hostOps2 (F := Ideal)) W (Proc.devRef .tc Cert.KernelIdeal.main_v58)
      = broadcastInDim Cert.ReferenceIdeal.S100000 ![] bcast_S_S100000 (constantI Cert.ReferenceIdeal.S_ 1 1#1) := by
  after_results_simp <;> rfl

end Kernel

end Cert.ReferenceIdeal.Chains

end
-- ==== Proof.RefValue.lean ====
/-
  The reference's two dense stages are the specification's functions, over the extended reals.

  The reference computes the hidden features in two clamped affine layers from the 28 node features, and the
  embedding from the aggregated messages and the hidden features: two more affine layers (the first clamped), a
  residual sum, and along each row of 128 entries the mean, the deviations, the mean of their squares and the
  normalised, scaled and shifted row. Read entry by entry, each of its operations is the corresponding piece of
  `Encoder.hid` and `Encoder.emb`: a contraction is the plain sum over the shared axis, a broadcast row is read
  at the column, a row sum started from zero is the sum, and the clamp compares with zero.
-/
import proofs.«407380_j30331059044746_3_alg».proof.Proof.Gen.ReferenceIdeal.Read
import proofs.«407380_j30331059044746_3_alg».proof.Proof.Spec
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx

variable (x0 : (⟨S100000, .f32⟩ : BufTy).Contents (Elt Ideal)) (x1 x2 : (⟨S100000x5, .f32⟩ : BufTy).Contents (Elt Ideal))
  (x3 : (⟨S600000, .f32⟩ : BufTy).Contents (Elt Ideal)) (x4 : (⟨S200000, .f32⟩ : BufTy).Contents (Elt Ideal))
  (x5 : (⟨S8x16, .f32⟩ : BufTy).Contents (Elt Ideal)) (x6 : (⟨S28x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S128x128, .f32⟩ : BufTy).Contents (Elt Ideal))
  (x11 : (⟨S128, .f32⟩ : BufTy).Contents (Elt Ideal)) (x12 : (⟨S128x128, .f32⟩ : BufTy).Contents (Elt Ideal))
  (x13 x14 x15 : (⟨S128, .f32⟩ : BufTy).Contents (Elt Ideal)) (x16 : (⟨S100000, .i32⟩ : BufTy).Contents (Elt Ideal))
  (x17 x18 : (⟨S600000, .i32⟩ : BufTy).Contents (Elt Ideal)) (x19 : (⟨S200000, .i32⟩ : BufTy).Contents (Elt Ideal))

/-! ## A clamped affine layer, entry by entry -/

/-- The shape every affine layer of the reference takes once its operations are read at an entry: the contraction
    as a sum over the shared axis with composed index functions, the bias read through its two broadcasts. When the
    index functions are the plain ones, this is the specification's affine map. -/
theorem lin_of_reads {K : Nat} (A : Encoder.Mat 100000 K) (W : Encoder.Mat K 128) (b : Encoder.Row 128)
    (r : Fin 100000) (j : Fin 128)
    (li : Fin K → (⟨2, ![100000, K]⟩ : Shape).Idx) (ri : Fin K → (⟨2, ![K, 128]⟩ : Shape).Idx) (bi : (⟨1, ![128]⟩ : Shape).Idx)
    (hl : ∀ k, li k = ix2 r k) (hr : ∀ k, ri k = ix2 k j) (hb : bi = ix1 j) :
    (∑ k : Fin K, A (li k) * W (ri k)) + b bi = Encoder.lin A W b r j := by
  unfold Encoder.lin
  simp only [hl, hr, hb]

/-- The first layer: features times the first weight matrix plus its bias, clamped at zero. -/
theorem layer1_apply (r : Fin 100000) (j : Fin 128) :
    Read.val_main_v25 (F := Ideal) x0 x1 x2 x3 x4 x5 x6 x7 x16 x17 x18 x19 (ix2 r j)
      = Encoder.relu1 (Read.val_main_v20 (F := Ideal) x0 x1 x2 x3 x4 x5 x16 x17 x18 x19) x6 x7 (ix2 r j) := by
  rw [Read.val_main_v25_apply, Read.val_main_v24_apply, Read.val_main_v21_apply, Read.val_main_v23_apply,
    Read.val_main_v22_apply, Read.val_main_call0_v0_apply, Read.val_main_call0_cst_apply]
  generalize Read.val_main_v20 (F := Ideal) x0 x1 x2 x3 x4 x5 x16 x17 x18 x19 = X
  rw [Encoder.relu1_apply, Ideal.maximumf_def, Ideal.addf_def, Ideal.ofBits_def, Ideal.ofBits_zero_f32]
  refine congrArg (max · 0) (lin_of_reads X x6 x7 r j _ _ _ (fun k => ?_) (fun k => ?_) ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

theorem layer1_eq :
    Read.val_main_v25 (F := Ideal) x0 x1 x2 x3 x4 x5 x6 x7 x16 x17 x18 x19 = Encoder.relu1 (Read.val_main_v20 (F := Ideal) x0 x1 x2 x3 x4 x5 x16 x17 x18 x19) x6 x7 := by
  funext i
  obtain ⟨r, j, rfl⟩ : ∃ (r : Fin 100000) (j : Fin 128), i = ix2 r j := ⟨i 0, i 1, eq_ix2 i⟩
  exact layer1_apply x0 x1 x2 x3 x4 x5 x6 x7 x16 x17 x18 x19 r j

/-- The second layer: the first layer's output times the second weight matrix plus its bias, clamped at zero. -/
theorem layer2_apply (r : Fin 100000) (j : Fin 128) :
    Read.val_main_v30 (F := Ideal) x0 x1 x2 x3 x4 x5 x6 x7 x8 x9 x16 x17 x18 x19 (ix2 r j)
      = Encoder.relu1 (Read.val_main_v25 (F := Ideal) x0 x1 x2 x3 x4 x5 x6 x7 x16 x17 x18 x19) x8 x9 (ix2 r j) := by
  rw [Read.val_main_v30_apply, Read.val_main_v29_apply, Read.val_main_v26_apply, Read.val_main_v28_apply,
    Read.val_main_v27_apply, Read.val_main_call1_v0_apply, Read.val_main_call1_cst_apply]
  generalize Read.val_main_v25 (F := Ideal) x0 x1 x2 x3 x4 x5 x6 x7 x16 x17 x18 x19 = Y
  rw [Encoder.relu1_apply, Ideal.maximumf_def, Ideal.addf_def, Ideal.ofBits_def, Ideal.ofBits_zero_f32]
  refine congrArg (max · 0) (lin_of_reads Y x8 x9 r j _ _ _ (fun k => ?_) (fun k => ?_) ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The reference's hidden features are the specification's input projection of its feature matrix. -/
theorem hidden_eq :
    Read.val_main_v30 (F := Ideal) x0 x1 x2 x3 x4 x5 x6 x7 x8 x9 x16 x17 x18 x19
      = Encoder.hid (Read.val_main_v20 (F := Ideal) x0 x1 x2 x3 x4 x5 x16 x17 x18 x19) x6 x7 x8 x9 := by
  funext i
  obtain ⟨r, j, rfl⟩ : ∃ (r : Fin 100000) (j : Fin 128), i = ix2 r j := ⟨i 0, i 1, eq_ix2 i⟩
  rw [layer2_apply, layer1_eq]
  rfl

/-! ## The message stage -/

/-- The message's first layer: aggregated messages times a weight matrix plus a bias, clamped at zero. -/
theorem msg1_apply (r : Fin 100000) (j : Fin 128) :
    Read.val_main_v76 (F := Ideal) x0 x1 x2 x3 x4 x5 x6 x7 x8 x9 x10 x11 x16 x17 x18 x19 (ix2 r j)
      = Encoder.relu1 (Read.val_main_v71 (F := Ideal) x0 x1 x2 x3 x4 x5 x6 x7 x8 x9 x16 x17 x18 x19) x10 x11 (ix2 r j) := by
  rw [Read.val_main_v76_apply, Read.val_main_v75_apply, Read.val_main_v72_apply, Read.val_main_v74_apply,
    Read.val_main_v73_apply, Read.val_main_call2_v0_apply, Read.val_main_call2_cst_apply]
  generalize Read.val_main_v71 (F := Ideal) x0 x1 x2 x3 x4 x5 x6 x7 x8 x9 x16 x17 x18 x19 = G
  rw [Encoder.relu1_apply, Ideal.maximumf_def, Ideal.addf_def, Ideal.ofBits_def, Ideal.ofBits_zero_f32]
  refine congrArg (max · 0) (lin_of_reads G x10 x11 r j _ _ _ (fun k => ?_) (fun k => ?_) ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

theorem msg1_eq :
    Read.val_main_v76 (F := Ideal) x0 x1 x2 x3 x4 x5 x6 x7 x8 x9 x10 x11 x16 x17 x18 x19 = Encoder.relu1 (Read.val_main_v71 (F := Ideal) x0 x1 x2 x3 x4 x5 x6 x7 x8 x9 x16 x17 x18 x19) x10 x11 := by
  funext i
  obtain ⟨r, j, rfl⟩ : ∃ (r : Fin 100000) (j : Fin 128), i = ix2 r j := ⟨i 0, i 1, eq_ix2 i⟩
  exact msg1_apply x0 x1 x2 x3 x4 x5 x6 x7 x8 x9 x10 x11 x16 x17 x18 x19 r j

/-- The message's second layer is affine, with no clamp. -/
theorem msg2_apply (r : Fin 100000) (j : Fin 128) :
    Read.val_main_v80 (F := Ideal) x0 x1 x2 x3 x4 x5 x6 x7 x8 x9 x10 x11 x12 x13 x16 x17 x18 x19 (ix2 r j)
      = Encoder.lin (Read.val_main_v76 (F := Ideal) x0 x1 x2 x3 x4 x5 x6 x7 x8 x9 x10 x11 x16 x17 x18 x19) x12 x13 r j := by
  rw [Read.val_main_v80_apply, Read.val_main_v77_apply, Read.val_main_v79_apply, Read.val_main_v78_apply]
  generalize Read.val_main_v76 (F := Ideal) x0 x1 x2 x3 x4 x5 x6 x7 x8 x9 x10 x11 x16 x17 x18 x19 = Y
  rw [Ideal.addf_def]
  refine lin_of_reads Y x12 x13 r j _ _ _ (fun k => ?_) (fun k => ?_) ?_
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- What the reference normalises is the hidden features plus the message. -/
theorem resid_eq :
    Read.val_main_v81 (F := Ideal) x0 x1 x2 x3 x4 x5 x6 x7 x8 x9 x10 x11 x12 x13 x16 x17 x18 x19
      = Encoder.zsum (Read.val_main_v71 (F := Ideal) x0 x1 x2 x3 x4 x5 x6 x7 x8 x9 x16 x17 x18 x19) (Read.val_main_v30 (F := Ideal) x0 x1 x2 x3 x4 x5 x6 x7 x8 x9 x16 x17 x18 x19) x10 x11 x12 x13 := by
  funext i
  obtain ⟨r, j, rfl⟩ : ∃ (r : Fin 100000) (j : Fin 128), i = ix2 r j := ⟨i 0, i 1, eq_ix2 i⟩
  rw [Read.val_main_v81_apply, msg2_apply, msg1_eq, Ideal.addf_def, Encoder.zsum_apply]

/-! ## Normalising a row -/

/-- The reference's row mean: the row sum started from zero, over the word for 128. -/
theorem mean_apply (r : Fin 100000) (c : Fin 1) :
    Read.val_main_v85 (F := Ideal) x0 x1 x2 x3 x4 x5 x6 x7 x8 x9 x10 x11 x12 x13 x16 x17 x18 x19 (ix2 r c) = Encoder.rowMean (Read.val_main_v81 (F := Ideal) x0 x1 x2 x3 x4 x5 x6 x7 x8 x9 x10 x11 x12 x13 x16 x17 x18 x19) r := by
  rw [Read.val_main_v85_apply, Read.val_main_v83_apply, Read.val_main_v82_apply, Read.val_main_v84_apply,
    Read.val_main_cst_13_apply, Read.val_main_cst_12_apply]
  generalize Read.val_main_v81 (F := Ideal) x0 x1 x2 x3 x4 x5 x6 x7 x8 x9 x10 x11 x12 x13 x16 x17 x18 x19 = Z
  have hidx : ∀ k : Fin 128, Read.idx_main_v82 (Read.idx_main_v83 (ix2 r c)) k = ix2 r k := fun k =>
    funext fun a => Fin.ext (by match a with | ⟨0, _⟩ => rfl | ⟨1, _⟩ => rfl)
  simp only [hidx, Ideal.hostDivf_def, Ideal.ofBits_def, Ideal.ofBits_zero_f32, zero_add]
  rfl

/-- The reference's deviations from the row mean (it computes them twice; this is the first copy). -/
theorem dev_apply (r : Fin 100000) (j : Fin 128) :
    Read.val_main_v87 (F := Ideal) x0 x1 x2 x3 x4 x5 x6 x7 x8 x9 x10 x11 x12 x13 x16 x17 x18 x19 (ix2 r j) = Encoder.dev (Read.val_main_v81 (F := Ideal) x0 x1 x2 x3 x4 x5 x6 x7 x8 x9 x10 x11 x12 x13 x16 x17 x18 x19) (ix2 r j) := by
  have e : Read.idx_main_v86 (ix2 r j) = ix2 r (⟨0, Nat.one_pos⟩ : Fin 1) := funext fun a => Fin.ext (by match a with | ⟨0, _⟩ => rfl | ⟨1, _⟩ => rfl)
  rw [Read.val_main_v87_apply, Read.val_main_v86_apply, e, mean_apply, Ideal.subf_def, Encoder.dev_apply]

/-- The reference's row variance: the sum of the squared deviations started from zero, over the word for 128. -/
theorem var_apply (r : Fin 100000) (c : Fin 1) :
    Read.val_main_v92 (F := Ideal) x0 x1 x2 x3 x4 x5 x6 x7 x8 x9 x10 x11 x12 x13 x16 x17 x18 x19 (ix2 r c) = Encoder.rowVar (Read.val_main_v81 (F := Ideal) x0 x1 x2 x3 x4 x5 x6 x7 x8 x9 x10 x11 x12 x13 x16 x17 x18 x19) r := by
  rw [Read.val_main_v92_apply, Read.val_main_v90_apply, Read.val_main_v89_apply, Read.val_main_v91_apply,
    Read.val_main_cst_15_apply, Read.val_main_cst_14_apply]
  have hidx : ∀ k : Fin 128, Read.idx_main_v89 (Read.idx_main_v90 (ix2 r c)) k = ix2 r k := fun k =>
    funext fun a => Fin.ext (by match a with | ⟨0, _⟩ => rfl | ⟨1, _⟩ => rfl)
  simp only [hidx, Read.val_main_v88_apply, dev_apply, Ideal.mulf_def, Ideal.hostDivf_def, Ideal.ofBits_def,
    Ideal.ofBits_zero_f32, zero_add]
  rfl

/-- The reference's output entry: deviation times the reciprocal root of variance plus ε, scaled and shifted. -/
theorem norm_apply (r : Fin 100000) (j : Fin 128) :
    Read.val_main_v105 (F := Ideal) x0 x1 x2 x3 x4 x5 x6 x7 x8 x9 x10 x11 x12 x13 x14 x15 x16 x17 x18 x19 (ix2 r j)
      = Encoder.norm (Read.val_main_v81 (F := Ideal) x0 x1 x2 x3 x4 x5 x6 x7 x8 x9 x10 x11 x12 x13 x16 x17 x18 x19) x14 x15 (ix2 r j) := by
  have e1 : Read.idx_main_v93 (ix2 r j) = ix2 r (⟨0, Nat.one_pos⟩ : Fin 1) := funext fun a => Fin.ext (by match a with | ⟨0, _⟩ => rfl | ⟨1, _⟩ => rfl)
  have e2 : Read.idx_main_v98 (ix2 r j) = ix2 r (⟨0, Nat.one_pos⟩ : Fin 1) := funext fun a => Fin.ext (by match a with | ⟨0, _⟩ => rfl | ⟨1, _⟩ => rfl)
  have e3 : Read.idx_main_v100 (Read.idx_main_v101 (ix2 r j)) = ix1 j := funext fun a => Fin.ext (by match a with | ⟨0, _⟩ => rfl)
  have e4 : Read.idx_main_v103 (Read.idx_main_v104 (ix2 r j)) = ix1 j := funext fun a => Fin.ext (by match a with | ⟨0, _⟩ => rfl)
  rw [Read.val_main_v105_apply, Read.val_main_v102_apply, Read.val_main_v99_apply, Read.val_main_v94_apply,
    Read.val_main_v93_apply, Read.val_main_v98_apply, Read.val_main_v97_apply, Read.val_main_v96_apply,
    Read.val_main_v95_apply, Read.val_main_cst_16_apply, Read.val_main_v101_apply, Read.val_main_v100_apply,
    Read.val_main_v104_apply, Read.val_main_v103_apply, e1, e2, e3, e4, mean_apply, var_apply]
  rw [Encoder.norm_apply, Encoder.dev_apply]
  simp only [Ideal.addf_def, Ideal.subf_def, Ideal.mulf_def, Ideal.hostUnary_rsqrt_def, Ideal.ofBits_def]
  rfl

/-- The reference's output is the specification's message stage of its aggregated messages and hidden features. -/
theorem embed_eq :
    Read.val_main_v105 (F := Ideal) x0 x1 x2 x3 x4 x5 x6 x7 x8 x9 x10 x11 x12 x13 x14 x15 x16 x17 x18 x19
      = Encoder.emb (Read.val_main_v71 (F := Ideal) x0 x1 x2 x3 x4 x5 x6 x7 x8 x9 x16 x17 x18 x19) (Read.val_main_v30 (F := Ideal) x0 x1 x2 x3 x4 x5 x6 x7 x8 x9 x16 x17 x18 x19) x10 x11 x12 x13 x14 x15 := by
  funext i
  obtain ⟨r, j, rfl⟩ : ∃ (r : Fin 100000) (j : Fin 128), i = ix2 r j := ⟨i 0, i 1, eq_ix2 i⟩
  rw [norm_apply, resid_eq]
  rfl

end Cert.ReferenceIdeal.RefValue

end
-- ==== Proof.Bridge.lean ====
/-
  From the run to the reference's stages. The contents of the kernel program's buffers at the boundaries of its run
  are, one after the other, the reference's own intermediate matrices evaluated at the same arguments:
  the feature matrix (given: it needs the role ids in range); the hidden features, in both the f32 and the rounded
  copy (the first dense stage computes the input projection of the features); the aggregated messages (the shared
  edge aggregation of the hidden features); the block embeddings (the second dense stage computes the message stage
  of the aggregated messages and the hidden features); their column mean; the mask.
-/
import proofs.«407380_j30331059044746_3_alg».proof.Proof.Ideal.Whole
import proofs.«407380_j30331059044746_3_alg».proof.Proof.Chains
import proofs.«407380_j30331059044746_3_alg».proof.Proof.RefValue
import proofs.«407380_j30331059044746_3_alg».proof.Proof.Spec

set_option maxRecDepth 16384

noncomputable section

namespace Cert.KernelIdeal.Bridge

open Cert.KernelIdeal Cert.KernelIdeal.Gen Cert.KernelIdeal.Whole
open Idealize.ShloMosaic Idealize.ShloMosaic.TcCoe Idealize.SL.Sem

variable (m : (ℓ : Loc nD τ sig) → Buf (Elt Ideal) ℓ) (c : Dev nD)

/-- The reference's stages at the kernel program's argument arrays. -/
abbrev refX := Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg16)) (m ((c : Thread nD τ).loc main_arg17)) (m ((c : Thread nD τ).loc main_arg18)) (m ((c : Thread nD τ).loc main_arg19))
abbrev refH := Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) (m ((c : Thread nD τ).loc main_arg17)) (m ((c : Thread nD τ).loc main_arg18)) (m ((c : Thread nD τ).loc main_arg19))
abbrev refAgg := Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) (m ((c : Thread nD τ).loc main_arg17)) (m ((c : Thread nD τ).loc main_arg18)) (m ((c : Thread nD τ).loc main_arg19))
abbrev refOut := Cert.ReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
abbrev refMean := Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-! ## Buffers no earlier segment wrote -/

theorem B3_keep (b : Ref sig .tc) (h0 : b ∉ hostOps0_W) (h1 : b ∉ hostOps0_1_W) (h2 : b ∉ hostOps0_2_W) :
    B3 m c (Proc.devRef .tc b) = m ((c : Thread nD τ).loc b) :=
  (V3_of m c b h2).trans <| (V2_of m c b h1).trans <| (V1_of m c b h0).trans rfl

theorem B4_keep' (b : Ref sig .tc) (h0 : b ∉ hostOps0_W) (h1 : b ∉ hostOps0_1_W) (h2 : b ∉ hostOps0_2_W)
    (h3 : b ≠ main_v9_0) (h3' : b ≠ main_v9_1) : B4 m c (Proc.devRef .tc b) = m ((c : Thread nD τ).loc b) :=
  (B4_keep m c b h3 h3').trans (B3_keep m c b h0 h1 h2)

theorem B5_keep' (b : Ref sig .tc) (h0 : b ∉ hostOps0_W) (h1 : b ∉ hostOps0_1_W) (h2 : b ∉ hostOps0_2_W)
    (h3 : b ≠ main_v9_0) (h3' : b ≠ main_v9_1) (h4 : b ∉ hostOps1_W) : B5 m c (Proc.devRef .tc b) = m ((c : Thread nD τ).loc b) :=
  (StableHlo.after_of_writes_sub hostOps1 _ hostOps1_writes h4).trans (B4_keep' m c b h0 h1 h2 h3 h3')

section
variable
  (hProjF : ∀ (V : (c : Dev nD) → (b : Ref sig .tc) → Buf (Elt Ideal) ((c : Thread nD τ).loc b)) (c : Dev nD),
    (Proj.dat (F := Ideal) V c).arrAt 5 cfg0.N = Encoder.hid (V c main_v8) (V c main_arg6) (V c main_arg7) (V c main_arg8) (V c main_arg9))
  (hProjB : ∀ (V : (c : Dev nD) → (b : Ref sig .tc) → Buf (Elt Ideal) ((c : Thread nD τ).loc b)) (c : Dev nD),
    (Proj.dat (F := Ideal) V c).arrAt 6 cfg0.N = Encoder.hid (V c main_v8) (V c main_arg6) (V c main_arg7) (V c main_arg8) (V c main_arg9))
  (hMsg : ∀ (V : (c : Dev nD) → (b : Ref sig .tc) → Buf (Elt Ideal) ((c : Thread nD τ).loc b)) (c : Dev nD),
    (Msg.dat (F := Ideal) V c).arrAt 8 cfg1.N
      = Encoder.emb (V c main_v53) (V c main_v9_0) (V c main_arg10) (V c main_arg11) (V c main_arg12) (V c main_arg13) (V c main_arg14) (V c main_arg15))
  (hFeat : V3 (F := Ideal) m c main_v8 = refX m c)

include hFeat in
/-- What the first dense stage computes from: the features and the four parameter arrays. -/
theorem proj_of_entry : Encoder.hid (E3 m c main_v8) (E3 m c main_arg6) (E3 m c main_arg7) (E3 m c main_arg8) (E3 m c main_arg9) = refH m c := by
  have e8 : E3 m c main_v8 = refX m c := hFeat
  have e6 : E3 m c main_arg6 = m ((c : Thread nD τ).loc main_arg6) := B3_keep m c main_arg6 (by decide) (by decide) (by decide)
  have e7 : E3 m c main_arg7 = m ((c : Thread nD τ).loc main_arg7) := B3_keep m c main_arg7 (by decide) (by decide) (by decide)
  have e8' : E3 m c main_arg8 = m ((c : Thread nD τ).loc main_arg8) := B3_keep m c main_arg8 (by decide) (by decide) (by decide)
  have e9 : E3 m c main_arg9 = m ((c : Thread nD τ).loc main_arg9) := B3_keep m c main_arg9 (by decide) (by decide) (by decide)
  rw [e8, e6, e7, e8', e9]
  exact (Cert.ReferenceIdeal.RefValue.hidden_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) (m ((c : Thread nD τ).loc main_arg17)) (m ((c : Thread nD τ).loc main_arg18)) (m ((c : Thread nD τ).loc main_arg19))).symm

include hProjB hFeat in
/-- The rounded copy of the hidden features after the first stage is the reference's hidden features. -/
theorem hidden_bf16 : B4 m c (Proc.devRef .tc main_v9_1) = refH m c :=
  (B4_arr m c 6).trans ((hProjB (E3 m) c).trans (proj_of_entry m c hFeat))

include hProjF hFeat in
/-- and so is the f32 copy. -/
theorem hidden_f32 : B4 m c (Proc.devRef .tc main_v9_0) = refH m c :=
  (B4_arr m c 5).trans ((hProjF (E3 m) c).trans (proj_of_entry m c hFeat))

include hProjB hFeat in
/-- The aggregated messages. -/
theorem aggregated : B5 m c (Proc.devRef .tc main_v53) = refAgg m c := by
  show StableHlo.after hostOps1 (B4 m c) (Proc.devRef .tc main_v53) = _
  rw [Cert.ReferenceIdeal.Chains.kernel_agg (B4 m c), hidden_bf16 m c hProjB hFeat,
    B4_keep' m c main_arg3 (by decide) (by decide) (by decide) (by decide) (by decide),
    B4_keep' m c main_arg4 (by decide) (by decide) (by decide) (by decide) (by decide),
    B4_keep' m c main_arg17 (by decide) (by decide) (by decide) (by decide) (by decide),
    B4_keep' m c main_arg18 (by decide) (by decide) (by decide) (by decide) (by decide),
    B4_keep' m c main_arg19 (by decide) (by decide) (by decide) (by decide) (by decide)]
  exact (Cert.ReferenceIdeal.Chains.ref_agg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) (m ((c : Thread nD τ).loc main_arg17)) (m ((c : Thread nD τ).loc main_arg18)) (m ((c : Thread nD τ).loc main_arg19))).symm

include hProjF hFeat in
/-- The f32 hidden features are untouched by the edge aggregation. -/
theorem hidden_at_entry2 : B5 m c (Proc.devRef .tc main_v9_0) = refH m c :=
  (StableHlo.after_of_writes_sub hostOps1 _ hostOps1_writes (by decide : main_v9_0 ∉ hostOps1_W)).trans (hidden_f32 m c hProjF hFeat)

include hProjF hProjB hMsg hFeat in
/-- The block embeddings after the second stage. -/
theorem embeddings6 : B6 m c (Proc.devRef .tc main_v54) = refOut m c := by
  refine (B6_arr m c 8).trans ((hMsg (E5 m) c).trans ?_)
  have e53 : E5 m c main_v53 = refAgg m c := aggregated m c hProjB hFeat
  have e90 : E5 m c main_v9_0 = refH m c := hidden_at_entry2 m c hProjF hFeat
  have e10 : E5 m c main_arg10 = m ((c : Thread nD τ).loc main_arg10) := B5_keep' m c main_arg10 (by decide) (by decide) (by decide) (by decide) (by decide) (by decide)
  have e11 : E5 m c main_arg11 = m ((c : Thread nD τ).loc main_arg11) := B5_keep' m c main_arg11 (by decide) (by decide) (by decide) (by decide) (by decide) (by decide)
  have e12 : E5 m c main_arg12 = m ((c : Thread nD τ).loc main_arg12) := B5_keep' m c main_arg12 (by decide) (by decide) (by decide) (by decide) (by decide) (by decide)
  have e13 : E5 m c main_arg13 = m ((c : Thread nD τ).loc main_arg13) := B5_keep' m c main_arg13 (by decide) (by decide) (by decide) (by decide) (by decide) (by decide)
  have e14 : E5 m c main_arg14 = m ((c : Thread nD τ).loc main_arg14) := B5_keep' m c main_arg14 (by decide) (by decide) (by decide) (by decide) (by decide) (by decide)
  have e15 : E5 m c main_arg15 = m ((c : Thread nD τ).loc main_arg15) := B5_keep' m c main_arg15 (by decide) (by decide) (by decide) (by decide) (by decide) (by decide)
  rw [e53, e90, e10, e11, e12, e13, e14, e15]
  exact (Cert.ReferenceIdeal.RefValue.embed_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))).symm

include hProjF hProjB hMsg hFeat in
/-- The first result at the end of the run: the last stretch does not write it. -/
theorem result0 : B7 m c (Proc.devRef .tc main_v54) = refOut m c :=
  (StableHlo.after_of_writes_sub hostOps2 _ hostOps2_writes (by decide : main_v54 ∉ hostOps2_W)).trans (embeddings6 m c hProjF hProjB hMsg hFeat)

include hProjF hProjB hMsg hFeat in
/-- The second result: the column mean of the first. -/
theorem result1 : B7 m c (Proc.devRef .tc main_v57) = refMean m c := by
  show StableHlo.after hostOps2 (B6 m c) (Proc.devRef .tc main_v57) = _
  rw [Cert.ReferenceIdeal.Chains.kernel_mean (B6 m c), embeddings6 m c hProjF hProjB hMsg hFeat]
  exact (Cert.ReferenceIdeal.Chains.ref_mean (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))).symm

end

/-- The third result: the all-ones mask. -/
theorem result2 : B7 m c (Proc.devRef .tc main_v58)
    = broadcastInDim Cert.ReferenceIdeal.S100000 ![] Cert.ReferenceIdeal.Gen.bcast_S_S100000 (constantI Cert.ReferenceIdeal.S_ 1 1#1) :=
  Cert.ReferenceIdeal.Chains.kernel_mask (B6 m c)

end Cert.KernelIdeal.Bridge

end
-- ==== Proof.lean ====
/-
  The certificate. Under the precondition — every float input finite and every role id in 0 … 7 —

  * each of the three programs runs to the end from any memory, nothing faulting, and leaves its twenty argument
    arrays as launched. For the two kernel programs this is the run over their seven segments (two tiled dense stages
    among stretches of host operations); for the reference it is its run of host operations.
  * the idealisation of the kernel rewrote nothing, so there is nothing to preserve.
  * over the extended reals the idealised kernel and the reference, from memories agreeing on the arguments, end with
    the same three results. The block embeddings: both compute, row by row, the normalised sum of the hidden features
    and the message layers of the aggregated messages; the kernel does it 4000 rows at a time with products rounded
    to bf16 on the way in, which over the extended reals changes nothing; its feature matrix is the reference's
    because with the role ids in range its table lookup never takes its fill value, and its one scatter-add of the
    concatenated edge weights is the reference's three scatter-adds summed. The graph embedding is the same column
    mean of equal matrices; the mask is all ones in both.
-/
import proofs.«407380_j30331059044746_3_alg».proof.Defs
import proofs.«407380_j30331059044746_3_alg».proof.Proof.Gen.Kernel
import proofs.«407380_j30331059044746_3_alg».proof.Proof.Gen.KernelIdeal
import proofs.«407380_j30331059044746_3_alg».proof.Proof.Gen.ReferenceIdeal
import proofs.«407380_j30331059044746_3_alg».proof.Proof.Gen.ReferenceIdeal.Run
import proofs.«407380_j30331059044746_3_alg».proof.Proof.Gen.ReferenceIdeal.Read
import proofs.«407380_j30331059044746_3_alg».proof.Proof.Gen.Pre_finite_inputs
import proofs.«407380_j30331059044746_3_alg».proof.Proof.Bits.Whole
import proofs.«407380_j30331059044746_3_alg».proof.Proof.Ideal.Whole
import proofs.«407380_j30331059044746_3_alg».proof.Proof.Ideal.ProjValue
import proofs.«407380_j30331059044746_3_alg».proof.Proof.Ideal.MsgValue
import proofs.«407380_j30331059044746_3_alg».proof.Proof.Ideal.Features
import proofs.«407380_j30331059044746_3_alg».proof.Proof.RoleRange
import proofs.«407380_j30331059044746_3_alg».proof.Proof.Bridge
import Idealize.ShloMosaic.Adequacy
import Idealize.ShloMosaic.Init

set_option maxRecDepth 16384

noncomputable section

namespace Cert.Proof

open Idealize.ShloMosaic Idealize.SL.Sem

/-- The word-level kernel runs to the end and leaves its arguments as launched. -/
theorem frame_bits : Cert.frame_Kernel := fun m ρ _ =>
  (θ_run Cert.Kernel.defs _ _).mono (fun r h c =>
    ⟨(h c Cert.Kernel.main_arg0 (by decide)).trans (Cert.Kernel.Whole.kept_arg0 m c),
     (h c Cert.Kernel.main_arg1 (by decide)).trans (Cert.Kernel.Whole.kept_arg1 m c),
     (h c Cert.Kernel.main_arg2 (by decide)).trans (Cert.Kernel.Whole.kept_arg2 m c),
     (h c Cert.Kernel.main_arg3 (by decide)).trans (Cert.Kernel.Whole.kept_arg3 m c),
     (h c Cert.Kernel.main_arg4 (by decide)).trans (Cert.Kernel.Whole.kept_arg4 m c),
     (h c Cert.Kernel.main_arg5 (by decide)).trans (Cert.Kernel.Whole.kept_arg5 m c),
     (h c Cert.Kernel.main_arg6 (by decide)).trans (Cert.Kernel.Whole.kept_arg6 m c),
     (h c Cert.Kernel.main_arg7 (by decide)).trans (Cert.Kernel.Whole.kept_arg7 m c),
     (h c Cert.Kernel.main_arg8 (by decide)).trans (Cert.Kernel.Whole.kept_arg8 m c),
     (h c Cert.Kernel.main_arg9 (by decide)).trans (Cert.Kernel.Whole.kept_arg9 m c),
     (h c Cert.Kernel.main_arg10 (by decide)).trans (Cert.Kernel.Whole.kept_arg10 m c),
     (h c Cert.Kernel.main_arg11 (by decide)).trans (Cert.Kernel.Whole.kept_arg11 m c),
     (h c Cert.Kernel.main_arg12 (by decide)).trans (Cert.Kernel.Whole.kept_arg12 m c),
     (h c Cert.Kernel.main_arg13 (by decide)).trans (Cert.Kernel.Whole.kept_arg13 m c),
     (h c Cert.Kernel.main_arg14 (by decide)).trans (Cert.Kernel.Whole.kept_arg14 m c),
     (h c Cert.Kernel.main_arg15 (by decide)).trans (Cert.Kernel.Whole.kept_arg15 m c),
     (h c Cert.Kernel.main_arg16 (by decide)).trans (Cert.Kernel.Whole.kept_arg16 m c),
     (h c Cert.Kernel.main_arg17 (by decide)).trans (Cert.Kernel.Whole.kept_arg17 m c),
     (h c Cert.Kernel.main_arg18 (by decide)).trans (Cert.Kernel.Whole.kept_arg18 m c),
     (h c Cert.Kernel.main_arg19 (by decide)).trans (Cert.Kernel.Whole.kept_arg19 m c)⟩)
    (Cert.Kernel.Whole.run (F := Bits) m ρ)

/-- So does the idealised kernel. -/
theorem frame_ideal : Cert.frame_KernelIdeal := fun m ρ _ =>
  (θ_run Cert.KernelIdeal.defs _ _).mono (fun r h c =>
    ⟨(h c Cert.KernelIdeal.main_arg0 (by decide)).trans (Cert.KernelIdeal.Whole.kept_arg0 m c),
     (h c Cert.KernelIdeal.main_arg1 (by decide)).trans (Cert.KernelIdeal.Whole.kept_arg1 m c),
     (h c Cert.KernelIdeal.main_arg2 (by decide)).trans (Cert.KernelIdeal.Whole.kept_arg2 m c),
     (h c Cert.KernelIdeal.main_arg3 (by decide)).trans (Cert.KernelIdeal.Whole.kept_arg3 m c),
     (h c Cert.KernelIdeal.main_arg4 (by decide)).trans (Cert.KernelIdeal.Whole.kept_arg4 m c),
     (h c Cert.KernelIdeal.main_arg5 (by decide)).trans (Cert.KernelIdeal.Whole.kept_arg5 m c),
     (h c Cert.KernelIdeal.main_arg6 (by decide)).trans (Cert.KernelIdeal.Whole.kept_arg6 m c),
     (h c Cert.KernelIdeal.main_arg7 (by decide)).trans (Cert.KernelIdeal.Whole.kept_arg7 m c),
     (h c Cert.KernelIdeal.main_arg8 (by decide)).trans (Cert.KernelIdeal.Whole.kept_arg8 m c),
     (h c Cert.KernelIdeal.main_arg9 (by decide)).trans (Cert.KernelIdeal.Whole.kept_arg9 m c),
     (h c Cert.KernelIdeal.main_arg10 (by decide)).trans (Cert.KernelIdeal.Whole.kept_arg10 m c),
     (h c Cert.KernelIdeal.main_arg11 (by decide)).trans (Cert.KernelIdeal.Whole.kept_arg11 m c),
     (h c Cert.KernelIdeal.main_arg12 (by decide)).trans (Cert.KernelIdeal.Whole.kept_arg12 m c),
     (h c Cert.KernelIdeal.main_arg13 (by decide)).trans (Cert.KernelIdeal.Whole.kept_arg13 m c),
     (h c Cert.KernelIdeal.main_arg14 (by decide)).trans (Cert.KernelIdeal.Whole.kept_arg14 m c),
     (h c Cert.KernelIdeal.main_arg15 (by decide)).trans (Cert.KernelIdeal.Whole.kept_arg15 m c),
     (h c Cert.KernelIdeal.main_arg16 (by decide)).trans (Cert.KernelIdeal.Whole.kept_arg16 m c),
     (h c Cert.KernelIdeal.main_arg17 (by decide)).trans (Cert.KernelIdeal.Whole.kept_arg17 m c),
     (h c Cert.KernelIdeal.main_arg18 (by decide)).trans (Cert.KernelIdeal.Whole.kept_arg18 m c),
     (h c Cert.KernelIdeal.main_arg19 (by decide)).trans (Cert.KernelIdeal.Whole.kept_arg19 m c)⟩)
    (Cert.KernelIdeal.Whole.run (F := Ideal) m ρ)

/-- The reference: its run, with the results dropped. -/
theorem frame_ref : Cert.frame_ReferenceIdeal := fun m ρ _ =>
  (θ_run Cert.ReferenceIdeal.defs _ _).mono (fun _ h c => (h c).2.2.2) (Cert.ReferenceIdeal.Value.run (F := Ideal) m ρ)

/-- The idealisation rewrote nothing. -/
theorem preserves : Cert.preserves_Kernel_KernelIdeal := trivial

/-- Equal results over the extended reals. -/
theorem algebraic : Cert.algebraic_KernelIdeal_ReferenceIdeal := by
  intro m ρ m' ρ' hpre hagree
  have hrole := fun c => Cert.Proof.RoleRange.role_range m hpre c
  have hfeat := fun c => Cert.KernelIdeal.Features.features_eq m c (hrole c)
  have r0 := fun c => Cert.KernelIdeal.Bridge.result0 m c Cert.KernelIdeal.ProjValue.final_f32 Cert.KernelIdeal.ProjValue.final_bf16
    Cert.KernelIdeal.MsgValue.final (hfeat c)
  have r1 := fun c => Cert.KernelIdeal.Bridge.result1 m c Cert.KernelIdeal.ProjValue.final_f32 Cert.KernelIdeal.ProjValue.final_bf16
    Cert.KernelIdeal.MsgValue.final (hfeat c)
  refine ⟨fun c => Cert.KernelIdeal.Whole.B7 m c (Proc.devRef .tc Cert.KernelIdeal.main_v54),
    fun c => Cert.KernelIdeal.Whole.B7 m c (Proc.devRef .tc Cert.KernelIdeal.main_v57),
    fun c => Cert.KernelIdeal.Whole.B7 m c (Proc.devRef .tc Cert.KernelIdeal.main_v58), ?_, ?_⟩
  · exact (θ_run Cert.KernelIdeal.defs _ _).mono (fun r h c =>
      ⟨h c Cert.KernelIdeal.main_v54 (by decide), h c Cert.KernelIdeal.main_v57 (by decide), h c Cert.KernelIdeal.main_v58 (by decide),
       (h c Cert.KernelIdeal.main_arg0 (by decide)).trans (Cert.KernelIdeal.Whole.kept_arg0 m c),
       (h c Cert.KernelIdeal.main_arg1 (by decide)).trans (Cert.KernelIdeal.Whole.kept_arg1 m c),
       (h c Cert.KernelIdeal.main_arg2 (by decide)).trans (Cert.KernelIdeal.Whole.kept_arg2 m c),
       (h c Cert.KernelIdeal.main_arg3 (by decide)).trans (Cert.KernelIdeal.Whole.kept_arg3 m c),
       (h c Cert.KernelIdeal.main_arg4 (by decide)).trans (Cert.KernelIdeal.Whole.kept_arg4 m c),
       (h c Cert.KernelIdeal.main_arg5 (by decide)).trans (Cert.KernelIdeal.Whole.kept_arg5 m c),
       (h c Cert.KernelIdeal.main_arg6 (by decide)).trans (Cert.KernelIdeal.Whole.kept_arg6 m c),
       (h c Cert.KernelIdeal.main_arg7 (by decide)).trans (Cert.KernelIdeal.Whole.kept_arg7 m c),
       (h c Cert.KernelIdeal.main_arg8 (by decide)).trans (Cert.KernelIdeal.Whole.kept_arg8 m c),
       (h c Cert.KernelIdeal.main_arg9 (by decide)).trans (Cert.KernelIdeal.Whole.kept_arg9 m c),
       (h c Cert.KernelIdeal.main_arg10 (by decide)).trans (Cert.KernelIdeal.Whole.kept_arg10 m c),
       (h c Cert.KernelIdeal.main_arg11 (by decide)).trans (Cert.KernelIdeal.Whole.kept_arg11 m c),
       (h c Cert.KernelIdeal.main_arg12 (by decide)).trans (Cert.KernelIdeal.Whole.kept_arg12 m c),
       (h c Cert.KernelIdeal.main_arg13 (by decide)).trans (Cert.KernelIdeal.Whole.kept_arg13 m c),
       (h c Cert.KernelIdeal.main_arg14 (by decide)).trans (Cert.KernelIdeal.Whole.kept_arg14 m c),
       (h c Cert.KernelIdeal.main_arg15 (by decide)).trans (Cert.KernelIdeal.Whole.kept_arg15 m c),
       (h c Cert.KernelIdeal.main_arg16 (by decide)).trans (Cert.KernelIdeal.Whole.kept_arg16 m c),
       (h c Cert.KernelIdeal.main_arg17 (by decide)).trans (Cert.KernelIdeal.Whole.kept_arg17 m c),
       (h c Cert.KernelIdeal.main_arg18 (by decide)).trans (Cert.KernelIdeal.Whole.kept_arg18 m c),
       (h c Cert.KernelIdeal.main_arg19 (by decide)).trans (Cert.KernelIdeal.Whole.kept_arg19 m c)⟩)
      (Cert.KernelIdeal.Whole.run (F := Ideal) m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · obtain ⟨a0, a1, a2, a3, a4, a5, a6, a7, a8, a9, a10, a11, a12, a13, a14, a15, a16, a17, a18, a19⟩ := hagree c
      rw [Cert.ReferenceIdeal.Read.val_main_v105_eq, a0, a1, a2, a3, a4, a5, a6, a7, a8, a9, a10, a11, a12, a13, a14, a15, a16, a17, a18, a19]
      exact (r0 c).symm
    · obtain ⟨a0, a1, a2, a3, a4, a5, a6, a7, a8, a9, a10, a11, a12, a13, a14, a15, a16, a17, a18, a19⟩ := hagree c
      rw [Cert.ReferenceIdeal.Read.val_main_v108_eq, a0, a1, a2, a3, a4, a5, a6, a7, a8, a9, a10, a11, a12, a13, a14, a15, a16, a17, a18, a19]
      exact (r1 c).symm
    · exact (Cert.KernelIdeal.Bridge.result2 m c).symm

theorem claim : Cert.Claim := ⟨Cert.Kernel.Gen.facts, Cert.KernelIdeal.Gen.facts, Cert.ReferenceIdeal.Gen.facts, Cert.Pre_finite_inputs.Gen.facts,
  frame_bits, frame_ideal, frame_ref, preserves, algebraic⟩

end Cert.Proof

end
